-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x8 : Shape := ⟨3, ![4, 4096, 8]⟩
abbrev S800000x128 : Shape := ⟨2, ![800000, 128]⟩
abbrev S8 : Shape := ⟨1, ![8]⟩
abbrev S1x1x8 : Shape := ⟨3, ![1, 1, 8]⟩
abbrev S_ : Shape := ⟨0, ![]⟩

class Facts : Prop where
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  bcast_S_S800000x128 : S_.BroadcastsInDim S800000x128 (![] : Fin 0 → Fin S800000x128.rank)
  reducesTo_S800000x128_S_d0_1 : S800000x128.ReducesTo [0, 1] S_
  h_S_ : 0 < S_.numel
  bcast_S_S4x4096x8 : S_.BroadcastsInDim S4x4096x8 (![] : Fin 0 → Fin S4x4096x8.rank)
  reducesTo_S4x4096x8_S_d0_1_2 : S4x4096x8.ReducesTo [0, 1, 2] S_

variable [Facts]

def fn {F : FTy → Type} [FloatOps F] (main_arg0 : IVec S4x4096x8 32) (main_arg1 : FVec F S800000x128 .f32) (main_arg2 : IVec S8 32) : IVec S_ 1 :=
  let main_v0 : IVec S1x1x8 32 := broadcastInDim S1x1x8 ![2] bcast_S8_S1x1x8_2 main_arg2
  let main_v1 : IVec S4x4096x8 32 := broadcastInDim S4x4096x8 ![0, 1, 2] bcast_S1x1x8_S4x4096x8_0_1_2 main_v0
  let main_v2 : IVec S4x4096x8 32 := addi main_arg0 main_v1
  let main_v3 : FVec F S800000x128 .f32 := Host.absf main_arg1
  let main_cst : FVec F S_ .f32 := constant S_ .f32 0x7F800000#32
  let main_v4 : FVec F S800000x128 .f32 := broadcastInDim S800000x128 ![] bcast_S_S800000x128 main_cst
  let main_v5 : IVec S800000x128 1 := cmpf .olt main_v3 main_v4
  let main_c : IVec S_ 1 := constantI S_ 1 1#1
  let main_v6 : IVec S_ 1 := (fun x v => Host.reduce IntOp.andi x v reducesTo_S800000x128_S_d0_1 h_S_) main_v5 main_c
  let main_c_0 : IVec S_ 32 := constantI S_ 32 0#32
  let main_v7 : IVec S4x4096x8 32 := broadcastInDim S4x4096x8 ![] bcast_S_S4x4096x8 main_c_0
  let main_v8 : IVec S4x4096x8 1 := cmpi .sge main_v2 main_v7
  let main_c_1 : IVec S_ 32 := constantI S_ 32 800000#32
  let main_v9 : IVec S4x4096x8 32 := broadcastInDim S4x4096x8 ![] bcast_S_S4x4096x8 main_c_1
  let main_v10 : IVec S4x4096x8 1 := cmpi .slt main_v2 main_v9
  let main_v11 : IVec S4x4096x8 1 := andi main_v8 main_v10
  let main_c_2 : IVec S_ 1 := constantI S_ 1 1#1
  let main_v12 : IVec S_ 1 := (fun x v => Host.reduce IntOp.andi x v reducesTo_S4x4096x8_S_d0_1_2 h_S_) main_v11 main_c_2
  let main_v13 : IVec S_ 1 := andi main_v6 main_v12
  main_v13
-- ==== Kernel.lean ====
abbrev S4x4096x8 : Shape := ⟨3, ![4, 4096, 8]⟩
abbrev S800000x128 : Shape := ⟨2, ![800000, 128]⟩
abbrev S8 : Shape := ⟨1, ![8]⟩
abbrev S1x1x8 : Shape := ⟨3, ![1, 1, 8]⟩
abbrev S131072 : Shape := ⟨1, ![131072]⟩
abbrev S131072x128 : Shape := ⟨2, ![131072, 128]⟩
abbrev S8x128 : Shape := ⟨2, ![8, 128]⟩
abbrev S1 : Shape := ⟨1, ![1]⟩
abbrev S_ : Shape := ⟨0, ![]⟩
abbrev S1x128 : Shape := ⟨2, ![1, 128]⟩
abbrev S128 : Shape := ⟨1, ![128]⟩
abbrev S4x4096x8x128 : Shape := ⟨4, ![4, 4096, 8, 128]⟩

abbrev nBuf : Space → Nat
  | .hbm => 8
  | .vmem => 2
  | .smem => 1
  | _ => 0

abbrev bufTy : (tb : Table) → Fin (tcTables nBuf tb) → BufTy
  | .hbm, ⟨0, _⟩ => ⟨S4x4096x8, .i32⟩
  | .hbm, ⟨1, _⟩ => ⟨S800000x128, .f32⟩
  | .hbm, ⟨2, _⟩ => ⟨S8, .i32⟩
  | .hbm, ⟨3, _⟩ => ⟨S1x1x8, .i32⟩
  | .hbm, ⟨4, _⟩ => ⟨S4x4096x8, .i32⟩
  | .hbm, ⟨5, _⟩ => ⟨S4x4096x8, .i32⟩
  | .hbm, ⟨6, _⟩ => ⟨S131072x128, .f32⟩
  | .hbm, ⟨7, _⟩ => ⟨S4x4096x8x128, .f32⟩
  | .local _ .vmem, ⟨0, _⟩ => ⟨S8x128, .f32⟩
  | .local _ .vmem, ⟨1, _⟩ => ⟨S8x128, .f32⟩
  | .local _ .smem, ⟨0, _⟩ => ⟨S131072, .i32⟩
  | _, _ => ⟨S4x4096x8, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v4 : Ref sig .tc := ⟨.hbm, 6, rfl⟩
abbrev main_v5 : Ref sig .tc := ⟨.hbm, 7, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16384], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c8_i32_4 : BitVec 32 := 8#32
  let v10 : BitVec 32 := Scalar.muli arg0 c8_i32_4
  let c1_i32 : BitVec 32 := 1#32
  let v11 : BitVec 32 := Scalar.addi v10 c1_i32
  let v12 : Index := Scalar.indexCast v11
  ![v12.toNat]
def k0_off4 (v13 : BitVec 32) : Fin 2 → Nat :=
  let c0_i32_8 : BitVec 32 := 0#32
  ![v13.toNat, 0]

def k0_off5 (i : grid0.Coords) : Fin 1 → Nat :=
  let arg0 : BitVec 32 := BitVec.ofNat 32 (i 0).val
  let c8_i32_9 : BitVec 32 := 8#32
  let v20 : BitVec 32 := Scalar.muli arg0 c8_i32_9
  let c2_i32 : BitVec 32 := 2#32
  let v21 : BitVec 32 := Scalar.addi v20 c2_i32
  let v22 : Index := Scalar.indexCast v21
  ![v22.toNat]
def k0_off6 (v23 : BitVec 32) : Fin 2 → Nat :=
  let c0_i32_13 : BitVec 32 := 0#32
  ![v23.toNat, 0]

def k0_off7 (i : grid0.Coords) : Fin 1 → Nat :=
  let arg0 : BitVec 32 := BitVec.ofNat 32 (i 0).val
  let c8_i32_14 : BitVec 32 := 8#32
  let v30 : BitVec 32 := Scalar.muli arg0 c8_i32_14
  let c3_i32 : BitVec 32 := 3#32
  let v31 : BitVec 32 := Scalar.addi v30 c3_i32
  let v32 : Index := Scalar.indexCast v31
  ![v32.toNat]
def k0_off8 (v33 : BitVec 32) : Fin 2 → Nat :=
  let c0_i32_18 : BitVec 32 := 0#32
  ![v33.toNat, 0]

def k0_off9 (i : grid0.Coords) : Fin 1 → Nat :=
  let arg0 : BitVec 32 := BitVec.ofNat 32 (i 0).val
  let c8_i32_19 : BitVec 32 := 8#32
  let v40 : BitVec 32 := Scalar.muli arg0 c8_i32_19
  let c4_i32 : BitVec 32 := 4#32
  let v41 : BitVec 32 := Scalar.addi v40 c4_i32
  let v42 : Index := Scalar.indexCast v41
  ![v42.toNat]
def k0_off10 (v43 : BitVec 32) : Fin 2 → Nat :=
  let c0_i32_23 : BitVec 32 := 0#32
  ![v43.toNat, 0]

def k0_off11 (i : grid0.Coords) : Fin 1 → Nat :=
  let arg0 : BitVec 32 := BitVec.ofNat 32 (i 0).val
  let c8_i32_24 : BitVec 32 := 8#32
  let v50 : BitVec 32 := Scalar.muli arg0 c8_i32_24
  let c5_i32 : BitVec 32 := 5#32
  let v51 : BitVec 32 := Scalar.addi v50 c5_i32
  let v52 : Index := Scalar.indexCast v51
  ![v52.toNat]
def k0_off12 (v53 : BitVec 32) : Fin 2 → Nat :=
  let c0_i32_28 : BitVec 32 := 0#32
  ![v53.toNat, 0]

def k0_off13 (i : grid0.Coords) : Fin 1 → Nat :=
  let arg0 : BitVec 32 := BitVec.ofNat 32 (i 0).val
  let c8_i32_29 : BitVec 32 := 8#32
  let v60 : BitVec 32 := Scalar.muli arg0 c8_i32_29
  let c6_i32 : BitVec 32 := 6#32
  let v61 : BitVec 32 := Scalar.addi v60 c6_i32
  let v62 : Index := Scalar.indexCast v61
  ![v62.toNat]
def k0_off14 (v63 : BitVec 32) : Fin 2 → Nat :=
  let c0_i32_33 : BitVec 32 := 0#32
  ![v63.toNat, 0]

def k0_off15 (i : grid0.Coords) : Fin 1 → Nat :=
  let arg0 : BitVec 32 := BitVec.ofNat 32 (i 0).val
  let c8_i32_34 : BitVec 32 := 8#32
  let v70 : BitVec 32 := Scalar.muli arg0 c8_i32_34
  let c7_i32 : BitVec 32 := 7#32
  let v71 : BitVec 32 := Scalar.addi v70 c7_i32
  let v72 : Index := Scalar.indexCast v71
  ![v72.toNat]
def k0_off16 (v73 : BitVec 32) : Fin 2 → Nat :=
  let c0_i32_38 : BitVec 32 := 0#32
  ![v73.toNat, 0]

def k0_chk8 (v73 : BitVec 32) : Prop :=
  (∀ a, (k0_off16 v73) a + S1x128.size a ≤ S800000x128.size a)
instance k0_chk8.dec : ∀ (v73 : BitVec 32), Decidable (k0_chk8 v73) := fun v73 => decidable_of_iff' _ (Iff.of_eq (k0_chk8.eq_1 v73))
theorem k0_off16_inb : ∀ (v73 : BitVec 32) (k0_hw8 : k0_chk8 v73), ∀ a, (k0_off16 v73) a + S1x128.size a ≤ S800000x128.size a := fun v73 k0_hw8 => k0_hw8

def k0_off17 (v3 : BitVec 32) : Fin 2 → Nat :=
  let c0_i32_42 : BitVec 32 := 0#32
  ![v3.toNat, 0]

def k0_chk1 (v3 : BitVec 32) : Prop :=
  (∀ a, (k0_off2 v3) a + S1x128.size a ≤ S800000x128.size a) ∧
  (∀ a, (k0_off17 v3) a + S1x128.size a ≤ S800000x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x128.size a ≤ S800000x128.size a := fun v3 k0_hw1 => k0_hw1.1
theorem k0_off17_inb : ∀ (v3 : BitVec 32) (k0_hw1 : k0_chk1 v3), ∀ a, (k0_off17 v3) a + S1x128.size a ≤ S800000x128.size a := fun v3 k0_hw1 => k0_hw1.2

def k0_off18 (v13 : BitVec 32) : Fin 2 → Nat :=
  let c0_i32_46 : BitVec 32 := 0#32
  ![v13.toNat, 0]

def k0_chk2 (v13 : BitVec 32) : Prop :=
  (∀ a, (k0_off4 v13) a + S1x128.size a ≤ S800000x128.size a) ∧
  (∀ a, (k0_off18 v13) a + S1x128.size a ≤ S800000x128.size a)
instance k0_chk2.dec : ∀ (v13 : BitVec 32), Decidable (k0_chk2 v13) := fun v13 => decidable_of_iff' _ (Iff.of_eq (k0_chk2.eq_1 v13))
theorem k0_off4_inb : ∀ (v13 : BitVec 32) (k0_hw2 : k0_chk2 v13), ∀ a, (k0_off4 v13) a + S1x128.size a ≤ S800000x128.size a := fun v13 k0_hw2 => k0_hw2.1
theorem k0_off18_inb : ∀ (v13 : BitVec 32) (k0_hw2 : k0_chk2 v13), ∀ a, (k0_off18 v13) a + S1x128.size a ≤ S800000x128.size a := fun v13 k0_hw2 => k0_hw2.2

def k0_off19 (v23 : BitVec 32) : Fin 2 → Nat :=
  let c0_i32_50 : BitVec 32 := 0#32
  ![v23.toNat, 0]

def k0_chk3 (v23 : BitVec 32) : Prop :=
  (∀ a, (k0_off6 v23) a + S1x128.size a ≤ S800000x128.size a) ∧
  (∀ a, (k0_off19 v23) a + S1x128.size a ≤ S800000x128.size a)
instance k0_chk3.dec : ∀ (v23 : BitVec 32), Decidable (k0_chk3 v23) := fun v23 => decidable_of_iff' _ (Iff.of_eq (k0_chk3.eq_1 v23))
theorem k0_off6_inb : ∀ (v23 : BitVec 32) (k0_hw3 : k0_chk3 v23), ∀ a, (k0_off6 v23) a + S1x128.size a ≤ S800000x128.size a := fun v23 k0_hw3 => k0_hw3.1
theorem k0_off19_inb : ∀ (v23 : BitVec 32) (k0_hw3 : k0_chk3 v23), ∀ a, (k0_off19 v23) a + S1x128.size a ≤ S800000x128.size a := fun v23 k0_hw3 => k0_hw3.2

def k0_off20 (v33 : BitVec 32) : Fin 2 → Nat :=
  let c0_i32_54 : BitVec 32 := 0#32
  ![v33.toNat, 0]

def k0_chk4 (v33 : BitVec 32) : Prop :=
  (∀ a, (k0_off8 v33) a + S1x128.size a ≤ S800000x128.size a) ∧
  (∀ a, (k0_off20 v33) a + S1x128.size a ≤ S800000x128.size a)
instance k0_chk4.dec : ∀ (v33 : BitVec 32), Decidable (k0_chk4 v33) := fun v33 => decidable_of_iff' _ (Iff.of_eq (k0_chk4.eq_1 v33))
theorem k0_off8_inb : ∀ (v33 : BitVec 32) (k0_hw4 : k0_chk4 v33), ∀ a, (k0_off8 v33) a + S1x128.size a ≤ S800000x128.size a := fun v33 k0_hw4 => k0_hw4.1
theorem k0_off20_inb : ∀ (v33 : BitVec 32) (k0_hw4 : k0_chk4 v33), ∀ a, (k0_off20 v33) a + S1x128.size a ≤ S800000x128.size a := fun v33 k0_hw4 => k0_hw4.2

def k0_off21 (v43 : BitVec 32) : Fin 2 → Nat :=
  let c0_i32_58 : BitVec 32 := 0#32
  ![v43.toNat, 0]

def k0_chk5 (v43 : BitVec 32) : Prop :=
  (∀ a, (k0_off10 v43) a + S1x128.size a ≤ S800000x128.size a) ∧
  (∀ a, (k0_off21 v43) a + S1x128.size a ≤ S800000x128.size a)
instance k0_chk5.dec : ∀ (v43 : BitVec 32), Decidable (k0_chk5 v43) := fun v43 => decidable_of_iff' _ (Iff.of_eq (k0_chk5.eq_1 v43))
theorem k0_off10_inb : ∀ (v43 : BitVec 32) (k0_hw5 : k0_chk5 v43), ∀ a, (k0_off10 v43) a + S1x128.size a ≤ S800000x128.size a := fun v43 k0_hw5 => k0_hw5.1
theorem k0_off21_inb : ∀ (v43 : BitVec 32) (k0_hw5 : k0_chk5 v43), ∀ a, (k0_off21 v43) a + S1x128.size a ≤ S800000x128.size a := fun v43 k0_hw5 => k0_hw5.2

def k0_off22 (v53 : BitVec 32) : Fin 2 → Nat :=
  let c0_i32_62 : BitVec 32 := 0#32
  ![v53.toNat, 0]

def k0_chk6 (v53 : BitVec 32) : Prop :=
  (∀ a, (k0_off12 v53) a + S1x128.size a ≤ S800000x128.size a) ∧
  (∀ a, (k0_off22 v53) a + S1x128.size a ≤ S800000x128.size a)
instance k0_chk6.dec : ∀ (v53 : BitVec 32), Decidable (k0_chk6 v53) := fun v53 => decidable_of_iff' _ (Iff.of_eq (k0_chk6.eq_1 v53))
theorem k0_off12_inb : ∀ (v53 : BitVec 32) (k0_hw6 : k0_chk6 v53), ∀ a, (k0_off12 v53) a + S1x128.size a ≤ S800000x128.size a := fun v53 k0_hw6 => k0_hw6.1
theorem k0_off22_inb : ∀ (v53 : BitVec 32) (k0_hw6 : k0_chk6 v53), ∀ a, (k0_off22 v53) a + S1x128.size a ≤ S800000x128.size a := fun v53 k0_hw6 => k0_hw6.2

def k0_off23 (v63 : BitVec 32) : Fin 2 → Nat :=
  let c0_i32_66 : BitVec 32 := 0#32
  ![v63.toNat, 0]

def k0_chk7 (v63 : BitVec 32) : Prop :=
  (∀ a, (k0_off14 v63) a + S1x128.size a ≤ S800000x128.size a) ∧
  (∀ a, (k0_off23 v63) a + S1x128.size a ≤ S800000x128.size a)
instance k0_chk7.dec : ∀ (v63 : BitVec 32), Decidable (k0_chk7 v63) := fun v63 => decidable_of_iff' _ (Iff.of_eq (k0_chk7.eq_1 v63))
theorem k0_off14_inb : ∀ (v63 : BitVec 32) (k0_hw7 : k0_chk7 v63), ∀ a, (k0_off14 v63) a + S1x128.size a ≤ S800000x128.size a := fun v63 k0_hw7 => k0_hw7.1
theorem k0_off23_inb : ∀ (v63 : BitVec 32) (k0_hw7 : k0_chk7 v63), ∀ a, (k0_off23 v63) a + S1x128.size a ≤ S800000x128.size a := fun v63 k0_hw7 => k0_hw7.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  shapeCasts_S4x4096x8_S131072 : S4x4096x8.ShapeCasts S131072
  numel1_S1 : S1.numel = 1
  inb_S8_S1_0 : ∀ a, (![0] : Fin 1 → Nat) a + S1.size a ≤ S8.size a
  squeezes_S1_S_ : S1.Squeezes S_
  inb_S8x128_S1x128_0_0 : ∀ a, (![0, 0] : Fin 2 → Nat) a + S1x128.size a ≤ S8x128.size a
  squeezes_S1x128_S128 : S1x128.Squeezes S128
  inb_S8_S1_1 : ∀ a, (![1] : Fin 1 → Nat) a + S1.size a ≤ S8.size a
  inb_S8x128_S1x128_1_0 : ∀ a, (![1, 0] : Fin 2 → Nat) a + S1x128.size a ≤ S8x128.size a
  inb_S8_S1_2 : ∀ a, (![2] : Fin 1 → Nat) a + S1.size a ≤ S8.size a
  inb_S8x128_S1x128_2_0 : ∀ a, (![2, 0] : Fin 2 → Nat) a + S1x128.size a ≤ S8x128.size a
  inb_S8_S1_3 : ∀ a, (![3] : Fin 1 → Nat) a + S1.size a ≤ S8.size a
  inb_S8x128_S1x128_3_0 : ∀ a, (![3, 0] : Fin 2 → Nat) a + S1x128.size a ≤ S8x128.size a
  inb_S8_S1_4 : ∀ a, (![4] : Fin 1 → Nat) a + S1.size a ≤ S8.size a
  inb_S8x128_S1x128_4_0 : ∀ a, (![4, 0] : Fin 2 → Nat) a + S1x128.size a ≤ S8x128.size a
  inb_S8_S1_5 : ∀ a, (![5] : Fin 1 → Nat) a + S1.size a ≤ S8.size a
  inb_S8x128_S1x128_5_0 : ∀ a, (![5, 0] : Fin 2 → Nat) a + S1x128.size a ≤ S8x128.size a
  inb_S8_S1_6 : ∀ a, (![6] : Fin 1 → Nat) a + S1.size a ≤ S8.size a
  inb_S8x128_S1x128_6_0 : ∀ a, (![6, 0] : Fin 2 → Nat) a + S1x128.size a ≤ S8x128.size a
  inb_S8_S1_7 : ∀ a, (![7] : Fin 1 → Nat) a + S1.size a ≤ S8.size a
  inb_S8x128_S1x128_7_0 : ∀ a, (![7, 0] : Fin 2 → Nat) a + S1x128.size a ≤ S8x128.size a
  shapeCasts_S131072x128_S4x4096x8x128 : S131072x128.ShapeCasts S4x4096x8x128
  hcc0_scratch0 : 2 + S8.numel ≤ 10
  hrank0 : 0 < grid0.rank
  k0_off1_inb : ∀ i : grid0.Coords, ∀ a, (k0_off1 i) a + S1.size a ≤ S131072.size a
  k0_off3_inb : ∀ i : grid0.Coords, ∀ a, (k0_off3 i) a + S1.size a ≤ S131072.size a
  k0_off5_inb : ∀ i : grid0.Coords, ∀ a, (k0_off5 i) a + S1.size a ≤ S131072.size a
  k0_off7_inb : ∀ i : grid0.Coords, ∀ a, (k0_off7 i) a + S1.size a ≤ S131072.size a
  k0_off9_inb : ∀ i : grid0.Coords, ∀ a, (k0_off9 i) a + S1.size a ≤ S131072.size a
  k0_off11_inb : ∀ i : grid0.Coords, ∀ a, (k0_off11 i) a + S1.size a ≤ S131072.size a
  k0_off13_inb : ∀ i : grid0.Coords, ∀ a, (k0_off13 i) a + S1.size a ≤ S131072.size a
  k0_off15_inb : ∀ i : grid0.Coords, ∀ a, (k0_off15 i) a + S1.size a ≤ S131072.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x128.size a ≤ S131072x128.size a
  hwx0_0 : ∀ i : grid0.Coords, EltTy.bits .f32 = 32 ∨ (Rect.block (s := S131072x128) S8x128.size (cc0_transform_1 i) (hinb0_0 i)).WholeWords (EltTy.packing .f32)

variable [Facts₀]

abbrev cc0_scratch0 : DmaSems sig S8 := SemArray.consecutive 2 S8 hcc0_scratch0

abbrev spec0_0 : Pipeline.WinSpec sig grid0.rank :=
  Pipeline.WinSpec.ofSpec (Memref.whole main_v4) S8x128.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S4x4096x8 : Shape := ⟨3, ![4, 4096, 8]⟩
abbrev S800000x128 : Shape := ⟨2, ![800000, 128]⟩
abbrev S8 : Shape := ⟨1, ![8]⟩
abbrev S1x1x8 : Shape := ⟨3, ![1, 1, 8]⟩
abbrev S_ : Shape := ⟨0, ![]⟩
abbrev S4x4096x8x1 : Shape := ⟨4, ![4, 4096, 8, 1]⟩
abbrev S1 : Shape := ⟨1, ![1]⟩
abbrev S1x1x1x1 : Shape := ⟨4, ![1, 1, 1, 1]⟩
abbrev S4x4096x8x128 : Shape := ⟨4, ![4, 4096, 8, 128]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x8, .i32⟩
  | .hbm, ⟨1, _⟩ => ⟨S800000x128, .f32⟩
  | .hbm, ⟨2, _⟩ => ⟨S8, .i32⟩
  | .hbm, ⟨3, _⟩ => ⟨S1x1x8, .i32⟩
  | .hbm, ⟨4, _⟩ => ⟨S4x4096x8, .i32⟩
  | .hbm, ⟨5, _⟩ => ⟨S4x4096x8, .i32⟩
  | .hbm, ⟨6, _⟩ => ⟨S_, .i32⟩
  | .hbm, ⟨7, _⟩ => ⟨S4x4096x8, .i32⟩
  | .hbm, ⟨8, _⟩ => ⟨S4x4096x8, .i1⟩
  | .hbm, ⟨9, _⟩ => ⟨S_, .i32⟩
  | .hbm, ⟨10, _⟩ => ⟨S4x4096x8, .i32⟩
  | .hbm, ⟨11, _⟩ => ⟨S4x4096x8, .i32⟩
  | .hbm, ⟨12, _⟩ => ⟨S4x4096x8, .i32⟩
  | .hbm, ⟨13, _⟩ => ⟨S4x4096x8x1, .i32⟩
  | .hbm, ⟨14, _⟩ => ⟨S1, .i32⟩
  | .hbm, ⟨15, _⟩ => ⟨S_, .i32⟩
  | .hbm, ⟨16, _⟩ => ⟨S4x4096x8x1, .i32⟩
  | .hbm, ⟨17, _⟩ => ⟨S4x4096x8x1, .i1⟩
  | .hbm, ⟨18, _⟩ => ⟨S1x1x1x1, .i32⟩
  | .hbm, ⟨19, _⟩ => ⟨S4x4096x8x1, .i32⟩
  | .hbm, ⟨20, _⟩ => ⟨S4x4096x8x1, .i1⟩
  | .hbm, ⟨21, _⟩ => ⟨S4x4096x8x1, .i1⟩
  | .hbm, ⟨22, _⟩ => ⟨S_, .i1⟩
  | .hbm, ⟨23, _⟩ => ⟨S4x4096x8, .i1⟩
  | .hbm, ⟨24, _⟩ => ⟨S4x4096x8x128, .f32⟩
  | .hbm, ⟨25, _⟩ => ⟨S4x4096x8x128, .i1⟩
  | .hbm, ⟨26, _⟩ => ⟨S_, .f32⟩
  | .hbm, ⟨27, _⟩ => ⟨S4x4096x8x128, .f32⟩
  | .hbm, ⟨28, _⟩ => ⟨S4x4096x8x128, .f32⟩
  | _, _ => ⟨S4x4096x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  bcast_S_S4x4096x8 : S_.BroadcastsInDim S4x4096x8 (![] : Fin 0 → Fin S4x4096x8.rank)
  bcast_S4x4096x8_S4x4096x8x1_0_1_2 : S4x4096x8.BroadcastsInDim S4x4096x8x1 (![0, 1, 2] : Fin 3 → Fin S4x4096x8x1.rank)
  bcast_S_S4x4096x8x1 : S_.BroadcastsInDim S4x4096x8x1 (![] : Fin 0 → Fin S4x4096x8x1.rank)
  bcast_S1_S1x1x1x1_3 : S1.BroadcastsInDim S1x1x1x1 (![3] : Fin 1 → Fin S1x1x1x1.rank)
  bcast_S1x1x1x1_S4x4096x8x1_0_1_2_3 : S1x1x1x1.BroadcastsInDim S4x4096x8x1 (![0, 1, 2, 3] : Fin 4 → Fin S4x4096x8x1.rank)
  reducesTo_S4x4096x8x1_S4x4096x8_d3 : S4x4096x8x1.ReducesTo [3] S4x4096x8
  h_S_ : 0 < S_.numel
  bcast_S4x4096x8_S4x4096x8x128_0_1_2 : S4x4096x8.BroadcastsInDim S4x4096x8x128 (![0, 1, 2] : Fin 3 → Fin S4x4096x8x128.rank)
  bcast_S_S4x4096x8x128 : S_.BroadcastsInDim S4x4096x8x128 (![] : Fin 0 → Fin S4x4096x8x128.rank)
  gather_S800000x128_S4x4096x8x1_S4x4096x8x128_3_0_n_n_0_3_1128_wf : GatherDims.WF S800000x128 S4x4096x8x1 S4x4096x8x128 [3] [0] [] [0] [] 3 ![1, 128]

variable [Facts₀]

def gather_S800000x128_S4x4096x8x1_S4x4096x8x128_3_0_n_n_0_3_1128 : GatherDims S800000x128 S4x4096x8x1 S4x4096x8x128 where
  offsetDims := [3]
  collapsedSliceDims := [0]
  operandBatchingDims := []
  startIndicesBatchingDims := []
  startIndexMap := [0]
  indexVectorDim := 3
  sliceSizes := ![1, 128]
  wf := gather_S800000x128_S4x4096x8x1_S4x4096x8x128_3_0_n_n_0_3_1128_wf

class Facts : Prop extends Facts₀ where

variable [Facts]
-- ==== Proof.Spec.lean ====
/-
  The mathematics of the statement, free of any program.

  A table `w` of 800000 rows of 128 numbers; ids `a0` of shape [4, 4096, 8] and per-head offsets `a2` of shape [8],
  both 32-bit words. The GLOBAL row id at (b, s, h) is the 32-bit sum `a0 (b, s, h) + a2 h` (the offsets broadcast on
  the last axis; the sum is the machine's, modulo 2^32). Laid out in row-major order the ids form one list of
  131072 words (`tbl`), position r = (b * 4096 + s) * 8 + h. The result is the row gather: row r of a
  [131072, 128] array is row `tbl r` of the table (`rows`), and the result array of shape [4, 4096, 8, 128] is that
  array under the same row-major relabelling (`out`): entry (b, s, h, l) is `w (gid (b, s, h), l)`.
  A row id indexes the table only when, read as an unsigned number, it is below 800000 (`InRange`): that is the
  domain on which the gather is defined, and the result is stated under it.
-/
import Idealize.ShloMosaic.PureOps
import Idealize.ShloMosaic.Lib.ValueIdx
import Idealize.ShloMosaic.Lib.Pipeline.Value

noncomputable section

namespace Cert.Proof.Spec

open Idealize.ShloMosaic Idealize.ShloMosaic.ValueIdx

abbrev S4x4096x8 : Shape := ⟨3, ![4, 4096, 8]⟩
abbrev S800000x128 : Shape := ⟨2, ![800000, 128]⟩
abbrev S8 : Shape := ⟨1, ![8]⟩
abbrev S1x1x8 : Shape := ⟨3, ![1, 1, 8]⟩
abbrev S131072 : Shape := ⟨1, ![131072]⟩
abbrev S131072x128 : Shape := ⟨2, ![131072, 128]⟩
abbrev S4x4096x8x128 : Shape := ⟨4, ![4, 4096, 8, 128]⟩

theorem bc0 : S8.BroadcastsInDim S1x1x8 (![2] : Fin 1 → Fin S1x1x8.rank) := by decide
theorem bc1 : S1x1x8.BroadcastsInDim S4x4096x8 (![0, 1, 2] : Fin 3 → Fin S4x4096x8.rank) := by decide
theorem sc0 : S4x4096x8.ShapeCasts S131072 := by decide
theorem sc1 : S131072x128.ShapeCasts S4x4096x8x128 := by decide

/-- The global row ids: the ids plus the per-head offsets, broadcast on the last axis (32-bit words). -/
def gid (a0 : IVec S4x4096x8 32) (a2 : IVec S8 32) : IVec S4x4096x8 32 :=
  addi a0 (broadcastInDim S4x4096x8 ![0, 1, 2] bc1 (broadcastInDim S1x1x8 ![2] bc0 a2))

/-- The same ids as one list, in row-major order. -/
def tbl (a0 : IVec S4x4096x8 32) (a2 : IVec S8 32) : IVec S131072 32 := shapeCast S131072 (gid a0 a2) sc0

/-- Every global row id, read unsigned, indexes the table. -/
def InRange (a0 : IVec S4x4096x8 32) (a2 : IVec S8 32) : Prop := ∀ i : S4x4096x8.Idx, (gid a0 a2 i).toNat < 800000

/-- The list's entries are the array's, so they are in range too. -/
theorem tbl_lt {a0 : IVec S4x4096x8 32} {a2 : IVec S8 32} (h : InRange a0 a2) (r : S131072.Idx) : (tbl a0 a2 r).toNat < 800000 :=
  h (Shape.reshapeEquiv sc0 r)

/-- Row `r` of the gathered array is row `tbl r` of the table. -/
def rows {F : FTy → Type} (w : FVec F S800000x128 .f32) (a0 : IVec S4x4096x8 32) (a2 : IVec S8 32) (h : InRange a0 a2) :
    FVec F S131072x128 .f32 :=
  fun j => w (ix2 (⟨(tbl a0 a2 (ix1 (j 0))).toNat, tbl_lt h _⟩ : Fin 800000) (j 1))

/-- The result array: the gathered rows under the row-major relabelling [131072, 128] → [4, 4096, 8, 128]. -/
def out {F : FTy → Type} (w : FVec F S800000x128 .f32) (a0 : IVec S4x4096x8 32) (a2 : IVec S8 32) (h : InRange a0 a2) :
    FVec F S4x4096x8x128 .f32 :=
  shapeCast S4x4096x8x128 (rows w a0 a2 h) sc1

end Cert.Proof.Spec

end
-- ==== Proof.PreDecode.lean ====
/-
  The index-range half of the precondition, decoded.

  The precondition is a conjunction of two bits: "every table entry is finite" and "every global row id g satisfies
  0 ≤ g and g < 800000, both read as signed 32-bit numbers" (the second a conjunction over all positions of the
  [4, 4096, 8] array of ids). When the whole is 1 the second bit is 1, so at every position both comparisons hold.
  A 32-bit word that is non-negative as a signed number has the same signed and unsigned value; so a word in
  [0, 800000) signed is below 800000 unsigned, which is the range in which a row id indexes the table.
-/
import proofs.«413654_j38517266710585_2_alg».proof.Pre_finite_inputs
import proofs.«413654_j38517266710585_2_alg».proof.Proof.Spec
import Idealize.ShloMosaic.Lib.Affine
import Idealize.ShloMosaic.Lib.ReduceAll
import Idealize.ShloMosaic.Lib.ValueIdx

namespace Cert.Proof.PreDecode

open Idealize.ShloMosaic

/-- A rank-0 array has a single position. -/
instance : Subsingleton Cert.Pre_finite_inputs.S_.Idx := ⟨fun _ _ => funext fun d => d.elim0⟩

/-- A 32-bit word that is at least 0 and below 800000 as a SIGNED number is below 800000 as an unsigned one:
    a non-negative signed word has its sign bit clear, so both readings agree. -/
theorem toNat_lt_of_signed {w : BitVec 32} (h0 : IntOp.cmpi .sge w 0#32 = 1#1)
    (h1 : IntOp.cmpi .slt w 800000#32 = 1#1) : w.toNat < 800000 := by
  rw [IntOp.cmpi_sge] at h0
  rw [IntOp.cmpi_slt] at h1
  have z : (0#32 : BitVec 32).toInt = 0 := by decide
  have n : (800000#32 : BitVec 32).toInt = 800000 := by decide
  rw [z] at h0
  rw [n] at h1
  have hw := w.isLt
  rw [BitVec.toInt_eq_toNat_cond] at h0 h1
  split at h0 <;> omega

/-- Under the precondition every global row id indexes the table. -/
theorem inRange_of_pre {F : FTy → Type} [FloatOps F] [Cert.Pre_finite_inputs.Facts]
    (a0 : IVec Cert.Proof.Spec.S4x4096x8 32) (a1 : FVec F Cert.Proof.Spec.S800000x128 .f32) (a2 : IVec Cert.Proof.Spec.S8 32)
    (h : Cert.Pre_finite_inputs.fn (F := F) a0 a1 a2 = fun _ => 1#1) : Cert.Proof.Spec.InRange a0 a2 := by
  intro i
  -- the one bit of the precondition
  have e := congrFun h ValueIdx.ix0
  dsimp only [Cert.Pre_finite_inputs.fn] at e
  -- its second conjunct: the conjunction over all positions of the two comparisons
  have e12 := (IntOp.andi_eq_one.1 e).2
  -- at position i both comparisons hold
  have ei := Host.reduce_andi_all _ _ _ _ _ e12 i
  obtain ⟨hge, hlt⟩ := IntOp.andi_eq_one.1 ei
  exact toNat_lt_of_signed (w := Cert.Proof.Spec.gid a0 a2 i) hge hlt

end Cert.Proof.PreDecode
-- ==== Proof.RefTerm.lean ====
/-
  The reference's result as ONE pure term of its three arguments: the 32-bit ids plus the offsets broadcast on the
  last axis; then the row gather the way jnp.take spells it — an id below zero has the table's height added, the id
  is kept beside a flag saying whether it lies in 0 … 799999, the rows are gathered at the ids, and a row whose flag
  is off is replaced by a fill constant. Each `let` is one operation of the reference, in its order.
-/
import proofs.«413654_j38517266710585_2_alg».proof.ReferenceIdeal
import proofs.«413654_j38517266710585_2_alg».proof.Proof.Gen.ReferenceIdeal

noncomputable section

namespace Cert.Proof.Ref

open Idealize.ShloMosaic Cert.ReferenceIdeal Cert.ReferenceIdeal.Facts₀

variable {F : FTy → Type} [FloatOps F] [Cert.ReferenceIdeal.Facts]

/-- The ids after the wrap of negative ones, as the gather receives them (shape [4, 4096, 8, 1]). -/
def refIdx (a0 : IVec S4x4096x8 32) (a2 : IVec S8 32) : IVec S4x4096x8x1 32 :=
  let v0 : IVec S1x1x8 32 := broadcastInDim S1x1x8 ![2] bcast_S8_S1x1x8_2 a2
  let v1 : IVec S4x4096x8 32 := broadcastInDim S4x4096x8 ![0, 1, 2] bcast_S1x1x8_S4x4096x8_0_1_2 v0
  let v2 : IVec S4x4096x8 32 := addi a0 v1
  let t0 : IVec S4x4096x8 32 := broadcastInDim S4x4096x8 ![] bcast_S_S4x4096x8 (constantI S_ 32 0#32)
  let t1 : IVec S4x4096x8 1 := cmpi .slt v2 t0
  let t2 : IVec S4x4096x8 32 := broadcastInDim S4x4096x8 ![] bcast_S_S4x4096x8 (constantI S_ 32 800000#32)
  let t3 : IVec S4x4096x8 32 := addi v2 t2
  let t4 : IVec S4x4096x8 32 := select t1 t3 v2
  broadcastInDim S4x4096x8x1 ![0, 1, 2] bcast_S4x4096x8_S4x4096x8x1_0_1_2 t4

/-- The flag: the wrapped id lies in 0 … 799999 (shape [4, 4096, 8]). -/
def refMask (a0 : IVec S4x4096x8 32) (a2 : IVec S8 32) : IVec S4x4096x8 1 :=
  let t5 : IVec S4x4096x8x1 32 := refIdx a0 a2
  let t6 : IVec S4x4096x8x1 32 := broadcastInDim S4x4096x8x1 ![] bcast_S_S4x4096x8x1 (constantI S_ 32 0#32)
  let t7 : IVec S4x4096x8x1 1 := cmpi .sge t5 t6
  let t8 : IVec S1x1x1x1 32 := broadcastInDim S1x1x1x1 ![3] bcast_S1_S1x1x1x1_3 (constantI S1 32 799999#32)
  let t9 : IVec S4x4096x8x1 32 := broadcastInDim S4x4096x8x1 ![0, 1, 2, 3] bcast_S1x1x1x1_S4x4096x8x1_0_1_2_3 t8
  let t10 : IVec S4x4096x8x1 1 := cmpi .sle t5 t9
  let t11 : IVec S4x4096x8x1 1 := andi t7 t10
  Host.reduce IntOp.andi t11 (constantI S_ 1 1#1) reducesTo_S4x4096x8x1_S4x4096x8_d3 h_S_

/-- The reference's result. -/
def refTerm (a0 : IVec S4x4096x8 32) (a1 : FVec F S800000x128 .f32) (a2 : IVec S8 32) : FVec F S4x4096x8x128 .f32 :=
  let t13 : FVec F S4x4096x8x128 .f32 := Host.gather gather_S800000x128_S4x4096x8x1_S4x4096x8x128_3_0_n_n_0_3_1128 a1 (refIdx a0 a2)
  let t14 : IVec S4x4096x8x128 1 := broadcastInDim S4x4096x8x128 ![0, 1, 2] bcast_S4x4096x8_S4x4096x8x128_0_1_2 (refMask a0 a2)
  let t15 : FVec F S4x4096x8x128 .f32 := broadcastInDim S4x4096x8x128 ![] bcast_S_S4x4096x8x128 (constant S_ .f32 0x7FC00000#32)
  select t14 t13 t15

end Cert.Proof.Ref

end
-- ==== Proof.RefRun.lean ====
/-
  The run of the reference. Its entry function is a straight line of tensor operations: the offsets broadcast twice
  (to [1, 1, 8], then to [4, 4096, 8]) and added to the ids, then the row gather spelt as a function of its own —
  twenty-three operations, one of which (the choice between an id and the id plus the table's height) is again a
  function of its own, a single select. A call means the callee's lines run in its place over the buffers that call
  names, so the whole program is ONE list of twenty-six operations, each writing a buffer no other writes. Running
  them in order from any memory, the result buffer ends at the operations' composition applied to the three argument
  buffers' contents — the term `refTerm` — and no operation writes an argument buffer, so the three are unchanged.
-/
import proofs.«413654_j38517266710585_2_alg».proof.ReferenceIdeal
import proofs.«413654_j38517266710585_2_alg».proof.Proof.Gen.ReferenceIdeal
import proofs.«413654_j38517266710585_2_alg».proof.Proof.RefTerm
import Idealize.ShloMosaic.Lib.StableHlo.Run

noncomputable section

namespace Cert.Proof.Ref

open Idealize.ShloMosaic Idealize.ShloMosaic.TcCoe Idealize.SL.Sem Idealize.ShloMosaic.StableHlo
open Cert.ReferenceIdeal Cert.ReferenceIdeal.Facts₀

variable {F : FTy → Type} [FloatOps F]

/-- The reference's twenty-six operations, in order: the entry function's three (the offsets to [1, 1, 8], to
    [4, 4096, 8], the sum with the ids); then the gather function's lines over the buffers its call names — the zero
    and the table's height broadcast, the sign test and the wrapped id, the inner function's select in the place of
    its call, the id given a trailing unit axis, the two range tests against 0 and 799999 and their conjunction
    reduced along the unit axis, the rows gathered at the ids, the flag broadcast along the row, the fill constant
    broadcast, and the final select into the result buffer. -/
abbrev ops : List (HloOp τ sig (Elt F)) :=
  [ unary main_arg2 main_v0 (broadcastInDim S1x1x8 ![2] bcast_S8_S1x1x8_2 : (⟨S8, .i32⟩ : BufTy).Contents (Elt F) → (⟨S1x1x8, .i32⟩ : BufTy).Contents (Elt F)),
    unary main_v0 main_v1 (broadcastInDim S4x4096x8 ![0, 1, 2] bcast_S1x1x8_S4x4096x8_0_1_2 : (⟨S1x1x8, .i32⟩ : BufTy).Contents (Elt F) → (⟨S4x4096x8, .i32⟩ : BufTy).Contents (Elt F)),
    binary main_arg0 main_v1 main_v2 (addi : (⟨S4x4096x8, .i32⟩ : BufTy).Contents (Elt F) → (⟨S4x4096x8, .i32⟩ : BufTy).Contents (Elt F) → (⟨S4x4096x8, .i32⟩ : BufTy).Contents (Elt F)),
    TRef.nullary main_call0.c (constantI S_ 32 0#32),
    TRef.unary main_call0.c main_call0.v0 (broadcastInDim S4x4096x8 ![] bcast_S_S4x4096x8),
    TRef.binary (.of main_v2) main_call0.v0 main_call0.v1 (cmpi .slt),
    TRef.nullary main_call0.c_0 (constantI S_ 32 800000#32),
    TRef.unary main_call0.c_0 main_call0.v2 (broadcastInDim S4x4096x8 ![] bcast_S_S4x4096x8),
    TRef.binary (.of main_v2) main_call0.v2 main_call0.v3 addi,
    TRef.ternary main_call0.v1 main_call0.v3 (.of main_v2) main_call0.call0.v0 select,
    TRef.unary main_call0.call0.v0 main_call0.v5 (broadcastInDim S4x4096x8x1 ![0, 1, 2] bcast_S4x4096x8_S4x4096x8x1_0_1_2),
    TRef.nullary main_call0.c_1 (constantI S1 32 799999#32),
    TRef.nullary main_call0.c_2 (constantI S_ 32 0#32),
    TRef.unary main_call0.c_2 main_call0.v6 (broadcastInDim S4x4096x8x1 ![] bcast_S_S4x4096x8x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S4x4096x8x1 ![0, 1, 2, 3] bcast_S1x1x1x1_S4x4096x8x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x8x1_S4x4096x8_d3 h_S_),
    TRef.binary (.of main_arg1) main_call0.v5 main_call0.v13 (fun x i => Host.gather gather_S800000x128_S4x4096x8x1_S4x4096x8x128_3_0_n_n_0_3_1128 x i),
    TRef.unary main_call0.v12 main_call0.v14 (broadcastInDim S4x4096x8x128 ![0, 1, 2] bcast_S4x4096x8_S4x4096x8x128_0_1_2),
    TRef.nullary main_call0.cst (constant S_ .f32 0x7FC00000#32),
    TRef.unary main_call0.cst main_call0.v15 (broadcastInDim S4x4096x8x128 ![] bcast_S_S4x4096x8x128),
    TRef.ternary main_call0.v14 main_call0.v13 main_call0.v15 main_call0.v16 select ]

/-- The entry function is that straight line: the two functions' bodies stand at their calls, over the calls'
    buffers, and sequencing is associative. -/
theorem main_eq (c : Dev nD) : main (F := F) c = seq ops := rfl

/-- No buffer of the program is scoped to a region, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub ..⟩

/-- What the result buffer holds after the line, from any contents `V`: each operation contributes its function
    applied to its operands' contents (a buffer written once is read as what its one writer left), the typed
    references' transports are the identity at these literal buffers, and the composition is `refTerm` line by line:
    the wrapped id feeds the gather and both range tests, the sum of ids and offsets feeds the sign test, the wrapped
    candidate and the select's fallback. -/
theorem res_eq (V : Valuation τ sig (Elt F)) :
    after ops V (Proc.devRef .tc main_v3)
      = refTerm (F := F) (V (Proc.devRef .tc main_arg0)) (V (Proc.devRef .tc main_arg1)) (V (Proc.devRef .tc main_arg2)) := by
  after_results
  unfold refTerm refMask refIdx
  simp only [TRef.toBuf, TRef.ofBuf, cast_eq]

/-- No operation writes an argument buffer: each keeps its contents. -/
theorem arg0_eq (V : Valuation τ sig (Elt F)) :
    after ops V (Proc.devRef .tc main_arg0) = V (Proc.devRef .tc main_arg0) := by after_results
theorem arg1_eq (V : Valuation τ sig (Elt F)) :
    after ops V (Proc.devRef .tc main_arg1) = V (Proc.devRef .tc main_arg1) := by after_results
theorem arg2_eq (V : Valuation τ sig (Elt F)) :
    after ops V (Proc.devRef .tc main_arg2) = V (Proc.devRef .tc main_arg2) := by after_results

/-- On the device, for any float values, from any memory with zero counters: every weakly fair execution of the
    reference terminates with the result buffer at `refTerm` of the three argument buffers' launch contents, and the
    three argument buffers as they were. Every buffer ends at the fold of the operations' results over the launch
    contents; the four lemmas above read that fold at the result and at the arguments. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩
      (fun r => ∀ c : Dev nD,
        r.2.mem ((c.tc : Thread nD τ).loc main_v3)
            = refTerm (F := F) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c => ⟨(h c main_v3).trans (res_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.Proof.Ref

end
-- ==== Proof.RefValue.lean ====
/-
  The reference's pure term is the specification, on the domain.

  On the domain every global row id g, read unsigned, is below 800000, hence below 2^31: as a signed word it is
  non-negative, so the reference's wrap of negative ids adds nothing, and it lies in 0 … 799999, so the reference's
  range flag is on at every position and its outer choice keeps the gathered row. The gather itself reads, at
  (b, s, h, l), the table at row "g clamped into 0 … 799999" — the identity on the domain — and column l. The
  specification's entry at (b, s, h, l) is the same table entry, through the row-major relabelling of the ids
  (position (b * 4096 + s) * 8 + h of the list) and of the rows.
-/
import proofs.«413654_j38517266710585_2_alg».proof.Proof.RefTerm
import proofs.«413654_j38517266710585_2_alg».proof.Proof.Spec
import Idealize.ShloMosaic.Lib.ValueIdx
import Idealize.ShloMosaic.Lib.Pipeline.Value
import Idealize.ShloMosaic.Lib.StableHlo.Predicate
import Idealize.ShloMosaic.PureOps.Reduce

namespace Cert.Proof.Ref

open Idealize.ShloMosaic Idealize.ShloMosaic.ValueIdx

/-! ## Words: a row id below 800000 -/

section Words

variable {g : BitVec 32}

/-- Read as a signed word it is not below zero. -/
theorem slt_zero_ne_one (hg : g.toNat < 800000) : IntOp.cmpi .slt g 0#32 ≠ 1#1 := fun e =>
  Nat.not_lt_zero _ ((StableHlo.Predicate.slt_iff_toNat (a := g) (b := 0#32) (by omega) (by decide)).1 e)

/-- Read as a signed word it is at least zero. -/
theorem sge_zero_eq_one (hg : g.toNat < 800000) : IntOp.cmpi .sge g 0#32 = 1#1 :=
  (StableHlo.Predicate.sge_iff_toNat (a := g) (b := 0#32) (by omega) (by decide)).2 (Nat.zero_le _)

/-- Read as a signed word it is at most 799999. -/
theorem sle_top_eq_one (hg : g.toNat < 800000) : IntOp.cmpi .sle g 799999#32 = 1#1 :=
  (StableHlo.Predicate.sle_iff_toNat (a := g) (b := 799999#32) (by omega) (by decide)).2
    (by have e : (799999#32 : BitVec 32).toNat = 799999 := rfl
        omega)

/-- Its signed reading, clamped into 0 … 799999, is its unsigned reading. -/
theorem clamp_eq (hg : g.toNat < 800000) : min g.toInt.toNat (800000 - 1) = g.toNat := by
  rw [StableHlo.Predicate.toInt_eq_toNat_of_lt (a := g) (by omega), Int.toNat_natCast]
  omega

end Words

/-! ## A choice on a decided flag, and an and-reduction of ones -/

/-- A choice whose flag is on at an index reads its first operand there. -/
theorem select_of_one {α : Type} {s : Shape} (c : IVec s 1) (a b : s.Idx → α) (i : s.Idx) (hc : c i = 1#1) :
    select c a b i = a i := by
  show Scalar.select (c i) (a i) (b i) = a i
  rw [hc]; exact select_one _ _

/-- A choice whose flag is not on at an index reads its second operand there. -/
theorem select_of_ne_one {α : Type} {s : Shape} (c : IVec s 1) (a b : s.Idx → α) (i : s.Idx) (hc : c i ≠ 1#1) :
    select c a b i = b i := by
  show Scalar.select (c i) (a i) (b i) = b i
  rw [eq_zero_of_ne_one hc]; exact select_zero _ _

/-- A left fold by `and` from 1 over ones is 1. -/
theorem foldl_andi_ones {ι : Type} (x : ι → BitVec 1) (hx : ∀ i, x i = 1#1) :
    ∀ l : List ι, l.foldl (fun r i => IntOp.andi r (x i)) 1#1 = 1#1
  | [] => rfl
  | a :: l => by
    have e : IntOp.andi 1#1 (x a) = 1#1 := by rw [hx a]; decide
    rw [List.foldl_cons, e]
    exact foldl_andi_ones x hx l

/-- An and-reduction, from 1, of an array of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## The row gather read at an index -/

section Gather

open Cert.ReferenceIdeal

variable [Cert.ReferenceIdeal.Facts₀]

/-- The gather of rows read at (b, s, h, l): the table at the start index of position (b, s, h), read signed and
    clamped into 0 … 799999, and at column l. -/
theorem gather_rows_apply {α : Type} {w : Nat} (x : S800000x128.Idx → α) (idx : IVec S4x4096x8x1 w)
    (b : Fin 4) (s : Fin 4096) (hh : Fin 8) (l : Fin 128) :
    Host.gather gather_S800000x128_S4x4096x8x1_S4x4096x8x128_3_0_n_n_0_3_1128 x idx (ix4 b s hh l)
      = x (ix2 (⟨min (idx (ix4 b s hh (0 : Fin 1))).toInt.toNat (800000 - 1), by omega⟩ : Fin 800000) l) := by
  unfold Host.gather
  congr 1
  funext a
  refine Fin.ext ?_
  match a with
  | ⟨0, _⟩ =>
    show gather_S800000x128_S4x4096x8x1_S4x4096x8x128_3_0_n_n_0_3_1128.start (ix4 b s hh l) idx 0
        + gather_S800000x128_S4x4096x8x1_S4x4096x8x128_3_0_n_n_0_3_1128.batchCoord (ix4 b s hh l) 0
        + gather_S800000x128_S4x4096x8x1_S4x4096x8x128_3_0_n_n_0_3_1128.offCoord (ix4 b s hh l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S800000x128_S4x4096x8x1_S4x4096x8x128_3_0_n_n_0_3_1128.startIndexMap
      from List.mem_singleton.mpr rfl)]
    have hsi : gather_S800000x128_S4x4096x8x1_S4x4096x8x128_3_0_n_n_0_3_1128.siIdx (ix4 b s hh l)
        ⟨List.idxOf (0 : Fin 2) gather_S800000x128_S4x4096x8x1_S4x4096x8x128_3_0_n_n_0_3_1128.startIndexMap,
          List.idxOf_lt_length_iff.2 (List.mem_singleton.mpr rfl)⟩ = ix4 b s hh (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S800000x128_S4x4096x8x1_S4x4096x8x128_3_0_n_n_0_3_1128.start (ix4 b s hh l) idx 1
        + gather_S800000x128_S4x4096x8x1_S4x4096x8x128_3_0_n_n_0_3_1128.batchCoord (ix4 b s hh l) 1
        + gather_S800000x128_S4x4096x8x1_S4x4096x8x128_3_0_n_n_0_3_1128.offCoord (ix4 b s hh l) 1 = l.val
    rw [GatherDims.batchCoord_eq_zero _ _ _ List.not_mem_nil]
    have hst : gather_S800000x128_S4x4096x8x1_S4x4096x8x128_3_0_n_n_0_3_1128.start (ix4 b s hh l) idx 1 = 0 := by
      unfold GatherDims.start
      exact dif_neg (show (1 : Fin 2) ∉ [(0 : Fin 2)] from by decide)
    have hoff : gather_S800000x128_S4x4096x8x1_S4x4096x8x128_3_0_n_n_0_3_1128.offCoord (ix4 b s hh l) 1 = l.val := by
      unfold GatherDims.offCoord
      rw [dif_pos ((GatherDims.mem_sKept _ _).mpr ⟨show (1 : Fin 2) ∉ [(0 : Fin 2)] from by decide, List.not_mem_nil⟩)]
      rfl
    rw [hst, hoff]
    omega

end Gather

/-! ## The reference's ids and flag on the domain -/

section Domain

open Cert.ReferenceIdeal Cert.ReferenceIdeal.Facts₀

variable [Cert.ReferenceIdeal.Facts]

/-- On the domain the id the gather receives at (b, s, h, 0) is the global row id at (b, s, h): it is not negative,
    so the table's height is not added. -/
theorem refIdx_apply (a0 : IVec Spec.S4x4096x8 32) (a2 : IVec Spec.S8 32) (h : Spec.InRange a0 a2)
    (b : Fin 4) (s : Fin 4096) (hh : Fin 8) (z : Fin 1) :
    refIdx a0 a2 (ix4 b s hh z) = Spec.gid a0 a2 (ix3 b s hh) := by
  unfold refIdx
  refine (broadcastInDim_apply _ _ _ _ (ix3 b s hh)
    (fun a => match a with | ⟨0, _⟩ => rfl | ⟨1, _⟩ => rfl | ⟨2, _⟩ => rfl)).trans ?_
  exact select_of_ne_one _ _ _ _ (slt_zero_ne_one (h (ix3 b s hh)))

/-- On the domain the range flag is on everywhere: each id is at least 0 and at most 799999, and the and-reduction
    over the unit axis meets only ones. -/
theorem refMask_apply (a0 : IVec Spec.S4x4096x8 32) (a2 : IVec Spec.S8 32) (h : Spec.InRange a0 a2)
    (i : S4x4096x8.Idx) : refMask a0 a2 i = 1#1 := by
  unfold refMask
  refine reduce_andi_ones _ _ _ _ (fun k => ?_) (fun _ => rfl) i
  obtain ⟨b, s, hh, z, rfl⟩ : ∃ (b : Fin 4) (s : Fin 4096) (hh : Fin 8) (z : Fin 1), k = ix4 b s hh z :=
    ⟨k 0, k 1, k 2, k 3, eq_ix4 k⟩
  show IntOp.andi (IntOp.cmpi .sge (refIdx a0 a2 (ix4 b s hh z)) 0#32)
      (IntOp.cmpi .sle (refIdx a0 a2 (ix4 b s hh z)) 799999#32) = 1#1
  rw [refIdx_apply a0 a2 h, sge_zero_eq_one (h _), sle_top_eq_one (h _)]
  decide

end Domain

/-! ## The specification read at an index -/

/-- Two rows of the table at equal positions are the same row. -/
theorem row_congr {F : FTy → Type} (w : FVec F Spec.S800000x128 .f32) (n m : Nat) (hn : n < 800000) (hm : m < 800000)
    (e : n = m) (l : Fin 128) : w (ix2 (⟨n, hn⟩ : Fin 800000) l) = w (ix2 (⟨m, hm⟩ : Fin 800000) l) := by
  subst e; rfl

/-- The specification's entry at (b, s, h, l): the table at the global row id of (b, s, h), column l. The result's
    position ((b * 4096 + s) * 8 + h) * 128 + l is row (b * 4096 + s) * 8 + h, column l of the gathered rows, and
    that row's id is the list's entry at the position of (b, s, h). -/
theorem out_apply {F : FTy → Type} (w : FVec F Spec.S800000x128 .f32) (a0 : IVec Spec.S4x4096x8 32) (a2 : IVec Spec.S8 32)
    (h : Spec.InRange a0 a2) (b : Fin 4) (s : Fin 4096) (hh : Fin 8) (l : Fin 128) :
    Spec.out w a0 a2 h (ix4 b s hh l)
      = w (ix2 (⟨(Spec.gid a0 a2 (ix3 b s hh)).toNat, h (ix3 b s hh)⟩ : Fin 800000) l) := by
  have hb : b.val < 4 := b.isLt
  have hs : s.val < 4096 := s.isLt
  have hh' : hh.val < 8 := hh.isLt
  have hr : (b.val * 4096 + s.val) * 8 + hh.val < 131072 := by omega
  have ht : Spec.tbl a0 a2 (ix1 (⟨(b.val * 4096 + s.val) * 8 + hh.val, hr⟩ : Fin 131072)) = Spec.gid a0 a2 (ix3 b s hh) := by
    unfold Spec.tbl
    exact shapeCast_apply _ _ _ (ix3 b s hh) (by rw [Shape.rowMajor_val_three, Shape.rowMajor_val_one]; rfl)
  unfold Spec.out
  refine (shapeCast_apply _ _ _ (ix2 (⟨(b.val * 4096 + s.val) * 8 + hh.val, hr⟩ : Fin 131072) l)
    (by rw [Shape.rowMajor_val_two, Shape.rowMajor_val_four]; rfl)).trans ?_
  exact row_congr w _ _ _ _ (congrArg BitVec.toNat ht) l

/-! ## The reference's term is the specification -/

open Cert.ReferenceIdeal Cert.ReferenceIdeal.Facts₀ in
/-- On the domain the reference's result is the specification's array, entry by entry. -/
theorem refTerm_eq {F : FTy → Type} [FloatOps F] (a0 : IVec Cert.Proof.Spec.S4x4096x8 32) (a1 : FVec F Cert.Proof.Spec.S800000x128 .f32)
    (a2 : IVec Cert.Proof.Spec.S8 32) (h : Cert.Proof.Spec.InRange a0 a2) :
    refTerm (F := F) a0 a1 a2 = Cert.Proof.Spec.out (F := F) a1 a0 a2 h := by
  funext j
  obtain ⟨b, s, hh, l, rfl⟩ : ∃ (b : Fin 4) (s : Fin 4096) (hh : Fin 8) (l : Fin 128), j = ix4 b s hh l :=
    ⟨j 0, j 1, j 2, j 3, eq_ix4 j⟩
  -- the broadcast flag is on at (b, s, h, l)
  have hm : broadcastInDim S4x4096x8x128 ![0, 1, 2] bcast_S4x4096x8_S4x4096x8x128_0_1_2 (refMask a0 a2) (ix4 b s hh l) = 1#1 :=
    (broadcastInDim_apply _ _ _ (ix4 b s hh l) (ix3 b s hh)
      (fun a => match a with | ⟨0, _⟩ => rfl | ⟨1, _⟩ => rfl | ⟨2, _⟩ => rfl)).trans (refMask_apply a0 a2 h _)
  unfold refTerm
  -- so the choice keeps the gathered row, which is the table's at the id of (b, s, h), column l
  refine (select_of_one _ _ _ _ hm).trans ?_
  refine (gather_rows_apply a1 (refIdx a0 a2) b s hh l).trans ?_
  rw [out_apply]
  exact row_congr a1 _ _ _ _ (by rw [refIdx_apply a0 a2 h]; exact clamp_eq (h _)) l

end Cert.Proof.Ref
-- ==== Proof.HandKernelIdeal.Defs.lean ====
/-
  The gather kernel's run, shared definitions.

  The kernel body at grid point `i` reads eight words `8·i + j` (j = 0 … 7) of the row-id list, which the launch placed in
  scalar memory, and for each starts a copy of the table's row named by that word into row `j` of the output block, each
  copy on a semaphore of its own; it then waits for the eight copies. While the copies are in flight the table is read
  by up to eight of them at once, possibly at the same row, so the table is held as READ SHARES, one per semaphore
  cell (the cells are the pool's 2 … 9), beside the remainder; the output block is lent window by window.
  `blockVal` is what the block holds when the body returns: row `j` is the table's row `tb (8·i + j)`.
-/
import proofs.«413654_j38517266710585_2_alg».proof.Proof.Gen.KernelIdeal.Skeleton
import Idealize.ShloMosaic.Lib.Tactic
import Idealize.ShloMosaic.Lib.Pipeline.Kit
import Idealize.ShloMosaic.Lib.ValueIdx

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's, beside the counters the copies' invariants take their tokens from. -/
abbrev UU (nD : Nat) (τ : Topo) : Type := UR sig nD τ × Counters

local notation "𝕄" => MT nD τ sig Unit (Elt F) ℕ (UU nD τ) ℕ

/-- Memref `M`'s buffer on core `c`: its contents type, and it held whole at `f` at share `q`. -/
abbrev Bf (c : Dev nD) {sp : Space} {S : Shape} {e : EltTy} (M : Memref sig .tc sp S e) : Type := Buf (Elt F) (M.view.loc (c : Thread nD τ))
abbrev ptq (c : Dev nD) (q : PosShare TreeShare) {sp : Space} {S : Shape} {e : EltTy} (M : Memref sig .tc sp S e) (f : Bf (F := F) c M) : sProp 𝕄 :=
  M.view.loc (c : Thread nD τ) ↦{q} f
abbrev pt (c : Dev nD) {sp : Space} {S : Shape} {e : EltTy} (M : Memref sig .tc sp S e) (f : Bf (F := F) c M) : sProp 𝕄 :=
  ptq c fullShare M f

/-- The kernel's own semaphores: the eight cells of its scratch semaphore array, the pool's 2 … 9. -/
abbrev osem : Fin 8 → SemLoc sig := fun | 0 => .dma 2 | 1 => .dma 3 | 2 => .dma 4 | 3 => .dma 5 | 4 => .dma 6 | 5 => .dma 7 | 6 => .dma 8 | 7 => .dma 9

/-- The eight counters at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0
    ∗ semVal ((c : Thread nD τ), osem 4) 0 ∗ semVal ((c : Thread nD τ), osem 5) 0 ∗ semVal ((c : Thread nD τ), osem 6) 0 ∗ semVal ((c : Thread nD τ), osem 7) 0)

/-- The table at share `q`. -/
abbrev wAt (c : Dev nD) (q : PosShare TreeShare) (wt : Bf (F := F) c (Memref.whole main_arg1)) : sProp 𝕄 :=
  ptq c q (Memref.whole main_arg1) wt

/-- The table as ten read shares (one per semaphore cell 0 … 9 of the pool: the copies complete on cells 2 … 9) and the remainder. -/
abbrev wToks (c : Dev nD) (wt : Bf (F := F) c (Memref.whole main_arg1)) : sProp 𝕄 :=
  iprop(wAt c (Transfers.shareDrop fullShare 10) wt ∗ wAt c (Transfers.shareTok fullShare 10 0) wt ∗ wAt c (Transfers.shareTok fullShare 10 1) wt
    ∗ wAt c (Transfers.shareTok fullShare 10 2) wt ∗ wAt c (Transfers.shareTok fullShare 10 3) wt ∗ wAt c (Transfers.shareTok fullShare 10 4) wt
    ∗ wAt c (Transfers.shareTok fullShare 10 5) wt ∗ wAt c (Transfers.shareTok fullShare 10 6) wt ∗ wAt c (Transfers.shareTok fullShare 10 7) wt
    ∗ wAt c (Transfers.shareTok fullShare 10 8) wt ∗ wAt c (Transfers.shareTok fullShare 10 9) wt)

/-- Word `8·i + j` of the list exists: the list has 16384 · 8 words. -/
theorem blockRow_lt (i : grid0.Coords) (y : S8x128.Idx) : 8 * (i 0).val + (y 0).val < 131072 := by
  have h1 : (i 0).val < 16384 := (i 0).isLt
  have h2 : (y 0).val < 8 := (y 0).isLt
  omega

/-- What the output block holds after the body at grid point `i`: row `j` is the table's row named by word `8·i + j`
    of the list (the words in range: `hT`). -/
def blockVal (tb : IVec S131072 32) (wt : FVec F S800000x128 .f32) (hT : ∀ r : S131072.Idx, (tb r).toNat < 800000)
    (i : grid0.Coords) : FVec F S8x128 .f32 :=
  fun y => wt (ValueIdx.ix2 (⟨(tb (ValueIdx.ix1 (⟨8 * (i 0).val + (y 0).val, blockRow_lt i y⟩ : Fin 131072))).toNat, hT _⟩ : Fin 800000) (y 1))

end Cert.KernelIdeal.Hand

end
-- ==== Proof.HandKernelIdeal.Body.lean ====
/-
  The gather kernel's body, run once at a symbolic grid point.

  Two facts carry the run: (1) every word the body reads off the id list names a row of the table, which is what the
  body assumes of it before it forms the row's window (every entry of the list is below 800000); (2) what the output
  block holds at the return. The block is written by eight copies, copy j
  landing in row j as a 128-vector; rows are disjoint, so reading the block back at (j, l) sees copy j's payload at l
  and nothing of the others; and copy j's payload is the table's row named by word 8·i + j of the list, read through
  the whole table. Together: entry (j, l) of the block is the table's entry (list[8·i + j], l).
-/
import proofs.«413654_j38517266710585_2_alg».proof.Proof.HandKernelIdeal.Defs

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Rows of a block, as vectors

A [1, 128] rectangle of an [8, 128] view at offsets (j, 0), with its unit axis dropped, is row j of the view as a
128-vector: its element l sits where the view's element (j, l) sits. -/

section Rows

open ValueIdx

variable {σ : RefSig} {κ : Kind} {sp : Space} {e : EltTy} {Val : EltTy → Type}

/-- Dropping the unit axis of a [1, n] shape matches the vector index l with (0, l). -/
theorem squeeze_ix1 {n : Nat} (h : (⟨1, ![n]⟩ : Shape).numel = (⟨2, ![1, n]⟩ : Shape).numel) (l : Fin n) :
    Shape.reshapeEquiv h (ix1 l) = ix2 (⟨0, Nat.one_pos⟩ : Fin 1) l :=
  Shape.reshapeEquiv_eq_of_rowMajor h (by
    rw [Shape.rowMajor_val_two, Shape.rowMajor_val_one]
    show 0 * n + l.val = l.val
    omega)

/-- Row j of an [m, n] view as an n-vector: the [1, n] rectangle at (j, 0), its unit axis dropped. -/
abbrev rowView {m n : Nat} (V : View σ κ sp ⟨2, ![m, n]⟩ e) (off : Fin 2 → Nat)
    (inb : ∀ a, off a + (![1, n] : Fin 2 → Nat) a ≤ (⟨2, ![m, n]⟩ : Shape).size a)
    (hq : (⟨1, ![n]⟩ : Shape).numel = (Rect.unit (s := ⟨2, ![m, n]⟩) off ![1, n] inb).shape.numel) : View σ κ sp ⟨1, ![n]⟩ e :=
  (V.slice (Rect.unit off ![1, n] inb)).reshape ⟨1, ![n]⟩ hq

/-- Element l of row j sits at the view's (j, l). -/
theorem rowView_emb {m n : Nat} (V : View σ κ sp ⟨2, ![m, n]⟩ e) (off : Fin 2 → Nat) (inb) (hq) (j : Fin m)
    (h0 : off 0 = j.val) (h1 : off 1 = 0) (l : Fin n) :
    (rowView V off inb hq).emb (ix1 l) = V.emb (ix2 j l) := by
  show V.emb ((Rect.unit off ![1, n] inb).emb (Shape.reshapeEquiv hq (ix1 l))) = V.emb (ix2 j l)
  refine congrArg V.emb ?_
  rw [squeeze_ix1 hq l]
  funext a
  apply Fin.ext
  rw [Rect.emb_apply]
  match a with
  | ⟨0, _⟩ => show off 0 + 1 * 0 = j.val; omega
  | ⟨1, _⟩ => show off 1 + 1 * l.val = l.val; omega

end Rows

section Rows2

open ValueIdx

variable {σ : RefSig} {κ : Kind} {sp : Space} {e : EltTy} {Val : EltTy → Type}

/-- A write of a whole row j, read back through the view at (j, l): the payload at l. -/
theorem read_write_row_eq {m n : Nat} (V : View σ κ sp ⟨2, ![m, n]⟩ e) (off : Fin 2 → Nat) (inb) (hq)
    (f : V.ty.Contents Val) (w : (⟨1, ![n]⟩ : Shape).Idx → Val e) (j : Fin m) (h0 : off 0 = j.val) (h1 : off 1 = 0) (l : Fin n) :
    V.read Val ((rowView V off inb hq).write Val f w Finset.univ) (ix2 j l) = w (ix1 l) := by
  rw [View.read_apply, ← rowView_emb V off inb hq j h0 h1 l, View.write_emb_of_mem _ _ (Finset.mem_univ _), cast_cast, cast_eq]

/-- A write of a whole row j is not seen at another row j'. -/
theorem read_write_row_ne {m n : Nat} (V : View σ κ sp ⟨2, ![m, n]⟩ e) (off : Fin 2 → Nat) (inb) (hq)
    (f : V.ty.Contents Val) (w : (⟨1, ![n]⟩ : Shape).Idx → Val e) (j j' : Fin m) (h0 : off 0 = j.val) (h1 : off 1 = 0)
    (hne : j' ≠ j) (l : Fin n) :
    V.read Val ((rowView V off inb hq).write Val f w Finset.univ) (ix2 j' l) = V.read Val f (ix2 j' l) := by
  refine View.read_congr_at _ (View.write_of_not_mem _ _ _ fun hm => hne ?_)
  obtain ⟨x, -, hx⟩ := Finset.mem_map.mp hm
  have ex : (rowView V off inb hq).emb x = V.emb (ix2 j (x 0)) :=
    (congrArg (rowView V off inb hq).emb (eq_ix1 x)).trans (rowView_emb V off inb hq j h0 h1 (x 0))
  exact (congrFun (V.emb.injective (ex.symm.trans hx)) 0).symm

end Rows2

section Rows8

open ValueIdx

variable {σ : RefSig} {κ : Kind} {sp : Space} {e : EltTy} {Val : EltTy → Type}

/-- The two facts above with the row's number written as a numeral in the rectangle's offsets. -/
theorem read_write_row_hit {m n : Nat} (V : View σ κ sp ⟨2, ![m, n]⟩ e) (j : Nat) (hj : j < m) (inb) (hq)
    (f : V.ty.Contents Val) (w : (⟨1, ![n]⟩ : Shape).Idx → Val e) (j' : Fin m) (he : j'.val = j) (l : Fin n) :
    V.read Val ((rowView V ![j, 0] inb hq).write Val f w Finset.univ) (ix2 j' l) = w (ix1 l) :=
  read_write_row_eq V ![j, 0] inb hq f w j' he.symm rfl l

theorem read_write_row_miss {m n : Nat} (V : View σ κ sp ⟨2, ![m, n]⟩ e) (j : Nat) (hj : j < m) (inb) (hq)
    (f : V.ty.Contents Val) (w : (⟨1, ![n]⟩ : Shape).Idx → Val e) (j' : Fin m) (hne : j'.val ≠ j) (l : Fin n) :
    V.read Val ((rowView V ![j, 0] inb hq).write Val f w Finset.univ) (ix2 j' l) = V.read Val f (ix2 j' l) :=
  read_write_row_ne V ![j, 0] inb hq f w ⟨j, hj⟩ j' rfl rfl (fun h => hne (congrArg Fin.val h)) l

/-- Eight whole-row writes, one per row of an [8, n] view, read back through the view: row j holds the j-th payload.
    (Later writes go to other rows, so they are not seen at row j; the write to row j is read back.) -/
theorem read_rows8 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7)
    (j : Fin 8) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 j l)
      = (![w0, w1, w2, w3, w4, w5, w6, w7] : Fin 8 → (⟨1, ![n]⟩ : Shape).Idx → Val e) j (ix1 l) := by
  fin_cases j <;>
    repeat (first
      | exact (read_write_row_hit V _ (by decide) _ _ _ _ _ (by rfl) l).trans rfl
      | refine (read_write_row_miss V _ (by decide) _ _ _ _ _ (by decide) l).trans ?_)

/-- The same, row by row. -/
theorem read_rows8_0 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨0, by decide⟩ : Fin 8) l) = w0 (ix1 l) := by
  have h : 0 < 8 := by decide
  exact read_rows8 V f w0 w1 w2 w3 w4 w5 w6 w7 inb0 inb1 inb2 inb3 inb4 inb5 inb6 inb7 hq0 hq1 hq2 hq3 hq4 hq5 hq6 hq7 ⟨0, h⟩ l

theorem read_rows8_1 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨1, by decide⟩ : Fin 8) l) = w1 (ix1 l) := by
  have h : 1 < 8 := by decide
  exact read_rows8 V f w0 w1 w2 w3 w4 w5 w6 w7 inb0 inb1 inb2 inb3 inb4 inb5 inb6 inb7 hq0 hq1 hq2 hq3 hq4 hq5 hq6 hq7 ⟨1, h⟩ l

theorem read_rows8_2 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨2, by decide⟩ : Fin 8) l) = w2 (ix1 l) := by
  have h : 2 < 8 := by decide
  exact read_rows8 V f w0 w1 w2 w3 w4 w5 w6 w7 inb0 inb1 inb2 inb3 inb4 inb5 inb6 inb7 hq0 hq1 hq2 hq3 hq4 hq5 hq6 hq7 ⟨2, h⟩ l

theorem read_rows8_3 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨3, by decide⟩ : Fin 8) l) = w3 (ix1 l) := by
  have h : 3 < 8 := by decide
  exact read_rows8 V f w0 w1 w2 w3 w4 w5 w6 w7 inb0 inb1 inb2 inb3 inb4 inb5 inb6 inb7 hq0 hq1 hq2 hq3 hq4 hq5 hq6 hq7 ⟨3, h⟩ l

theorem read_rows8_4 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨4, by decide⟩ : Fin 8) l) = w4 (ix1 l) := by
  have h : 4 < 8 := by decide
  exact read_rows8 V f w0 w1 w2 w3 w4 w5 w6 w7 inb0 inb1 inb2 inb3 inb4 inb5 inb6 inb7 hq0 hq1 hq2 hq3 hq4 hq5 hq6 hq7 ⟨4, h⟩ l

theorem read_rows8_5 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨5, by decide⟩ : Fin 8) l) = w5 (ix1 l) := by
  have h : 5 < 8 := by decide
  exact read_rows8 V f w0 w1 w2 w3 w4 w5 w6 w7 inb0 inb1 inb2 inb3 inb4 inb5 inb6 inb7 hq0 hq1 hq2 hq3 hq4 hq5 hq6 hq7 ⟨5, h⟩ l

theorem read_rows8_6 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨6, by decide⟩ : Fin 8) l) = w6 (ix1 l) := by
  have h : 6 < 8 := by decide
  exact read_rows8 V f w0 w1 w2 w3 w4 w5 w6 w7 inb0 inb1 inb2 inb3 inb4 inb5 inb6 inb7 hq0 hq1 hq2 hq3 hq4 hq5 hq6 hq7 ⟨6, h⟩ l

theorem read_rows8_7 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨7, by decide⟩ : Fin 8) l) = w7 (ix1 l) := by
  have h : 7 < 8 := by decide
  exact read_rows8 V f w0 w1 w2 w3 w4 w5 w6 w7 inb0 inb1 inb2 inb3 inb4 inb5 inb6 inb7 hq0 hq1 hq2 hq3 hq4 hq5 hq6 hq7 ⟨7, h⟩ l

end Rows8

/-! ## The side conditions the body assumes of the words it reads

Each says that the [1, 128] row of the table at (word, 0) lies inside the [800000, 128] table: the word, read as an
unsigned number, is below 800000. Every word of the list is (`hT`). -/

/-- The row at (v, 0) is a row of the table when v < 800000. -/
theorem row_inb (v : BitVec 32) (h : v.toNat < 800000) :
    ∀ a, (![v.toNat, 0] : Fin 2 → Nat) a + S1x128.size a ≤ S800000x128.size a :=
  Fin.forall_fin_two.mpr ⟨(by show v.toNat + 1 ≤ 800000; omega), (by show 0 + 128 ≤ 128; omega)⟩

theorem chk1_of_lt (v : BitVec 32) (h : v.toNat < 800000) : k0_chk1 v := ⟨row_inb v h, row_inb v h⟩
theorem chk2_of_lt (v : BitVec 32) (h : v.toNat < 800000) : k0_chk2 v := ⟨row_inb v h, row_inb v h⟩
theorem chk3_of_lt (v : BitVec 32) (h : v.toNat < 800000) : k0_chk3 v := ⟨row_inb v h, row_inb v h⟩
theorem chk4_of_lt (v : BitVec 32) (h : v.toNat < 800000) : k0_chk4 v := ⟨row_inb v h, row_inb v h⟩
theorem chk5_of_lt (v : BitVec 32) (h : v.toNat < 800000) : k0_chk5 v := ⟨row_inb v h, row_inb v h⟩
theorem chk6_of_lt (v : BitVec 32) (h : v.toNat < 800000) : k0_chk6 v := ⟨row_inb v h, row_inb v h⟩
theorem chk7_of_lt (v : BitVec 32) (h : v.toNat < 800000) : k0_chk7 v := ⟨row_inb v h, row_inb v h⟩
theorem chk8_of_lt (v : BitVec 32) (h : v.toNat < 800000) : k0_chk8 v := row_inb v h

/-- A word read off the list through the whole list's view is one of the list's entries. -/
theorem word_eq (c : Dev nD) (tb : Bf (F := F) c (Memref.whole main_v3)) (R : LoadRect S131072) (x : R.shape.Idx) :
    View.readAt (Elt F) (Memref.whole main_v3).view R tb x = (tb : IVec S131072 32) (R.idx x) := by
  rw [View.readAt_apply, View.read_apply, cast_eq]; rfl

/-- So it is below 800000 when every entry is. -/
theorem word_lt (c : Dev nD) (tb : Bf (F := F) c (Memref.whole main_v3))
    (hT : ∀ r : S131072.Idx, ((tb : IVec S131072 32) r).toNat < 800000) (R : LoadRect S131072) (x : R.shape.Idx) :
    (View.readAt (Elt F) (Memref.whole main_v3).view R tb x : BitVec 32).toNat < 800000 := by
  rw [word_eq]; exact hT _

/-! ## What one copy moves

The copy for row j reads the word at position n = 8·i + j of the list and moves the table's row named by it. -/

section Payload

open ValueIdx

/-- The word the body reads at offset n of the list is the list's entry n. -/
theorem word_at (c : Dev nD) (tb : Bf (F := F) c (Memref.whole main_v3)) (off : Fin 1 → Nat)
    (inb : ∀ a, off a + S1.size a ≤ S131072.size a) (h1 : 0 < S1.numel) (n : Fin 131072) (hoff : off = ![n.val]) :
    View.readAt (Elt F) (Memref.whole main_v3).view (Rect.unit (s := S131072) off S1.size inb).toLoadRect tb (Shape.Idx.first h1)
      = (tb : IVec S131072 32) (ix1 n) := by
  subst hoff
  rw [word_eq]
  refine congrArg (tb : IVec S131072 32) (funext fun a => Fin.ext ?_)
  match a with
  | ⟨0, _⟩ => show n.val + 1 * 0 = n.val; omega

/-- Row v of the table, read as a 128-vector through the whole table's view, is the table's entries (v, ·). -/
theorem payload_eq (c : Dev nD) (wt : Bf (F := F) c (Memref.whole main_arg1)) (v : BitVec 32) (off : Fin 2 → Nat)
    (hoff : off = ![v.toNat, 0]) (inb : ∀ a, off a + S1x128.size a ≤ S800000x128.size a) (hs) (hq : S1x128.Squeezes S128)
    (hv : v.toNat < 800000) (l : Fin 128) :
    (ReadAs.same : ReadAs (Elt F) S128 .f32 S128 .f32).apply
        (View.read (Elt F) (((Memref.whole main_arg1).slice (Rect.unit (s := S800000x128) off S1x128.size inb) hs).squeeze S128 hq).view wt) (ix1 l)
      = (wt : FVec F S800000x128 .f32) (ix2 (⟨v.toNat, hv⟩ : Fin 800000) l) := by
  subst hoff
  show View.read (Elt F) (rowView (Memref.whole main_arg1).view ![v.toNat, 0] inb hq.numel_eq) wt (ix1 l) = _
  rw [View.read_apply, rowView_emb _ _ inb hq.numel_eq (⟨v.toNat, hv⟩ : Fin 800000) rfl rfl l, cast_eq]
  rfl

/-- The same with the row named by the list's entry n. -/
theorem payload_of_word (c : Dev nD) (tb : Bf (F := F) c (Memref.whole main_v3)) (wt : Bf (F := F) c (Memref.whole main_arg1))
    (hT : ∀ r : S131072.Idx, ((tb : IVec S131072 32) r).toNat < 800000) (v : BitVec 32) (n : Fin 131072)
    (hv : v = (tb : IVec S131072 32) (ix1 n)) (off : Fin 2 → Nat)
    (hoff : off = ![v.toNat, 0]) (inb : ∀ a, off a + S1x128.size a ≤ S800000x128.size a) (hs) (hq : S1x128.Squeezes S128) (l : Fin 128) :
    (ReadAs.same : ReadAs (Elt F) S128 .f32 S128 .f32).apply
        (View.read (Elt F) (((Memref.whole main_arg1).slice (Rect.unit (s := S800000x128) off S1x128.size inb) hs).squeeze S128 hq).view wt) (ix1 l)
      = (wt : FVec F S800000x128 .f32) (ix2 (⟨((tb : IVec S131072 32) (ix1 n)).toNat, hT _⟩ : Fin 800000) l) := by
  subst hv
  exact payload_eq c wt _ off hoff inb hs hq (hT _) l

end Payload

set_option sl_exec.dmaWindow true in
set_option maxHeartbeats 4000000 in
/-- From the id list and the table's read shares held, the output block's buffer whole at anything, the eight counters
    at zero and the core owing nothing: the body runs to its return, handing back the list and the shares as they were,
    the counters at zero, and the block at contents that read, through the block's view, as `blockVal`. -/
theorem kernelRun (c : Dev nD) (i : grid0.Coords) (M3 : Memref sig .tc .vmem S8x128 .f32) (h3 : M3.IsWhole)
    (tb : Bf (F := F) c (Memref.whole main_v3)) (wt : Bf (F := F) c (Memref.whole main_arg1)) (f3 : Bf (F := F) c M3)
    (hT : ∀ r : S131072.Idx, ((tb : IVec S131072 32) r).toNat < 800000)
    (W : Waits sig Unit) (Q : PUnit → sProp 𝕄) :
    iprop(pt c (Memref.whole main_v3) tb ∗ wToks c wt ∗ pt c M3 f3 ∗ sems0 c ∗ owes (c : Thread nD τ) 0 W
      ∗ (iprop(pt c (Memref.whole main_v3) tb ∗ wToks c wt
            ∗ (∃ f, ⌜M3.view.read (Elt F) f = blockVal (F := F) tb wt hT i⌝ ∗ pt c M3 f) ∗ sems0 c
            ∗ ∃ W, owes (c : Thread nD τ) 0 W) -∗ Q ⟨⟩))
    ⊢ wp frame (wpE (defs₀ (F := F)) Variants.none c none) Set.univ
        (cc0__gather_kernel i (Memref.whole main_v3) (Memref.isWhole_whole _) (Memref.whole main_arg1) (Memref.isWhole_whole _) M3 h3 cc0_scratch0) Q := by
  iintro ⟨Ht, ⟨Hwr, Hw0, Hw1, Hw2, Hw3, Hw4, Hw5, Hw6, Hw7, Hw8, Hw9⟩, H3, ⟨Hd0, Hd1, Hd2, Hd3, Hd4, Hd5, Hd6, Hd7⟩, HO, Hk⟩
  simp only [cc0__gather_kernel_eq_skeleton]; unfold cc0__gather_kernel_skel
  sl_exec! (disch := first
    | (sl_unfold_words; exact chk1_of_lt _ (word_lt c tb hT _ _))
    | (sl_unfold_words; exact chk2_of_lt _ (word_lt c tb hT _ _))
    | (sl_unfold_words; exact chk3_of_lt _ (word_lt c tb hT _ _))
    | (sl_unfold_words; exact chk4_of_lt _ (word_lt c tb hT _ _))
    | (sl_unfold_words; exact chk5_of_lt _ (word_lt c tb hT _ _))
    | (sl_unfold_words; exact chk6_of_lt _ (word_lt c tb hT _ _))
    | (sl_unfold_words; exact chk7_of_lt _ (word_lt c tb hT _ _))
    | (sl_unfold_words; exact chk8_of_lt _ (word_lt c tb hT _ _)))
  sl_step
  iapply Hk
  isplitl [Ht]; · iexact Ht
  isplitl [Hwr Hw0 Hw1 Hw2 Hw3 Hw4 Hw5 Hw6 Hw7 Hw8 Hw9]
  · isplitl [Hwr]; · iexact Hwr
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    iexact Hw9
  isplitl [H3]
  · iexists _; isplitr; swap; · iexact H3
    ipureintro
    -- the block read through its view, entry by entry
    funext y
    obtain ⟨j, l, rfl⟩ : ∃ (j : Fin 8) (l : Fin 128), y = ValueIdx.ix2 j l := ⟨y 0, y 1, ValueIdx.eq_ix2 y⟩
    fin_cases j
    · -- row 0: it holds the first copy's payload, the table's row named by word 8·i + 0 of the list
      refine (read_rows8_0 M3.view f3 _ _ _ _ _ _ _ _ _ _ _ _ _ _ _ _ _ _ _ _ _ _ _ _ l).trans ?_
      sl_unfold_run_names
      exact payload_of_word c tb wt hT _ ⟨8 * (i 0).val + 0, by have h : (i 0).val < 16384 := (i 0).isLt; omega⟩
        (word_at c tb _ _ _ _ (k0_off1_eq i)) _ rfl _ _ _ l
    · -- row 1: it holds the second copy's payload, the table's row named by word 8·i + 1 of the list
      refine (read_rows8_1 M3.view f3 _ _ _ _ _ _ _ _ _ _ _ _ _ _ _ _ _ _ _ _ _ _ _ _ l).trans ?_
      sl_unfold_run_names
      exact payload_of_word c tb wt hT _ ⟨8 * (i 0).val + 1, by have h : (i 0).val < 16384 := (i 0).isLt; omega⟩
        (word_at c tb _ _ _ _ (k0_off3_eq i)) _ rfl _ _ _ l
    · -- row 2: it holds the third copy's payload, the table's row named by word 8·i + 2 of the list
      refine (read_rows8_2 M3.view f3 _ _ _ _ _ _ _ _ _ _ _ _ _ _ _ _ _ _ _ _ _ _ _ _ l).trans ?_
      sl_unfold_run_names
      exact payload_of_word c tb wt hT _ ⟨8 * (i 0).val + 2, by have h : (i 0).val < 16384 := (i 0).isLt; omega⟩
        (word_at c tb _ _ _ _ (k0_off5_eq i)) _ rfl _ _ _ l
    · -- row 3: it holds the fourth copy's payload, the table's row named by word 8·i + 3 of the list
      refine (read_rows8_3 M3.view f3 _ _ _ _ _ _ _ _ _ _ _ _ _ _ _ _ _ _ _ _ _ _ _ _ l).trans ?_
      sl_unfold_run_names
      exact payload_of_word c tb wt hT _ ⟨8 * (i 0).val + 3, by have h : (i 0).val < 16384 := (i 0).isLt; omega⟩
        (word_at c tb _ _ _ _ (k0_off7_eq i)) _ rfl _ _ _ l
    · -- row 4: it holds the fifth copy's payload, the table's row named by word 8·i + 4 of the list
      refine (read_rows8_4 M3.view f3 _ _ _ _ _ _ _ _ _ _ _ _ _ _ _ _ _ _ _ _ _ _ _ _ l).trans ?_
      sl_unfold_run_names
      exact payload_of_word c tb wt hT _ ⟨8 * (i 0).val + 4, by have h : (i 0).val < 16384 := (i 0).isLt; omega⟩
        (word_at c tb _ _ _ _ (k0_off9_eq i)) _ rfl _ _ _ l
    · -- row 5: it holds the sixth copy's payload, the table's row named by word 8·i + 5 of the list
      refine (read_rows8_5 M3.view f3 _ _ _ _ _ _ _ _ _ _ _ _ _ _ _ _ _ _ _ _ _ _ _ _ l).trans ?_
      sl_unfold_run_names
      exact payload_of_word c tb wt hT _ ⟨8 * (i 0).val + 5, by have h : (i 0).val < 16384 := (i 0).isLt; omega⟩
        (word_at c tb _ _ _ _ (k0_off11_eq i)) _ rfl _ _ _ l
    · -- row 6: it holds the seventh copy's payload, the table's row named by word 8·i + 6 of the list
      refine (read_rows8_6 M3.view f3 _ _ _ _ _ _ _ _ _ _ _ _ _ _ _ _ _ _ _ _ _ _ _ _ l).trans ?_
      sl_unfold_run_names
      exact payload_of_word c tb wt hT _ ⟨8 * (i 0).val + 6, by have h : (i 0).val < 16384 := (i 0).isLt; omega⟩
        (word_at c tb _ _ _ _ (k0_off13_eq i)) _ rfl _ _ _ l
    · -- row 7: it holds the eighth copy's payload, the table's row named by word 8·i + 7 of the list
      refine (read_rows8_7 M3.view f3 _ _ _ _ _ _ _ _ _ _ _ _ _ _ _ _ _ _ _ _ _ _ _ _ l).trans ?_
      sl_unfold_run_names
      exact payload_of_word c tb wt hT _ ⟨8 * (i 0).val + 7, by have h : (i 0).val < 16384 := (i 0).isLt; omega⟩
        (word_at c tb _ _ _ _ (k0_off15_eq i)) _ rfl _ _ _ l
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.KernelIdeal.Hand

end
-- ==== Proof.HandKernelIdeal.Data.lean ====
/-
  The gather program's run, the data: the buffers' contents when the region is entered, the pipeline's proof data, and
  what @main's last operation computes from what the region leaves.

  @main computes the row ids (two broadcasts and an add), lays them out as one list of 131072 words in scalar memory
  (a reshape), runs ONE kernel region over 16384 grid points whose index map reads no table — the list is read by the
  body only —, and reshapes the region's [131072, 128] result to [4, 4096, 8, 128].
-/
import proofs.«413654_j38517266710585_2_alg».proof.Proof.HandKernelIdeal.Defs
import proofs.«413654_j38517266710585_2_alg».proof.Proof.Gen.KernelIdeal.Launch
import Idealize.ShloMosaic.Lib.Pipeline.Regions
import Idealize.ShloMosaic.Lib.Pipeline.Frame
import Idealize.ShloMosaic.Lib.Pipeline.FrameSuffix

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the run's. -/
abbrev EP : Emb (UR sig nD τ) (MT nD τ sig Unit (Elt F) ℕ (UU nD τ) ℕ) := embL

variable (m : (ℓ : Loc nD τ sig) → Buf (Elt F) ℓ) (ρ : Dev nD → PrngReg)

/-! ## @main before the region -/

/-- Core `c`'s buffers at launch, as the operations' valuation; -/
abbrev V₀ (c : Dev nD) : Valuation τ sig (Elt F) := fun b => m ((c : Dev nD), b)
/-- and when the region is entered: the four operations have run. -/
abbrev V (c : Dev nD) (b : Ref sig .tc) : Buf (Elt F) ((c : Thread nD τ).loc b) := StableHlo.after hostOps0 (V₀ m c) b

/-- Every word of the id list, read unsigned, names a row of the table. -/
def TblOk : Prop := ∀ (c : Dev nD) (r : S131072.Idx), ((V m c main_v3 : IVec S131072 32) r).toNat < 800000

variable (hH : TblOk m)

/-- There is one device. -/
theorem dev_eq (c : Dev nD) : c = 0 := Subsingleton.elim _ _

/-- The list's contents are the tables' admissible contents (the side condition on them is empty: no index map reads them). -/
def adm : (p : Fin 1) → (pcfgs (F := F) p).Adm := fun _ => ⟨fun k => V m 0 (pre0.ref k), trivial⟩

/-! ## The pipeline's proof data -/

/-- The invariant between grid points: the list, the table as read shares, the eight counters at zero. -/
def Φc (c : Dev nD) : sProp 𝕄 :=
  iprop(pt c (Memref.whole main_v3) (V m c main_v3) ∗ wToks c (V m c main_arg1) ∗ sems0 c
    ∗ Pipeline.scopedRest (Ix := Unit) (Name := ℕ) (U := UU nD τ) (Lvl := ℕ) (Val := Elt F) spec0 c)

/-- The proof data on core `c`: the output array at its entry contents; after the body at point `t` the block holds the
    eight gathered rows; the invariant; nothing owed; the full share. -/
def dats (p : Fin 1) (c : Dev nD) : Dat τ (Elt F) Unit ℕ (UU nD τ) ℕ (Pipeline.pin (pcfgs (F := F)) (adm m) p) c where
  A w := V m c (Pipeline.arrRef spec0 w)
  after w t := match w with | ⟨0, _⟩ => blockVal (F := F) (V m c main_v3) (V m c main_arg1) (hH c) (grid0.coords t)
  Φ _ := Φc m c
  q _ := fullShare
  owed _ := 0

abbrev 𝒱₀ : Variants := Variants.none

/-! ## After the region -/

/-- Core `c`'s buffers when the region is left: the output array at what the pipeline's account computes from the blocks
    the body left at the 16384 points, every other buffer as the region was entered. -/
def V1 (c : Dev nD) : Valuation τ sig (Elt F) :=
  Pipeline.withArrays spec0 c (StableHlo.after hostOps0 (V₀ m c))
    (fun w => (dats m hH 0 c).arrAt w (Pipeline.pin (pcfgs (F := F)) (adm m) 0).N)

/-- The result buffer at the end: the last operation (the reshape) applied to that. -/
def outVal (c : Dev nD) : Buf (Elt F) ((c : Thread nD τ).loc main_v5) :=
  StableHlo.after hostOps1 (V1 m hH c) (Proc.devRef .tc main_v5)

end Cert.KernelIdeal.Hand

end
-- ==== Proof.HandKernelIdeal.Run.lean ====
/-
  The gather program's run: the launch. @main is three segments — the host operations that compute the id list, the
  kernel region, the reshape of its result — and the run is the library's theorem for a program given as segments.
  The region is entered holding every unscoped buffer at what the host operations left; the output array goes to the
  pipeline, the id list and the table (split into read shares) and the kernel's eight semaphores to the invariant
  between grid points, the other buffers bypass; it is left with the output array at the pipeline's account of the
  blocks. Under the hypothesis that the list's words name rows of the table, every weakly fair execution terminates,
  the result buffer ends at `outVal` and the three arguments as they were.
-/
import proofs.«413654_j38517266710585_2_alg».proof.Proof.HandKernelIdeal.Body
import proofs.«413654_j38517266710585_2_alg».proof.Proof.HandKernelIdeal.Data

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg) (hH : TblOk m)

/-! ## The table as read shares, and two buffers held -/

/-- The table whole is the remainder and the ten read shares; -/
theorem wToks_split (c : Dev nD) (wt : Bf (F := F) c (Memref.whole main_arg1)) : (wAt c fullShare wt : sProp 𝕄) ⊢ wToks c wt :=
  (Transfers.pointsTo_toks_split (Ix := Unit) (Name := ℕ) (U := UU nD τ) (Lvl := ℕ) fullShare 10).trans
    (Entails.of_eq (by rw [bigSep_univ_eq_bigSepL [(0 : Fin 10), 1, 2, 3, 4, 5, 6, 7, 8, 9] (by decide) (by decide)]; rfl))

/-- and back. -/
theorem wToks_join (c : Dev nD) (wt : Bf (F := F) c (Memref.whole main_arg1)) : (wToks c wt : sProp 𝕄) ⊢ wAt c fullShare wt :=
  (Entails.of_eq (by rw [bigSep_univ_eq_bigSepL [(0 : Fin 10), 1, 2, 3, 4, 5, 6, 7, 8, 9] (by decide) (by decide)]; rfl)).trans
    (Transfers.pointsTo_toks_join (Ix := Unit) (Name := ℕ) (U := UU nD τ) (Lvl := ℕ) fullShare 10)

/-- The buffers the last operation runs within: the region's result and the program's. -/
def S2 : Finset (DevRef τ sig) := {Proc.devRef .tc main_v4, Proc.devRef .tc main_v5}

omit [FloatOps F] in
/-- Those two held at a valuation, one by one. -/
theorem held_S2 (c : Dev nD) (W : Valuation τ sig (Elt F)) :
    (StableHlo.held (c : Thread nD τ) S2 W : sProp 𝕄)
      = iprop((((c : Thread nD τ).loc main_v4) ↦{fullShare} W (Proc.devRef .tc main_v4))
          ∗ (((c : Thread nD τ).loc main_v5) ↦{fullShare} W (Proc.devRef .tc main_v5))) := by
  unfold StableHlo.held S2
  rw [BI.bigSep_insert (by decide), BI.bigSep_singleton]
  rfl

/-! ## The body obligation -/

/-- At every grid point: the invariant and the block's buffer taken apart, the body's run applied, its post reassembled. -/
theorem body_obligation (c : Dev nD) : BodyObligation (dats m hH 0 c) (defs₀ (F := F)) 𝒱₀ () Set.univ := fun t => by
  rw [bigSep_W0, bigSep_W0]
  rw [show (dats m hH 0 c).Φ t.castSucc = Φc m c from rfl, show (dats m hH 0 c).Φ t.succ = Φc m c from rfl]
  unfold Φc Dat.owesAt Pipeline.owesWithin; rw [scopedRest0_eq]
  rw [show (dats m hH 0 c).owed t.castSucc = 0 from rfl, show (dats m hH 0 c).owed t.succ = 0 from rfl]
  have hst : (((Pipeline.pin (pcfgs (F := F)) (adm m) 0).win (0 : Fin 1)).stage ((Pipeline.pin (pcfgs (F := F)) (adm m) 0).slots t (0 : Fin 1))).IsWhole :=
    (launch0 (F := F)).stage_whole (0 : Fin 1) _
  unfold owns
  rw [hst.set_eq_univ]
  dsimp only
  iintro ⟨⟨Ht, Hw, Hsems, -⟩, ⟨%W, %hW, HO⟩, ⟨%d0, %f0, %hf0, H0⟩⟩
  iapply (kernelRun (F := F) c (grid0.coords t) _ (hstage0_0 _) (V m c main_v3) (V m c main_arg1) f0 (hH c) W)
  isplitl [Ht]; · iexact Ht
  isplitl [Hw]; · iexact Hw
  isplitl [H0]; · iexact H0
  isplitl [Hsems]; · iexact Hsems
  isplitl [HO]; · iexact HO
  iintro ⟨Ht, Hw, ⟨%f, %hf, H3⟩, Hsems, ⟨%W', HO⟩⟩
  isplitl [Ht Hw Hsems]
  · isplitl [Ht]; · iexact Ht
    isplitl [Hw]; · iexact Hw
    isplitl [Hsems]; · iexact Hsems
    iempintro
  isplitl [HO]
  · iexists W'; isplitr; · ipureintro; exact fun _ _ => Or.inl trivial
    iexact HO
  iexists f; isplitr; swap; (· iexact H3); ipureintro; exact hf

/-! ## The launch, by the library: @main as segments -/

/-- The layout the launch needs of the kernel's own semaphores: scoped, distinct, and no staging semaphore. -/
theorem ownSemFacts : Pipeline.OwnSemFacts spec0 osem := by decide

/-- The launch element: the pipeline library's at the staging cells and the pipeline's transfers; no counter yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

omit [FloatOps F] in
/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7] (by decide) (by decide)

/-- No core owes another anything: no level is assigned. -/
abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- The three arguments as the region was entered: what rides beside the last operation. -/
abbrev Rz (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2))

/-- THE FIRST HOST SEGMENT: the four operations over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- THE LAST HOST SEGMENT: the reshape, over the region's result and the program's, the arguments riding along. -/
def seg1 : Pipeline.HostSeg (Name := ℕ) (U := UU nD τ) (pcfgs (F := F)) defs₀ 𝒱₀ L lv :=
  Pipeline.HostSeg.ofOps _ _ _ _ _ S2 hostOps1
    (by intro op h; cases h with
        | head => exact (StableHlo.reshape_bufs ..).le
        | tail _ h => exact nomatch h)
    (by intro _ h; (repeat (cases h with | head => rfl | tail _ h => ?_)); exact nomatch h) (V1 m hH) (fun c => iprop(Rz m c ∗ R c))

/-- The id list's buffer, as the tables' contents. -/
theorem prefHeld_eq (c : Dev nD) :
    (Pipeline.prefHeld (Ix := Unit) (Name := ℕ) (U := UU nD τ) (Lvl := ℕ) pre0 c (fun _ => fullShare) (fun k => V m c (pre0.ref k)) : sProp 𝕄)
      = pt c (Memref.whole main_v3) (V m c main_v3) := by
  unfold Pipeline.prefHeld
  rw [show (Finset.univ : Finset (Fin pre0.K)) = {0} from rfl, BI.bigSep_singleton]
  rfl

/-- The unscoped buffers that are not the output array: the id list, and the seven others one by one. -/
theorem unscopedRest_eq (c : Dev nD) :
    (Pipeline.unscopedRest (Ix := Unit) (Name := ℕ) (U := UU nD τ) (Lvl := ℕ) spec0 c (V m c) : sProp 𝕄)
      = iprop(Pipeline.prefHeld pre0 c (fun _ => fullShare) (fun k => V m c (pre0.ref k))
          ∗ ((((c : Thread nD τ).loc main_arg0) ↦{fullShare} V m c main_arg0) ∗ (((c : Thread nD τ).loc main_arg1) ↦{fullShare} V m c main_arg1)
            ∗ (((c : Thread nD τ).loc main_arg2) ↦{fullShare} V m c main_arg2) ∗ (((c : Thread nD τ).loc main_v0) ↦{fullShare} V m c main_v0)
            ∗ (((c : Thread nD τ).loc main_v1) ↦{fullShare} V m c main_v1) ∗ (((c : Thread nD τ).loc main_v2) ↦{fullShare} V m c main_v2)
            ∗ (((c : Thread nD τ).loc main_v5) ↦{fullShare} V m c main_v5))) := by
  rw [Pipeline.unscopedRest_split (launch0 (F := F)).pre c (V m c), unscopedRestP0_eq c (V m c)]

/-- When the region is left the output array holds the pipeline's account of the blocks, -/
theorem V1_v4 (c : Dev nD) :
    V1 m hH c (Proc.devRef .tc main_v4) = (dats m hH 0 c).arrAt 0 (Pipeline.pin (pcfgs (F := F)) (adm m) 0).N :=
  Pipeline.withArrays_arr spec0 (launch0 (F := F)).win.arr_inj c _ _ 0

/-- and the program's result buffer what it held. -/
theorem V1_v5 (c : Dev nD) : V1 m hH c (Proc.devRef .tc main_v5) = V m c main_v5 :=
  Pipeline.withArrays_of_ne spec0 c _ _ main_v5 (fun w => by fin_cases w; decide)

-- `iapply` of a Launch.lean lemma stated over the pinned configuration unifies only when unification may
-- unfold plain definitions in a metavariable's type
set_option backward.isDefEq.respectTransparency.types false in
/-- THE REGION: the generated launch facts' layout, the kernel's eight semaphores, the body obligation; entered from what the first
    segment left — the output array into the pipeline; the id list, the table and the semaphores into the invariant;
    the arguments and the program's result buffer bypassing —, left with the output array at the pipeline's account. -/
def reg0 : Pipeline.RegionSeg (pcfgs (F := F)) (adm m) (dats m hH) () defs₀ 𝒱₀ L lv 0 where
  win := (launch0 (F := F)).win.to₀
  block_pos := (launch0 (F := F)).block_pos
  stage_whole := (launch0 (F := F)).stage_whole
  K := Fin 8
  osem := osem
  ho := ownSemFacts
  hbody c := (body_obligation m hH c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S2 (V1 m hH c) ∗ Rz m c ∗ R c)
  X c := iprop(wAt c fullShare (V m c main_arg1) ∗ sems0 c)
  Y c := iprop(pt c (Memref.whole main_v3) (V m c main_v3) ∗ wAt c fullShare (V m c main_arg1))
  Z c := iprop((((c : Thread nD τ).loc main_arg0) ↦{fullShare} V m c main_arg0) ∗ (((c : Thread nD τ).loc main_arg2) ↦{fullShare} V m c main_arg2)
    ∗ (((c : Thread nD τ).loc main_v5) ↦{fullShare} V m c main_v5))
  hentry c := by
    obtain rfl := dev_eq c
    rw [show StableHlo.held ((0 : Dev nD) : Thread nD τ) (Pipeline.ucRefs τ sig) (StableHlo.after hostOps0 (V₀ m 0)) = unscopedBufs 0 (V m 0)
      from (Pipeline.unscopedBufs_held 0 _).symm, ownSems0_eq]
    have hsplit := (Pipeline.arrays_of_unscopedBufs (pcfgs (F := F)) (adm m) (dats m hH) (launch0 (F := F)).win (launch0 (F := F)).arr_whole 0
      ((dats m hH 0 0).share_full fun _ => rfl) (V m 0) fun _ => rfl).trans (sep_mono .rfl (Entails.of_eq (unscopedRest_eq m 0)))
    iintro ⟨⟨Hub, HO⟩, Hos, -⟩
    ihave H := hsplit $$ Hub
    icases H with ⟨Ha, Hpf, H0, H1, H2, -, -, -, H5⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H0]; · iexact H0
    isplitl [H2]; · iexact H2
    iexact H5
  hin c := by
    obtain rfl := dev_eq c
    show iprop(iprop(wAt 0 fullShare (V m 0 main_arg1) ∗ sems0 0)
        ∗ Pipeline.prefHeld pre0 0 (fun _ => fullShare) (fun k => V m 0 (pre0.ref k))
        ∗ Pipeline.scopedRest (Ix := Unit) (Name := ℕ) (U := UU nD τ) (Lvl := ℕ) (Val := Elt F) spec0 0) ⊢ Φc m 0
    rw [prefHeld_eq]; unfold Φc
    iintro ⟨⟨Hw, Hos⟩, Ht, Hr⟩
    ihave Hw' := (wToks_split 0 _) $$ Hw
    isplitl [Ht]; · iexact Ht
    isplitl [Hw']; · iexact Hw'
    isplitl [Hos] <;> iassumption
  hout c := by
    rw [ownSems0_eq, show (dats m hH 0 c).Φ (Fin.last (Pipeline.pin (pcfgs (F := F)) (adm m) 0).N) = Φc m c from rfl]; unfold Φc
    iintro ⟨Ht, Hw, Hos, Hr⟩
    ihave Hw' := (wToks_join c _) $$ Hw
    isplitl [Ht Hw']
    · isplitl [Ht]; · iexact Ht
      iexact Hw'
    isplitl [Hos] <;> iassumption
  hexit c := by
    rw [Pipeline.arrays_eq (Pipeline.pin (pcfgs (F := F)) (adm m)) (dats m hH) 0 c (launch0 (F := F)).arr_whole ((dats m hH 0 c).share_full fun _ => rfl),
      bigSep_W0, held_S2, V1_v4, V1_v5]
    iintro ⟨Ha, HO, ⟨-, Hw⟩, H0, H2, H5⟩
    imodintro
    isplitl [Ha H5]
    · isplitl [Ha]; · iexact Ha
      iexact H5
    isplitl [H0 Hw H2]
    · isplitl [H0]; · iexact H0
      isplitl [Hw]; · iexact Hw
      iexact H2
    · unfold Pipeline.Dat.owesAt Pipeline.owesWithin
      icases HO with ⟨%W, -, HO⟩; iexists W; iexact HO

/-- @main as the list of the three. -/
abbrev segs : List (Pipeline.Seg (pcfgs (F := F)) (adm m) (dats m hH) () defs₀ 𝒱₀ L lv) :=
  [.host (seg0 m), .region (reg0 m hH), .host (seg1 m hH)]

/-- The final state: the result buffer at `outVal`, the three arguments as the host operations left them (no operation writes one). -/
def QC : PUnit × MemSt nD τ sig (Elt F) → Prop := fun r =>
  ∀ c : Dev nD, r.2.mem ((c : Thread nD τ).loc main_v5) = outVal m hH c
    ∧ r.2.mem ((c : Thread nD τ).loc main_arg0) = V m c main_arg0
    ∧ r.2.mem ((c : Thread nD τ).loc main_arg1) = V m c main_arg1
    ∧ r.2.mem ((c : Thread nD τ).loc main_arg2) = V m c main_arg2

/-- What the last segment leaves: the two buffers after the reshape, the arguments. -/
abbrev Tₙ (c : Dev nD) : sProp 𝕄 :=
  iprop(StableHlo.held (c : Thread nD τ) S2 (StableHlo.after hostOps1 (V1 m hH c)) ∗ Rz m c)

set_option backward.isDefEq.respectTransparency.types false in
/-- At the compiled mesh, from any memory with zero counters whose id list names rows of the table: every weakly fair
    execution of @main on the TensorCores terminates, the result buffer ends at `outVal` and the arguments unchanged. -/
theorem run_main : θ_run defs (onTc (τ := τ) (main (F := F))) ⟨m, fun _ => 0, ρ⟩ (QC m hH) :=
  Pipeline.θ_run_regions_kit (pcfgs (F := F)) (adm m) (dats m hH) () (cellOf_inj (adm m)) EP defs₀ 𝒱₀ L lv m ρ main (segs m hH)
    (fun c Q => by rw [main_segs (adm m) (dats m hH) () 𝒱₀ L lv (seg0 m) (seg1 m hH) (reg0 m hH) rfl rfl c])
    (by simp only [Pipeline.Seg.pipes_host, Pipeline.Seg.pipes_region, Pipeline.Seg.pipes_nil]; decide) (O₀ := 0) (hL := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m hH)
    (hch := ⟨fun _ => .rfl, fun _ => .rfl, fun _ => .rfl, fun c => by
      show iprop(StableHlo.held (c : Thread nD τ) S2 (StableHlo.after hostOps1 (V1 m hH c)) ∗ (Rz m c ∗ R c))
        ⊢ iprop(Tₙ m hH c ∗ ∃ W, owes (c : Thread nD τ) (0 : CellTallies nD τ sig Unit) W)
      iintro ⟨Hh, Hz, HO⟩
      isplitl [Hh Hz]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v5) = outVal m hH c
      ∧ s.mem ((c : Thread nD τ).loc main_arg0) = V m c main_arg0
      ∧ s.mem ((c : Thread nD τ).loc main_arg1) = V m c main_arg1
      ∧ s.mem ((c : Thread nD τ).loc main_arg2) = V m c main_arg2)
    (hfin := fun c s' => by
      dsimp only [Tₙ]; rw [held_S2]
      iintro ⟨⟨⟨-, H5⟩, H0, H1, H2⟩, HSI⟩
      icombine HSI H5 gives %h5
      icombine HSI H0 gives %h0
      icombine HSI H1 gives %h1
      icombine HSI H2 gives %h2
      imodintro
      isplitr
      · ipureintro
        exact ⟨Buf.eq_of_forall_mem_univ h5, Buf.eq_of_forall_mem_univ h0, Buf.eq_of_forall_mem_univ h1, Buf.eq_of_forall_mem_univ h2⟩
      iexact HSI)
    (hQ := fun _ h => h)

end Cert.KernelIdeal.Hand

end
-- ==== Proof.HandKernelIdeal.Value.lean ====
/-
  The gather program's value: what the result buffer holds at the end is the specification.

  Before the region @main forms the global row ids (two broadcasts and the 32-bit sum) and lays them out as one list of
  131072 words, so the list the kernel reads IS the specification's list; no operation writes an argument. The region
  has one output window of blocks [8, 128] over the [131072, 128] result array, the block of grid point t being rows
  8t … 8t + 7, all 128 columns; the body leaves in it, at row j, the table's row named by word 8t + j of the list, which
  is rows 8t … 8t + 7 of the gathered rows. Every point writes its block back (the next point's block is another one)
  and row r lies in point r / 8's block, so the 16384 blocks tile the array and it ends holding the gathered rows. The
  one operation after the region relabels that array, in row-major order, as [4, 4096, 8, 128]: the specification's
  result.
-/
import proofs.«413654_j38517266710585_2_alg».proof.Proof.HandKernelIdeal.Data
import proofs.«413654_j38517266710585_2_alg».proof.Proof.Spec
import Idealize.ShloMosaic.Lib.Pipeline.Value
import Idealize.ShloMosaic.Lib.StableHlo.Run

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (m : (ℓ : Loc nD τ sig) → Buf (Elt F) ℓ)

/-- The three arguments as the launch memory holds them. -/
abbrev a0 (c : Dev nD) : IVec Cert.Proof.Spec.S4x4096x8 32 := m ((c : Thread nD τ).loc main_arg0)
abbrev a1 (c : Dev nD) : FVec F Cert.Proof.Spec.S800000x128 .f32 := m ((c : Thread nD τ).loc main_arg1)
abbrev a2 (c : Dev nD) : IVec Cert.Proof.Spec.S8 32 := m ((c : Thread nD τ).loc main_arg2)

/-- The four operations before the region write the two broadcasts, the sum and the list, and nothing else. -/
theorem hostOps0_writes : (hostOps0 (F := F)).Forall fun op =>
    op.writes ⊆ (([main_v0, main_v1, main_v2, main_v3] : List (Ref sig .tc)).map (Proc.devRef (τ := τ) .tc)).toFinset := by
  refine ⟨?_, ?_, ?_, ?_⟩
  · show (StableHlo.unary _ _ _ _ _).writes ⊆ _
    rw [StableHlo.unary_writes, Finset.singleton_subset_iff, List.mem_toFinset]
    exact List.mem_map.mpr ⟨main_v0, by decide, rfl⟩
  · show (StableHlo.unary _ _ _ _ _).writes ⊆ _
    rw [StableHlo.unary_writes, Finset.singleton_subset_iff, List.mem_toFinset]
    exact List.mem_map.mpr ⟨main_v1, by decide, rfl⟩
  · show (StableHlo.binary _ _ _ _ _ _ _).writes ⊆ _
    rw [StableHlo.binary_writes, Finset.singleton_subset_iff, List.mem_toFinset]
    exact List.mem_map.mpr ⟨main_v2, by decide, rfl⟩
  · show (StableHlo.reshape _ _ _ _ _ _).writes ⊆ _
    rw [StableHlo.reshape_writes, Finset.singleton_subset_iff, List.mem_toFinset]
    exact List.mem_map.mpr ⟨main_v3, by decide, rfl⟩

/-- No operation before the region writes an argument: each reaches the region as launched. -/
theorem V_arg0 (c : Dev nD) : V m c main_arg0 = m ((c : Thread nD τ).loc main_arg0) :=
  StableHlo.after_of_writes_sub hostOps0 (V₀ m c) hostOps0_writes (by decide)
theorem V_arg1 (c : Dev nD) : V m c main_arg1 = m ((c : Thread nD τ).loc main_arg1) :=
  StableHlo.after_of_writes_sub hostOps0 (V₀ m c) hostOps0_writes (by decide)
theorem V_arg2 (c : Dev nD) : V m c main_arg2 = m ((c : Thread nD τ).loc main_arg2) :=
  StableHlo.after_of_writes_sub hostOps0 (V₀ m c) hostOps0_writes (by decide)

/-- The list the region finds in scalar memory is the specification's list of global row ids: the same two broadcasts,
    sum and row-major relabelling of the same arguments. -/
theorem V_tbl (c : Dev nD) : (V m c main_v3 : IVec S131072 32) = Cert.Proof.Spec.tbl (a0 m c) (a2 m c) := by
  dsimp only [V, hostOps0]
  after_results
  rfl

/-- On the domain every word of that list names a row of the table. -/
theorem tblOk_of_inRange (h : ∀ c, Cert.Proof.Spec.InRange (a0 m c) (a2 m c)) : TblOk m := fun c r =>
  lt_of_eq_of_lt (congrArg BitVec.toNat (congrFun (V_tbl m c) r)) (Cert.Proof.Spec.tbl_lt (h c) r)

/-- The grid has one axis: the point's coordinate is the point's number. -/
theorem coords_val (t : Fin grid0.N) : (grid0.coords t 0).val = t.val := by
  have hN : grid0.N = 16384 := N_0
  have ht : t.val < 16384 := hN ▸ t.isLt
  have hs : grid0.stride 0 = 1 := by decide
  show t.val / grid0.stride 0 % 16384 = t.val
  rw [hs]; omega

/-- The output window's block index at grid coordinates `i`: block row `i`, block column 0. -/
theorem transform_row (i : grid0.Coords) : cc0_transform_1 i 0 = (i 0).val := by
  have hi : (i 0).val < 16384 := (i 0).isLt
  show (BitVec.ofNat 32 (i 0).val).toNat = (i 0).val
  rw [BitVec.toNat_ofNat]; omega
/-- Its block column is 0: a block spans all 128 columns. -/
theorem transform_col (i : grid0.Coords) : cc0_transform_1 i 1 = 0 := rfl

/-- Two rows of the table named by equal positions of the list, read at equal columns, are the same entry. -/
theorem row_congr (wt : FVec F S800000x128 .f32) (tb : IVec S131072 32) (hT : ∀ r : S131072.Idx, (tb r).toNat < 800000)
    (r r' : Fin 131072) (l l' : Fin 128) (er : r = r') (el : l = l') :
    wt (ix2 (⟨(tb (ix1 r)).toNat, hT _⟩ : Fin 800000) l) = wt (ix2 (⟨(tb (ix1 r')).toNat, hT _⟩ : Fin 800000) l') := by
  subst er el; rfl

/-- What the body leaves in the block at grid coordinates `i`, read at `y`, is the gathered rows' entry at row
    `8·i + y₀`, column `y₁`. -/
theorem blockVal_apply (tb : IVec S131072 32) (wt w' : FVec F S800000x128 .f32) (hT : ∀ r : S131072.Idx, (tb r).toNat < 800000)
    (x0 : IVec Cert.Proof.Spec.S4x4096x8 32) (x2 : IVec Cert.Proof.Spec.S8 32) (h : Cert.Proof.Spec.InRange x0 x2)
    (htb : tb = Cert.Proof.Spec.tbl x0 x2) (hwt : wt = w')
    (i : grid0.Coords) (y : S8x128.Idx) (k : Cert.Proof.Spec.S131072x128.Idx)
    (hk0 : (k 0).val = 8 * (i 0).val + (y 0).val) (hk1 : (k 1).val = (y 1).val) :
    blockVal tb wt hT i y = Cert.Proof.Spec.rows w' x0 x2 h k := by
  subst htb hwt
  exact row_congr wt _ (Cert.Proof.Spec.tbl_lt h) _ (k 0) (y 1) (k 1) (Fin.ext hk0.symm) (Fin.ext hk1.symm)

/-- What grid point `t` writes back is block `t` of the gathered rows: rows `8t … 8t + 7`, every column. -/
theorem flushed_eq (h : ∀ c, Cert.Proof.Spec.InRange (a0 m c) (a2 m c)) (c : Dev nD)
    (t : Fin (Pipeline.pin (pcfgs (F := F)) (adm m) 0).N) :
    (dats m (tblOk_of_inRange m h) 0 c).flushed 0 t
      = (((Pipeline.pin (pcfgs (F := F)) (adm m) 0).win 0).blk t).view.read (Elt F)
          (Cert.Proof.Spec.rows (a1 m c) (a0 m c) (a2 m c) (h c)) := by
  funext y
  show blockVal (F := F) (V m c main_v3) (V m c main_arg1) (tblOk_of_inRange m h c) (grid0.coords t)
        (((Pipeline.pin (pcfgs (F := F)) (adm m) 0).win 0).xinj (grid0.coords t) y)
      = Cert.Proof.Spec.rows (a1 m c) (a0 m c) (a2 m c) (h c)
          ((((Pipeline.pin (pcfgs (F := F)) (adm m) 0).win 0).blk t).view.emb y)
  refine blockVal_apply (V m c main_v3) (V m c main_arg1) (a1 m c) _ (a0 m c) (a2 m c) (h c) (V_tbl m c) (V_arg1 m c)
    (grid0.coords t) _ _ ?_ ?_
  · show cc0_transform_1 (grid0.coords t) 0 * 8 + 1 * (y (0 : Fin 2)).val = 8 * (grid0.coords t 0).val + (y (0 : Fin 2)).val
    rw [transform_row]; omega
  · show cc0_transform_1 (grid0.coords t) 1 * 128 + 1 * (y (1 : Fin 2)).val = (y (1 : Fin 2)).val
    rw [transform_col]; omega

/-- Every grid point writes its block back: the next point's block is another one. -/
theorem flush_all (t : Fin (Pipeline.pin (pcfgs (F := F)) (adm m) 0).N) :
    ((Pipeline.pin (pcfgs (F := F)) (adm m) 0).win 0).flush t = true := by
  have hN : grid0.N = 16384 := N_0
  have ht : t.val < grid0.N := t.isLt
  show (true && (decide (t.val + 1 = grid0.N)
    || decide (∃ h : t.val + 1 < grid0.N, cc0_transform_1 (grid0.coords ⟨t.val + 1, h⟩) ≠ cc0_transform_1 (grid0.coords t)))) = true
  rw [Bool.true_and, Bool.or_eq_true, decide_eq_true_eq, decide_eq_true_eq]
  by_cases h1 : t.val + 1 = grid0.N
  · exact Or.inl h1
  · have h2 : t.val + 1 < grid0.N := by omega
    refine Or.inr ⟨h2, fun e => ?_⟩
    have e0 : cc0_transform_1 (grid0.coords ⟨t.val + 1, h2⟩) 0 = cc0_transform_1 (grid0.coords t) 0 := congrFun e 0
    have c1 : (grid0.coords ⟨t.val + 1, h2⟩ 0).val = t.val + 1 := coords_val ⟨t.val + 1, h2⟩
    have c0 : (grid0.coords t 0).val = t.val := coords_val t
    rw [transform_row, transform_row, c1, c0] at e0
    omega

/-- An index of the result array is in point `t`'s block iff each coordinate is in the block's range on its axis. -/
theorem mem_blk (t : Fin (Pipeline.pin (pcfgs (F := F)) (adm m) 0).N) (i : S131072x128.Idx) :
    i ∈ (((Pipeline.pin (pcfgs (F := F)) (adm m) 0).win 0).blk t).view.set
      ↔ ∀ a : Fin 2, cc0_transform_1 (grid0.coords t) a * S8x128.size a ≤ (i a).val
          ∧ (i a).val < cc0_transform_1 (grid0.coords t) a * S8x128.size a + S8x128.size a := by
  exact ((Finset.ext_iff.mp (View.set_slice_whole main_v4 (((Pipeline.pin (pcfgs (F := F)) (adm m) 0).win 0).rect t))) i).trans
    Rect.mem_set_unit

/-- The result array when the region is left holds the gathered rows: point `r / 8`'s block covers row `r`. -/
theorem rows_final (h : ∀ c, Cert.Proof.Spec.InRange (a0 m c) (a2 m c)) (c : Dev nD) :
    (dats m (tblOk_of_inRange m h) 0 c).arrAt 0 (Pipeline.pin (pcfgs (F := F)) (adm m) 0).N
      = Cert.Proof.Spec.rows (a1 m c) (a0 m c) (a2 m c) (h c) :=
  (dats m (tblOk_of_inRange m h) 0 c).arrAt_eq_of_cover 0 (Cert.Proof.Spec.rows (a1 m c) (a0 m c) (a2 m c) (h c))
    (fun t _ => flushed_eq m h c t) fun i => by
      have hN : grid0.N = 16384 := N_0
      have h0 : (i (0 : Fin 2) : Nat) < 131072 := (i (0 : Fin 2)).isLt
      have h1 : (i (1 : Fin 2) : Nat) < 128 := (i (1 : Fin 2)).isLt
      have hq : (i (0 : Fin 2) : Nat) / 8 < grid0.N := by omega
      refine ⟨⟨(i (0 : Fin 2) : Nat) / 8, hq⟩, flush_all m _, (mem_blk m _ i).mpr fun a => ?_⟩
      have c0 : (grid0.coords ⟨(i (0 : Fin 2) : Nat) / 8, hq⟩ 0).val = (i (0 : Fin 2) : Nat) / 8 := coords_val ⟨_, hq⟩
      match a with
      | ⟨0, _⟩ =>
        show cc0_transform_1 (grid0.coords ⟨(i (0 : Fin 2) : Nat) / 8, hq⟩) 0 * 8 ≤ (i (0 : Fin 2) : Nat)
          ∧ (i (0 : Fin 2) : Nat) < cc0_transform_1 (grid0.coords ⟨(i (0 : Fin 2) : Nat) / 8, hq⟩) 0 * 8 + 8
        rw [transform_row, c0]; omega
      | ⟨1, _⟩ =>
        show cc0_transform_1 (grid0.coords ⟨(i (0 : Fin 2) : Nat) / 8, hq⟩) 1 * 128 ≤ (i (1 : Fin 2) : Nat)
          ∧ (i (1 : Fin 2) : Nat) < cc0_transform_1 (grid0.coords ⟨(i (0 : Fin 2) : Nat) / 8, hq⟩) 1 * 128 + 128
        rw [transform_col]; omega

/-- So the result array's buffer, as the operation after the region finds it, holds the gathered rows. -/
theorem V1_out (h : ∀ c, Cert.Proof.Spec.InRange (a0 m c) (a2 m c)) (c : Dev nD) :
    V1 m (tblOk_of_inRange m h) c (Proc.devRef .tc main_v4) = Cert.Proof.Spec.rows (a1 m c) (a0 m c) (a2 m c) (h c) :=
  (Pipeline.withArrays_arr spec0 winFacts0.arr_inj c _ _ 0).trans (rows_final m h c)

/-- The result buffer at the end is the specification's result: the gathered rows relabelled in row-major order. -/
theorem outVal_eq (h : ∀ c, Cert.Proof.Spec.InRange (a0 m c) (a2 m c)) (c : Dev nD) :
    (outVal m (tblOk_of_inRange m h) c : FVec F Cert.Proof.Spec.S4x4096x8x128 .f32)
      = Cert.Proof.Spec.out (F := F) (a1 m c) (a0 m c) (a2 m c) (h c) := by
  unfold outVal
  show StableHlo.after hostOps1 _ (Proc.devRef .tc main_v5) = _
  after_results
  exact congrArg (fun x => shapeCast Cert.Proof.Spec.S4x4096x8x128 x Cert.Proof.Spec.sc1) (V1_out m h c)

end Cert.KernelIdeal.Hand
end
-- ==== Proof.HandKernel.Defs.lean ====
/-
  The gather kernel's run, shared definitions.

  The kernel body at grid point `i` reads eight words `8·i + j` (j = 0 … 7) of the row-id list, which the launch placed in
  scalar memory, and for each starts a copy of the table's row named by that word into row `j` of the output block, each
  copy on a semaphore of its own; it then waits for the eight copies. While the copies are in flight the table is read
  by up to eight of them at once, possibly at the same row, so the table is held as READ SHARES, one per semaphore
  cell (the cells are the pool's 2 … 9), beside the remainder; the output block is lent window by window.
  `blockVal` is what the block holds when the body returns: row `j` is the table's row `tb (8·i + j)`.
-/
import proofs.«413654_j38517266710585_2_alg».proof.Proof.Gen.Kernel.Skeleton
import Idealize.ShloMosaic.Lib.Tactic
import Idealize.ShloMosaic.Lib.Pipeline.Kit
import Idealize.ShloMosaic.Lib.ValueIdx

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's, beside the counters the copies' invariants take their tokens from. -/
abbrev UU (nD : Nat) (τ : Topo) : Type := UR sig nD τ × Counters

local notation "𝕄" => MT nD τ sig Unit (Elt F) ℕ (UU nD τ) ℕ

/-- Memref `M`'s buffer on core `c`: its contents type, and it held whole at `f` at share `q`. -/
abbrev Bf (c : Dev nD) {sp : Space} {S : Shape} {e : EltTy} (M : Memref sig .tc sp S e) : Type := Buf (Elt F) (M.view.loc (c : Thread nD τ))
abbrev ptq (c : Dev nD) (q : PosShare TreeShare) {sp : Space} {S : Shape} {e : EltTy} (M : Memref sig .tc sp S e) (f : Bf (F := F) c M) : sProp 𝕄 :=
  M.view.loc (c : Thread nD τ) ↦{q} f
abbrev pt (c : Dev nD) {sp : Space} {S : Shape} {e : EltTy} (M : Memref sig .tc sp S e) (f : Bf (F := F) c M) : sProp 𝕄 :=
  ptq c fullShare M f

/-- The kernel's own semaphores: the eight cells of its scratch semaphore array, the pool's 2 … 9. -/
abbrev osem : Fin 8 → SemLoc sig := fun | 0 => .dma 2 | 1 => .dma 3 | 2 => .dma 4 | 3 => .dma 5 | 4 => .dma 6 | 5 => .dma 7 | 6 => .dma 8 | 7 => .dma 9

/-- The eight counters at zero. -/
abbrev sems0 (c : Dev nD) : sProp 𝕄 :=
  iprop(semVal ((c : Thread nD τ), osem 0) 0 ∗ semVal ((c : Thread nD τ), osem 1) 0 ∗ semVal ((c : Thread nD τ), osem 2) 0 ∗ semVal ((c : Thread nD τ), osem 3) 0
    ∗ semVal ((c : Thread nD τ), osem 4) 0 ∗ semVal ((c : Thread nD τ), osem 5) 0 ∗ semVal ((c : Thread nD τ), osem 6) 0 ∗ semVal ((c : Thread nD τ), osem 7) 0)

/-- The table at share `q`. -/
abbrev wAt (c : Dev nD) (q : PosShare TreeShare) (wt : Bf (F := F) c (Memref.whole main_arg1)) : sProp 𝕄 :=
  ptq c q (Memref.whole main_arg1) wt

/-- The table as ten read shares (one per semaphore cell 0 … 9 of the pool: the copies complete on cells 2 … 9) and the remainder. -/
abbrev wToks (c : Dev nD) (wt : Bf (F := F) c (Memref.whole main_arg1)) : sProp 𝕄 :=
  iprop(wAt c (Transfers.shareDrop fullShare 10) wt ∗ wAt c (Transfers.shareTok fullShare 10 0) wt ∗ wAt c (Transfers.shareTok fullShare 10 1) wt
    ∗ wAt c (Transfers.shareTok fullShare 10 2) wt ∗ wAt c (Transfers.shareTok fullShare 10 3) wt ∗ wAt c (Transfers.shareTok fullShare 10 4) wt
    ∗ wAt c (Transfers.shareTok fullShare 10 5) wt ∗ wAt c (Transfers.shareTok fullShare 10 6) wt ∗ wAt c (Transfers.shareTok fullShare 10 7) wt
    ∗ wAt c (Transfers.shareTok fullShare 10 8) wt ∗ wAt c (Transfers.shareTok fullShare 10 9) wt)

/-- Word `8·i + j` of the list exists: the list has 16384 · 8 words. -/
theorem blockRow_lt (i : grid0.Coords) (y : S8x128.Idx) : 8 * (i 0).val + (y 0).val < 131072 := by
  have h1 : (i 0).val < 16384 := (i 0).isLt
  have h2 : (y 0).val < 8 := (y 0).isLt
  omega

/-- What the output block holds after the body at grid point `i`: row `j` is the table's row named by word `8·i + j`
    of the list (the words in range: `hT`). -/
def blockVal (tb : IVec S131072 32) (wt : FVec F S800000x128 .f32) (hT : ∀ r : S131072.Idx, (tb r).toNat < 800000)
    (i : grid0.Coords) : FVec F S8x128 .f32 :=
  fun y => wt (ValueIdx.ix2 (⟨(tb (ValueIdx.ix1 (⟨8 * (i 0).val + (y 0).val, blockRow_lt i y⟩ : Fin 131072))).toNat, hT _⟩ : Fin 800000) (y 1))

end Cert.Kernel.Hand

end
-- ==== Proof.HandKernel.Body.lean ====
/-
  The gather kernel's body, run once at a symbolic grid point.

  Two facts carry the run: (1) every word the body reads off the id list names a row of the table, which is what the
  body assumes of it before it forms the row's window (every entry of the list is below 800000); (2) what the output
  block holds at the return. The block is written by eight copies, copy j
  landing in row j as a 128-vector; rows are disjoint, so reading the block back at (j, l) sees copy j's payload at l
  and nothing of the others; and copy j's payload is the table's row named by word 8·i + j of the list, read through
  the whole table. Together: entry (j, l) of the block is the table's entry (list[8·i + j], l).
-/
import proofs.«413654_j38517266710585_2_alg».proof.Proof.HandKernel.Defs

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Rows of a block, as vectors

A [1, 128] rectangle of an [8, 128] view at offsets (j, 0), with its unit axis dropped, is row j of the view as a
128-vector: its element l sits where the view's element (j, l) sits. -/

section Rows

open ValueIdx

variable {σ : RefSig} {κ : Kind} {sp : Space} {e : EltTy} {Val : EltTy → Type}

/-- Dropping the unit axis of a [1, n] shape matches the vector index l with (0, l). -/
theorem squeeze_ix1 {n : Nat} (h : (⟨1, ![n]⟩ : Shape).numel = (⟨2, ![1, n]⟩ : Shape).numel) (l : Fin n) :
    Shape.reshapeEquiv h (ix1 l) = ix2 (⟨0, Nat.one_pos⟩ : Fin 1) l :=
  Shape.reshapeEquiv_eq_of_rowMajor h (by
    rw [Shape.rowMajor_val_two, Shape.rowMajor_val_one]
    show 0 * n + l.val = l.val
    omega)

/-- Row j of an [m, n] view as an n-vector: the [1, n] rectangle at (j, 0), its unit axis dropped. -/
abbrev rowView {m n : Nat} (V : View σ κ sp ⟨2, ![m, n]⟩ e) (off : Fin 2 → Nat)
    (inb : ∀ a, off a + (![1, n] : Fin 2 → Nat) a ≤ (⟨2, ![m, n]⟩ : Shape).size a)
    (hq : (⟨1, ![n]⟩ : Shape).numel = (Rect.unit (s := ⟨2, ![m, n]⟩) off ![1, n] inb).shape.numel) : View σ κ sp ⟨1, ![n]⟩ e :=
  (V.slice (Rect.unit off ![1, n] inb)).reshape ⟨1, ![n]⟩ hq

/-- Element l of row j sits at the view's (j, l). -/
theorem rowView_emb {m n : Nat} (V : View σ κ sp ⟨2, ![m, n]⟩ e) (off : Fin 2 → Nat) (inb) (hq) (j : Fin m)
    (h0 : off 0 = j.val) (h1 : off 1 = 0) (l : Fin n) :
    (rowView V off inb hq).emb (ix1 l) = V.emb (ix2 j l) := by
  show V.emb ((Rect.unit off ![1, n] inb).emb (Shape.reshapeEquiv hq (ix1 l))) = V.emb (ix2 j l)
  refine congrArg V.emb ?_
  rw [squeeze_ix1 hq l]
  funext a
  apply Fin.ext
  rw [Rect.emb_apply]
  match a with
  | ⟨0, _⟩ => show off 0 + 1 * 0 = j.val; omega
  | ⟨1, _⟩ => show off 1 + 1 * l.val = l.val; omega

end Rows

section Rows2

open ValueIdx

variable {σ : RefSig} {κ : Kind} {sp : Space} {e : EltTy} {Val : EltTy → Type}

/-- A write of a whole row j, read back through the view at (j, l): the payload at l. -/
theorem read_write_row_eq {m n : Nat} (V : View σ κ sp ⟨2, ![m, n]⟩ e) (off : Fin 2 → Nat) (inb) (hq)
    (f : V.ty.Contents Val) (w : (⟨1, ![n]⟩ : Shape).Idx → Val e) (j : Fin m) (h0 : off 0 = j.val) (h1 : off 1 = 0) (l : Fin n) :
    V.read Val ((rowView V off inb hq).write Val f w Finset.univ) (ix2 j l) = w (ix1 l) := by
  rw [View.read_apply, ← rowView_emb V off inb hq j h0 h1 l, View.write_emb_of_mem _ _ (Finset.mem_univ _), cast_cast, cast_eq]

/-- A write of a whole row j is not seen at another row j'. -/
theorem read_write_row_ne {m n : Nat} (V : View σ κ sp ⟨2, ![m, n]⟩ e) (off : Fin 2 → Nat) (inb) (hq)
    (f : V.ty.Contents Val) (w : (⟨1, ![n]⟩ : Shape).Idx → Val e) (j j' : Fin m) (h0 : off 0 = j.val) (h1 : off 1 = 0)
    (hne : j' ≠ j) (l : Fin n) :
    V.read Val ((rowView V off inb hq).write Val f w Finset.univ) (ix2 j' l) = V.read Val f (ix2 j' l) := by
  refine View.read_congr_at _ (View.write_of_not_mem _ _ _ fun hm => hne ?_)
  obtain ⟨x, -, hx⟩ := Finset.mem_map.mp hm
  have ex : (rowView V off inb hq).emb x = V.emb (ix2 j (x 0)) :=
    (congrArg (rowView V off inb hq).emb (eq_ix1 x)).trans (rowView_emb V off inb hq j h0 h1 (x 0))
  exact (congrFun (V.emb.injective (ex.symm.trans hx)) 0).symm

end Rows2

section Rows8

open ValueIdx

variable {σ : RefSig} {κ : Kind} {sp : Space} {e : EltTy} {Val : EltTy → Type}

/-- The two facts above with the row's number written as a numeral in the rectangle's offsets. -/
theorem read_write_row_hit {m n : Nat} (V : View σ κ sp ⟨2, ![m, n]⟩ e) (j : Nat) (hj : j < m) (inb) (hq)
    (f : V.ty.Contents Val) (w : (⟨1, ![n]⟩ : Shape).Idx → Val e) (j' : Fin m) (he : j'.val = j) (l : Fin n) :
    V.read Val ((rowView V ![j, 0] inb hq).write Val f w Finset.univ) (ix2 j' l) = w (ix1 l) :=
  read_write_row_eq V ![j, 0] inb hq f w j' he.symm rfl l

theorem read_write_row_miss {m n : Nat} (V : View σ κ sp ⟨2, ![m, n]⟩ e) (j : Nat) (hj : j < m) (inb) (hq)
    (f : V.ty.Contents Val) (w : (⟨1, ![n]⟩ : Shape).Idx → Val e) (j' : Fin m) (hne : j'.val ≠ j) (l : Fin n) :
    V.read Val ((rowView V ![j, 0] inb hq).write Val f w Finset.univ) (ix2 j' l) = V.read Val f (ix2 j' l) :=
  read_write_row_ne V ![j, 0] inb hq f w ⟨j, hj⟩ j' rfl rfl (fun h => hne (congrArg Fin.val h)) l

/-- Eight whole-row writes, one per row of an [8, n] view, read back through the view: row j holds the j-th payload.
    (Later writes go to other rows, so they are not seen at row j; the write to row j is read back.) -/
theorem read_rows8 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7)
    (j : Fin 8) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 j l)
      = (![w0, w1, w2, w3, w4, w5, w6, w7] : Fin 8 → (⟨1, ![n]⟩ : Shape).Idx → Val e) j (ix1 l) := by
  fin_cases j <;>
    repeat (first
      | exact (read_write_row_hit V _ (by decide) _ _ _ _ _ (by rfl) l).trans rfl
      | refine (read_write_row_miss V _ (by decide) _ _ _ _ _ (by decide) l).trans ?_)

/-- The same, row by row. -/
theorem read_rows8_0 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨0, by decide⟩ : Fin 8) l) = w0 (ix1 l) := by
  have h : 0 < 8 := by decide
  exact read_rows8 V f w0 w1 w2 w3 w4 w5 w6 w7 inb0 inb1 inb2 inb3 inb4 inb5 inb6 inb7 hq0 hq1 hq2 hq3 hq4 hq5 hq6 hq7 ⟨0, h⟩ l

theorem read_rows8_1 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨1, by decide⟩ : Fin 8) l) = w1 (ix1 l) := by
  have h : 1 < 8 := by decide
  exact read_rows8 V f w0 w1 w2 w3 w4 w5 w6 w7 inb0 inb1 inb2 inb3 inb4 inb5 inb6 inb7 hq0 hq1 hq2 hq3 hq4 hq5 hq6 hq7 ⟨1, h⟩ l

theorem read_rows8_2 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨2, by decide⟩ : Fin 8) l) = w2 (ix1 l) := by
  have h : 2 < 8 := by decide
  exact read_rows8 V f w0 w1 w2 w3 w4 w5 w6 w7 inb0 inb1 inb2 inb3 inb4 inb5 inb6 inb7 hq0 hq1 hq2 hq3 hq4 hq5 hq6 hq7 ⟨2, h⟩ l

theorem read_rows8_3 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨3, by decide⟩ : Fin 8) l) = w3 (ix1 l) := by
  have h : 3 < 8 := by decide
  exact read_rows8 V f w0 w1 w2 w3 w4 w5 w6 w7 inb0 inb1 inb2 inb3 inb4 inb5 inb6 inb7 hq0 hq1 hq2 hq3 hq4 hq5 hq6 hq7 ⟨3, h⟩ l

theorem read_rows8_4 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨4, by decide⟩ : Fin 8) l) = w4 (ix1 l) := by
  have h : 4 < 8 := by decide
  exact read_rows8 V f w0 w1 w2 w3 w4 w5 w6 w7 inb0 inb1 inb2 inb3 inb4 inb5 inb6 inb7 hq0 hq1 hq2 hq3 hq4 hq5 hq6 hq7 ⟨4, h⟩ l

theorem read_rows8_5 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨5, by decide⟩ : Fin 8) l) = w5 (ix1 l) := by
  have h : 5 < 8 := by decide
  exact read_rows8 V f w0 w1 w2 w3 w4 w5 w6 w7 inb0 inb1 inb2 inb3 inb4 inb5 inb6 inb7 hq0 hq1 hq2 hq3 hq4 hq5 hq6 hq7 ⟨5, h⟩ l

theorem read_rows8_6 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨6, by decide⟩ : Fin 8) l) = w6 (ix1 l) := by
  have h : 6 < 8 := by decide
  exact read_rows8 V f w0 w1 w2 w3 w4 w5 w6 w7 inb0 inb1 inb2 inb3 inb4 inb5 inb6 inb7 hq0 hq1 hq2 hq3 hq4 hq5 hq6 hq7 ⟨6, h⟩ l

theorem read_rows8_7 {n : Nat} (V : View σ κ sp ⟨2, ![8, n]⟩ e) (f : V.ty.Contents Val)
    (w0 w1 w2 w3 w4 w5 w6 w7 : (⟨1, ![n]⟩ : Shape).Idx → Val e)
    (inb0) (inb1) (inb2) (inb3) (inb4) (inb5) (inb6) (inb7) (hq0) (hq1) (hq2) (hq3) (hq4) (hq5) (hq6) (hq7) (l : Fin n) :
    V.read Val
      ((rowView V ![7, 0] inb7 hq7).write Val
        ((rowView V ![6, 0] inb6 hq6).write Val
          ((rowView V ![5, 0] inb5 hq5).write Val
            ((rowView V ![4, 0] inb4 hq4).write Val
              ((rowView V ![3, 0] inb3 hq3).write Val
                ((rowView V ![2, 0] inb2 hq2).write Val
                  ((rowView V ![1, 0] inb1 hq1).write Val
                    ((rowView V ![0, 0] inb0 hq0).write Val f w0 Finset.univ)
                    w1 Finset.univ)
                  w2 Finset.univ)
                w3 Finset.univ)
              w4 Finset.univ)
            w5 Finset.univ)
          w6 Finset.univ)
        w7 Finset.univ) (ix2 (⟨7, by decide⟩ : Fin 8) l) = w7 (ix1 l) := by
  have h : 7 < 8 := by decide
  exact read_rows8 V f w0 w1 w2 w3 w4 w5 w6 w7 inb0 inb1 inb2 inb3 inb4 inb5 inb6 inb7 hq0 hq1 hq2 hq3 hq4 hq5 hq6 hq7 ⟨7, h⟩ l

end Rows8

/-! ## The side conditions the body assumes of the words it reads

Each says that the [1, 128] row of the table at (word, 0) lies inside the [800000, 128] table: the word, read as an
unsigned number, is below 800000. Every word of the list is (`hT`). -/

/-- The row at (v, 0) is a row of the table when v < 800000. -/
theorem row_inb (v : BitVec 32) (h : v.toNat < 800000) :
    ∀ a, (![v.toNat, 0] : Fin 2 → Nat) a + S1x128.size a ≤ S800000x128.size a :=
  Fin.forall_fin_two.mpr ⟨(by show v.toNat + 1 ≤ 800000; omega), (by show 0 + 128 ≤ 128; omega)⟩

theorem chk1_of_lt (v : BitVec 32) (h : v.toNat < 800000) : k0_chk1 v := ⟨row_inb v h, row_inb v h⟩
theorem chk2_of_lt (v : BitVec 32) (h : v.toNat < 800000) : k0_chk2 v := ⟨row_inb v h, row_inb v h⟩
theorem chk3_of_lt (v : BitVec 32) (h : v.toNat < 800000) : k0_chk3 v := ⟨row_inb v h, row_inb v h⟩
theorem chk4_of_lt (v : BitVec 32) (h : v.toNat < 800000) : k0_chk4 v := ⟨row_inb v h, row_inb v h⟩
theorem chk5_of_lt (v : BitVec 32) (h : v.toNat < 800000) : k0_chk5 v := ⟨row_inb v h, row_inb v h⟩
theorem chk6_of_lt (v : BitVec 32) (h : v.toNat < 800000) : k0_chk6 v := ⟨row_inb v h, row_inb v h⟩
theorem chk7_of_lt (v : BitVec 32) (h : v.toNat < 800000) : k0_chk7 v := ⟨row_inb v h, row_inb v h⟩
theorem chk8_of_lt (v : BitVec 32) (h : v.toNat < 800000) : k0_chk8 v := row_inb v h

/-- A word read off the list through the whole list's view is one of the list's entries. -/
theorem word_eq (c : Dev nD) (tb : Bf (F := F) c (Memref.whole main_v3)) (R : LoadRect S131072) (x : R.shape.Idx) :
    View.readAt (Elt F) (Memref.whole main_v3).view R tb x = (tb : IVec S131072 32) (R.idx x) := by
  rw [View.readAt_apply, View.read_apply, cast_eq]; rfl

/-- So it is below 800000 when every entry is. -/
theorem word_lt (c : Dev nD) (tb : Bf (F := F) c (Memref.whole main_v3))
    (hT : ∀ r : S131072.Idx, ((tb : IVec S131072 32) r).toNat < 800000) (R : LoadRect S131072) (x : R.shape.Idx) :
    (View.readAt (Elt F) (Memref.whole main_v3).view R tb x : BitVec 32).toNat < 800000 := by
  rw [word_eq]; exact hT _

/-! ## What one copy moves

The copy for row j reads the word at position n = 8·i + j of the list and moves the table's row named by it. -/

section Payload

open ValueIdx

/-- The word the body reads at offset n of the list is the list's entry n. -/
theorem word_at (c : Dev nD) (tb : Bf (F := F) c (Memref.whole main_v3)) (off : Fin 1 → Nat)
    (inb : ∀ a, off a + S1.size a ≤ S131072.size a) (h1 : 0 < S1.numel) (n : Fin 131072) (hoff : off = ![n.val]) :
    View.readAt (Elt F) (Memref.whole main_v3).view (Rect.unit (s := S131072) off S1.size inb).toLoadRect tb (Shape.Idx.first h1)
      = (tb : IVec S131072 32) (ix1 n) := by
  subst hoff
  rw [word_eq]
  refine congrArg (tb : IVec S131072 32) (funext fun a => Fin.ext ?_)
  match a with
  | ⟨0, _⟩ => show n.val + 1 * 0 = n.val; omega

/-- Row v of the table, read as a 128-vector through the whole table's view, is the table's entries (v, ·). -/
theorem payload_eq (c : Dev nD) (wt : Bf (F := F) c (Memref.whole main_arg1)) (v : BitVec 32) (off : Fin 2 → Nat)
    (hoff : off = ![v.toNat, 0]) (inb : ∀ a, off a + S1x128.size a ≤ S800000x128.size a) (hs) (hq : S1x128.Squeezes S128)
    (hv : v.toNat < 800000) (l : Fin 128) :
    (ReadAs.same : ReadAs (Elt F) S128 .f32 S128 .f32).apply
        (View.read (Elt F) (((Memref.whole main_arg1).slice (Rect.unit (s := S800000x128) off S1x128.size inb) hs).squeeze S128 hq).view wt) (ix1 l)
      = (wt : FVec F S800000x128 .f32) (ix2 (⟨v.toNat, hv⟩ : Fin 800000) l) := by
  subst hoff
  show View.read (Elt F) (rowView (Memref.whole main_arg1).view ![v.toNat, 0] inb hq.numel_eq) wt (ix1 l) = _
  rw [View.read_apply, rowView_emb _ _ inb hq.numel_eq (⟨v.toNat, hv⟩ : Fin 800000) rfl rfl l, cast_eq]
  rfl

/-- The same with the row named by the list's entry n. -/
theorem payload_of_word (c : Dev nD) (tb : Bf (F := F) c (Memref.whole main_v3)) (wt : Bf (F := F) c (Memref.whole main_arg1))
    (hT : ∀ r : S131072.Idx, ((tb : IVec S131072 32) r).toNat < 800000) (v : BitVec 32) (n : Fin 131072)
    (hv : v = (tb : IVec S131072 32) (ix1 n)) (off : Fin 2 → Nat)
    (hoff : off = ![v.toNat, 0]) (inb : ∀ a, off a + S1x128.size a ≤ S800000x128.size a) (hs) (hq : S1x128.Squeezes S128) (l : Fin 128) :
    (ReadAs.same : ReadAs (Elt F) S128 .f32 S128 .f32).apply
        (View.read (Elt F) (((Memref.whole main_arg1).slice (Rect.unit (s := S800000x128) off S1x128.size inb) hs).squeeze S128 hq).view wt) (ix1 l)
      = (wt : FVec F S800000x128 .f32) (ix2 (⟨((tb : IVec S131072 32) (ix1 n)).toNat, hT _⟩ : Fin 800000) l) := by
  subst hv
  exact payload_eq c wt _ off hoff inb hs hq (hT _) l

end Payload

set_option sl_exec.dmaWindow true in
set_option maxHeartbeats 4000000 in
/-- From the id list and the table's read shares held, the output block's buffer whole at anything, the eight counters
    at zero and the core owing nothing: the body runs to its return, handing back the list and the shares as they were,
    the counters at zero, and the block at contents that read, through the block's view, as `blockVal`. -/
theorem kernelRun (c : Dev nD) (i : grid0.Coords) (M3 : Memref sig .tc .vmem S8x128 .f32) (h3 : M3.IsWhole)
    (tb : Bf (F := F) c (Memref.whole main_v3)) (wt : Bf (F := F) c (Memref.whole main_arg1)) (f3 : Bf (F := F) c M3)
    (hT : ∀ r : S131072.Idx, ((tb : IVec S131072 32) r).toNat < 800000)
    (W : Waits sig Unit) (Q : PUnit → sProp 𝕄) :
    iprop(pt c (Memref.whole main_v3) tb ∗ wToks c wt ∗ pt c M3 f3 ∗ sems0 c ∗ owes (c : Thread nD τ) 0 W
      ∗ (iprop(pt c (Memref.whole main_v3) tb ∗ wToks c wt
            ∗ (∃ f, ⌜M3.view.read (Elt F) f = blockVal (F := F) tb wt hT i⌝ ∗ pt c M3 f) ∗ sems0 c
            ∗ ∃ W, owes (c : Thread nD τ) 0 W) -∗ Q ⟨⟩))
    ⊢ wp frame (wpE (defs₀ (F := F)) Variants.none c none) Set.univ
        (cc0__gather_kernel i (Memref.whole main_v3) (Memref.isWhole_whole _) (Memref.whole main_arg1) (Memref.isWhole_whole _) M3 h3 cc0_scratch0) Q := by
  iintro ⟨Ht, ⟨Hwr, Hw0, Hw1, Hw2, Hw3, Hw4, Hw5, Hw6, Hw7, Hw8, Hw9⟩, H3, ⟨Hd0, Hd1, Hd2, Hd3, Hd4, Hd5, Hd6, Hd7⟩, HO, Hk⟩
  simp only [cc0__gather_kernel_eq_skeleton]; unfold cc0__gather_kernel_skel
  sl_exec! (disch := first
    | (sl_unfold_words; exact chk1_of_lt _ (word_lt c tb hT _ _))
    | (sl_unfold_words; exact chk2_of_lt _ (word_lt c tb hT _ _))
    | (sl_unfold_words; exact chk3_of_lt _ (word_lt c tb hT _ _))
    | (sl_unfold_words; exact chk4_of_lt _ (word_lt c tb hT _ _))
    | (sl_unfold_words; exact chk5_of_lt _ (word_lt c tb hT _ _))
    | (sl_unfold_words; exact chk6_of_lt _ (word_lt c tb hT _ _))
    | (sl_unfold_words; exact chk7_of_lt _ (word_lt c tb hT _ _))
    | (sl_unfold_words; exact chk8_of_lt _ (word_lt c tb hT _ _)))
  sl_step
  iapply Hk
  isplitl [Ht]; · iexact Ht
  isplitl [Hwr Hw0 Hw1 Hw2 Hw3 Hw4 Hw5 Hw6 Hw7 Hw8 Hw9]
  · isplitl [Hwr]; · iexact Hwr
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    isplitl [Hw8]; · iexact Hw8
    iexact Hw9
  isplitl [H3]
  · iexists _; isplitr; swap; · iexact H3
    ipureintro
    -- the block read through its view, entry by entry
    funext y
    obtain ⟨j, l, rfl⟩ : ∃ (j : Fin 8) (l : Fin 128), y = ValueIdx.ix2 j l := ⟨y 0, y 1, ValueIdx.eq_ix2 y⟩
    fin_cases j
    · -- row 0: it holds the first copy's payload, the table's row named by word 8·i + 0 of the list
      refine (read_rows8_0 M3.view f3 _ _ _ _ _ _ _ _ _ _ _ _ _ _ _ _ _ _ _ _ _ _ _ _ l).trans ?_
      sl_unfold_run_names
      exact payload_of_word c tb wt hT _ ⟨8 * (i 0).val + 0, by have h : (i 0).val < 16384 := (i 0).isLt; omega⟩
        (word_at c tb _ _ _ _ (k0_off1_eq i)) _ rfl _ _ _ l
    · -- row 1: it holds the second copy's payload, the table's row named by word 8·i + 1 of the list
      refine (read_rows8_1 M3.view f3 _ _ _ _ _ _ _ _ _ _ _ _ _ _ _ _ _ _ _ _ _ _ _ _ l).trans ?_
      sl_unfold_run_names
      exact payload_of_word c tb wt hT _ ⟨8 * (i 0).val + 1, by have h : (i 0).val < 16384 := (i 0).isLt; omega⟩
        (word_at c tb _ _ _ _ (k0_off3_eq i)) _ rfl _ _ _ l
    · -- row 2: it holds the third copy's payload, the table's row named by word 8·i + 2 of the list
      refine (read_rows8_2 M3.view f3 _ _ _ _ _ _ _ _ _ _ _ _ _ _ _ _ _ _ _ _ _ _ _ _ l).trans ?_
      sl_unfold_run_names
      exact payload_of_word c tb wt hT _ ⟨8 * (i 0).val + 2, by have h : (i 0).val < 16384 := (i 0).isLt; omega⟩
        (word_at c tb _ _ _ _ (k0_off5_eq i)) _ rfl _ _ _ l
    · -- row 3: it holds the fourth copy's payload, the table's row named by word 8·i + 3 of the list
      refine (read_rows8_3 M3.view f3 _ _ _ _ _ _ _ _ _ _ _ _ _ _ _ _ _ _ _ _ _ _ _ _ l).trans ?_
      sl_unfold_run_names
      exact payload_of_word c tb wt hT _ ⟨8 * (i 0).val + 3, by have h : (i 0).val < 16384 := (i 0).isLt; omega⟩
        (word_at c tb _ _ _ _ (k0_off7_eq i)) _ rfl _ _ _ l
    · -- row 4: it holds the fifth copy's payload, the table's row named by word 8·i + 4 of the list
      refine (read_rows8_4 M3.view f3 _ _ _ _ _ _ _ _ _ _ _ _ _ _ _ _ _ _ _ _ _ _ _ _ l).trans ?_
      sl_unfold_run_names
      exact payload_of_word c tb wt hT _ ⟨8 * (i 0).val + 4, by have h : (i 0).val < 16384 := (i 0).isLt; omega⟩
        (word_at c tb _ _ _ _ (k0_off9_eq i)) _ rfl _ _ _ l
    · -- row 5: it holds the sixth copy's payload, the table's row named by word 8·i + 5 of the list
      refine (read_rows8_5 M3.view f3 _ _ _ _ _ _ _ _ _ _ _ _ _ _ _ _ _ _ _ _ _ _ _ _ l).trans ?_
      sl_unfold_run_names
      exact payload_of_word c tb wt hT _ ⟨8 * (i 0).val + 5, by have h : (i 0).val < 16384 := (i 0).isLt; omega⟩
        (word_at c tb _ _ _ _ (k0_off11_eq i)) _ rfl _ _ _ l
    · -- row 6: it holds the seventh copy's payload, the table's row named by word 8·i + 6 of the list
      refine (read_rows8_6 M3.view f3 _ _ _ _ _ _ _ _ _ _ _ _ _ _ _ _ _ _ _ _ _ _ _ _ l).trans ?_
      sl_unfold_run_names
      exact payload_of_word c tb wt hT _ ⟨8 * (i 0).val + 6, by have h : (i 0).val < 16384 := (i 0).isLt; omega⟩
        (word_at c tb _ _ _ _ (k0_off13_eq i)) _ rfl _ _ _ l
    · -- row 7: it holds the eighth copy's payload, the table's row named by word 8·i + 7 of the list
      refine (read_rows8_7 M3.view f3 _ _ _ _ _ _ _ _ _ _ _ _ _ _ _ _ _ _ _ _ _ _ _ _ l).trans ?_
      sl_unfold_run_names
      exact payload_of_word c tb wt hT _ ⟨8 * (i 0).val + 7, by have h : (i 0).val < 16384 := (i 0).isLt; omega⟩
        (word_at c tb _ _ _ _ (k0_off15_eq i)) _ rfl _ _ _ l
  isplitl [Hd0 Hd1 Hd2 Hd3 Hd4 Hd5 Hd6 Hd7]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hd7
  iexists _; iexact HO

end Cert.Kernel.Hand

end
-- ==== Proof.HandKernel.Data.lean ====
/-
  The gather program's run, the data: the buffers' contents when the region is entered, the pipeline's proof data, and
  what @main's last operation computes from what the region leaves.

  @main computes the row ids (two broadcasts and an add), lays them out as one list of 131072 words in scalar memory
  (a reshape), runs ONE kernel region over 16384 grid points whose index map reads no table — the list is read by the
  body only —, and reshapes the region's [131072, 128] result to [4, 4096, 8, 128].
-/
import proofs.«413654_j38517266710585_2_alg».proof.Proof.HandKernel.Defs
import proofs.«413654_j38517266710585_2_alg».proof.Proof.Gen.Kernel.Launch
import Idealize.ShloMosaic.Lib.Pipeline.Regions
import Idealize.ShloMosaic.Lib.Pipeline.Frame
import Idealize.ShloMosaic.Lib.Pipeline.FrameSuffix

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component of the run's. -/
abbrev EP : Emb (UR sig nD τ) (MT nD τ sig Unit (Elt F) ℕ (UU nD τ) ℕ) := embL

variable (m : (ℓ : Loc nD τ sig) → Buf (Elt F) ℓ) (ρ : Dev nD → PrngReg)

/-! ## @main before the region -/

/-- Core `c`'s buffers at launch, as the operations' valuation; -/
abbrev V₀ (c : Dev nD) : Valuation τ sig (Elt F) := fun b => m ((c : Dev nD), b)
/-- and when the region is entered: the four operations have run. -/
abbrev V (c : Dev nD) (b : Ref sig .tc) : Buf (Elt F) ((c : Thread nD τ).loc b) := StableHlo.after hostOps0 (V₀ m c) b

/-- Every word of the id list, read unsigned, names a row of the table. -/
def TblOk : Prop := ∀ (c : Dev nD) (r : S131072.Idx), ((V m c main_v3 : IVec S131072 32) r).toNat < 800000

variable (hH : TblOk m)

/-- There is one device. -/
theorem dev_eq (c : Dev nD) : c = 0 := Subsingleton.elim _ _

/-- The list's contents are the tables' admissible contents (the side condition on them is empty: no index map reads them). -/
def adm : (p : Fin 1) → (pcfgs (F := F) p).Adm := fun _ => ⟨fun k => V m 0 (pre0.ref k), trivial⟩

/-! ## The pipeline's proof data -/

/-- The invariant between grid points: the list, the table as read shares, the eight counters at zero. -/
def Φc (c : Dev nD) : sProp 𝕄 :=
  iprop(pt c (Memref.whole main_v3) (V m c main_v3) ∗ wToks c (V m c main_arg1) ∗ sems0 c
    ∗ Pipeline.scopedRest (Ix := Unit) (Name := ℕ) (U := UU nD τ) (Lvl := ℕ) (Val := Elt F) spec0 c)

/-- The proof data on core `c`: the output array at its entry contents; after the body at point `t` the block holds the
    eight gathered rows; the invariant; nothing owed; the full share. -/
def dats (p : Fin 1) (c : Dev nD) : Dat τ (Elt F) Unit ℕ (UU nD τ) ℕ (Pipeline.pin (pcfgs (F := F)) (adm m) p) c where
  A w := V m c (Pipeline.arrRef spec0 w)
  after w t := match w with | ⟨0, _⟩ => blockVal (F := F) (V m c main_v3) (V m c main_arg1) (hH c) (grid0.coords t)
  Φ _ := Φc m c
  q _ := fullShare
  owed _ := 0

abbrev 𝒱₀ : Variants := Variants.none

/-! ## After the region -/

/-- Core `c`'s buffers when the region is left: the output array at what the pipeline's account computes from the blocks
    the body left at the 16384 points, every other buffer as the region was entered. -/
def V1 (c : Dev nD) : Valuation τ sig (Elt F) :=
  Pipeline.withArrays spec0 c (StableHlo.after hostOps0 (V₀ m c))
    (fun w => (dats m hH 0 c).arrAt w (Pipeline.pin (pcfgs (F := F)) (adm m) 0).N)

/-- The result buffer at the end: the last operation (the reshape) applied to that. -/
def outVal (c : Dev nD) : Buf (Elt F) ((c : Thread nD τ).loc main_v5) :=
  StableHlo.after hostOps1 (V1 m hH c) (Proc.devRef .tc main_v5)

end Cert.Kernel.Hand

end
-- ==== Proof.HandKernel.Run.lean ====
/-
  The gather program's run: the launch. @main is three segments — the host operations that compute the id list, the
  kernel region, the reshape of its result — and the run is the library's theorem for a program given as segments.
  The region is entered holding every unscoped buffer at what the host operations left; the output array goes to the
  pipeline, the id list and the table (split into read shares) and the kernel's eight semaphores to the invariant
  between grid points, the other buffers bypass; it is left with the output array at the pipeline's account of the
  blocks. Under the hypothesis that the list's words name rows of the table, every weakly fair execution terminates,
  the result buffer ends at `outVal` and the three arguments as they were.
-/
import proofs.«413654_j38517266710585_2_alg».proof.Proof.HandKernel.Body
import proofs.«413654_j38517266710585_2_alg».proof.Proof.HandKernel.Data

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg) (hH : TblOk m)

/-! ## The table as read shares, and two buffers held -/

/-- The table whole is the remainder and the ten read shares; -/
theorem wToks_split (c : Dev nD) (wt : Bf (F := F) c (Memref.whole main_arg1)) : (wAt c fullShare wt : sProp 𝕄) ⊢ wToks c wt :=
  (Transfers.pointsTo_toks_split (Ix := Unit) (Name := ℕ) (U := UU nD τ) (Lvl := ℕ) fullShare 10).trans
    (Entails.of_eq (by rw [bigSep_univ_eq_bigSepL [(0 : Fin 10), 1, 2, 3, 4, 5, 6, 7, 8, 9] (by decide) (by decide)]; rfl))

/-- and back. -/
theorem wToks_join (c : Dev nD) (wt : Bf (F := F) c (Memref.whole main_arg1)) : (wToks c wt : sProp 𝕄) ⊢ wAt c fullShare wt :=
  (Entails.of_eq (by rw [bigSep_univ_eq_bigSepL [(0 : Fin 10), 1, 2, 3, 4, 5, 6, 7, 8, 9] (by decide) (by decide)]; rfl)).trans
    (Transfers.pointsTo_toks_join (Ix := Unit) (Name := ℕ) (U := UU nD τ) (Lvl := ℕ) fullShare 10)

/-- The buffers the last operation runs within: the region's result and the program's. -/
def S2 : Finset (DevRef τ sig) := {Proc.devRef .tc main_v4, Proc.devRef .tc main_v5}

omit [FloatOps F] in
/-- Those two held at a valuation, one by one. -/
theorem held_S2 (c : Dev nD) (W : Valuation τ sig (Elt F)) :
    (StableHlo.held (c : Thread nD τ) S2 W : sProp 𝕄)
      = iprop((((c : Thread nD τ).loc main_v4) ↦{fullShare} W (Proc.devRef .tc main_v4))
          ∗ (((c : Thread nD τ).loc main_v5) ↦{fullShare} W (Proc.devRef .tc main_v5))) := by
  unfold StableHlo.held S2
  rw [BI.bigSep_insert (by decide), BI.bigSep_singleton]
  rfl

/-! ## The body obligation -/

/-- At every grid point: the invariant and the block's buffer taken apart, the body's run applied, its post reassembled. -/
theorem body_obligation (c : Dev nD) : BodyObligation (dats m hH 0 c) (defs₀ (F := F)) 𝒱₀ () Set.univ := fun t => by
  rw [bigSep_W0, bigSep_W0]
  rw [show (dats m hH 0 c).Φ t.castSucc = Φc m c from rfl, show (dats m hH 0 c).Φ t.succ = Φc m c from rfl]
  unfold Φc Dat.owesAt Pipeline.owesWithin; rw [scopedRest0_eq]
  rw [show (dats m hH 0 c).owed t.castSucc = 0 from rfl, show (dats m hH 0 c).owed t.succ = 0 from rfl]
  have hst : (((Pipeline.pin (pcfgs (F := F)) (adm m) 0).win (0 : Fin 1)).stage ((Pipeline.pin (pcfgs (F := F)) (adm m) 0).slots t (0 : Fin 1))).IsWhole :=
    (launch0 (F := F)).stage_whole (0 : Fin 1) _
  unfold owns
  rw [hst.set_eq_univ]
  dsimp only
  iintro ⟨⟨Ht, Hw, Hsems, -⟩, ⟨%W, %hW, HO⟩, ⟨%d0, %f0, %hf0, H0⟩⟩
  iapply (kernelRun (F := F) c (grid0.coords t) _ (hstage0_0 _) (V m c main_v3) (V m c main_arg1) f0 (hH c) W)
  isplitl [Ht]; · iexact Ht
  isplitl [Hw]; · iexact Hw
  isplitl [H0]; · iexact H0
  isplitl [Hsems]; · iexact Hsems
  isplitl [HO]; · iexact HO
  iintro ⟨Ht, Hw, ⟨%f, %hf, H3⟩, Hsems, ⟨%W', HO⟩⟩
  isplitl [Ht Hw Hsems]
  · isplitl [Ht]; · iexact Ht
    isplitl [Hw]; · iexact Hw
    isplitl [Hsems]; · iexact Hsems
    iempintro
  isplitl [HO]
  · iexists W'; isplitr; · ipureintro; exact fun _ _ => Or.inl trivial
    iexact HO
  iexists f; isplitr; swap; (· iexact H3); ipureintro; exact hf

/-! ## The launch, by the library: @main as segments -/

/-- The layout the launch needs of the kernel's own semaphores: scoped, distinct, and no staging semaphore. -/
theorem ownSemFacts : Pipeline.OwnSemFacts spec0 osem := by decide

/-- The launch element: the pipeline library's at the staging cells and the pipeline's transfers; no counter yet. -/
def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

omit [FloatOps F] in
/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2, 3, 4, 5, 6, 7] (by decide) (by decide)

/-- No core owes another anything: no level is assigned. -/
abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- The three arguments as the region was entered: what rides beside the last operation. -/
abbrev Rz (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2))

/-- THE FIRST HOST SEGMENT: the four operations over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- THE LAST HOST SEGMENT: the reshape, over the region's result and the program's, the arguments riding along. -/
def seg1 : Pipeline.HostSeg (Name := ℕ) (U := UU nD τ) (pcfgs (F := F)) defs₀ 𝒱₀ L lv :=
  Pipeline.HostSeg.ofOps _ _ _ _ _ S2 hostOps1
    (by intro op h; cases h with
        | head => exact (StableHlo.reshape_bufs ..).le
        | tail _ h => exact nomatch h)
    (by intro _ h; (repeat (cases h with | head => rfl | tail _ h => ?_)); exact nomatch h) (V1 m hH) (fun c => iprop(Rz m c ∗ R c))

/-- The id list's buffer, as the tables' contents. -/
theorem prefHeld_eq (c : Dev nD) :
    (Pipeline.prefHeld (Ix := Unit) (Name := ℕ) (U := UU nD τ) (Lvl := ℕ) pre0 c (fun _ => fullShare) (fun k => V m c (pre0.ref k)) : sProp 𝕄)
      = pt c (Memref.whole main_v3) (V m c main_v3) := by
  unfold Pipeline.prefHeld
  rw [show (Finset.univ : Finset (Fin pre0.K)) = {0} from rfl, BI.bigSep_singleton]
  rfl

/-- The unscoped buffers that are not the output array: the id list, and the seven others one by one. -/
theorem unscopedRest_eq (c : Dev nD) :
    (Pipeline.unscopedRest (Ix := Unit) (Name := ℕ) (U := UU nD τ) (Lvl := ℕ) spec0 c (V m c) : sProp 𝕄)
      = iprop(Pipeline.prefHeld pre0 c (fun _ => fullShare) (fun k => V m c (pre0.ref k))
          ∗ ((((c : Thread nD τ).loc main_arg0) ↦{fullShare} V m c main_arg0) ∗ (((c : Thread nD τ).loc main_arg1) ↦{fullShare} V m c main_arg1)
            ∗ (((c : Thread nD τ).loc main_arg2) ↦{fullShare} V m c main_arg2) ∗ (((c : Thread nD τ).loc main_v0) ↦{fullShare} V m c main_v0)
            ∗ (((c : Thread nD τ).loc main_v1) ↦{fullShare} V m c main_v1) ∗ (((c : Thread nD τ).loc main_v2) ↦{fullShare} V m c main_v2)
            ∗ (((c : Thread nD τ).loc main_v5) ↦{fullShare} V m c main_v5))) := by
  rw [Pipeline.unscopedRest_split (launch0 (F := F)).pre c (V m c), unscopedRestP0_eq c (V m c)]

/-- When the region is left the output array holds the pipeline's account of the blocks, -/
theorem V1_v4 (c : Dev nD) :
    V1 m hH c (Proc.devRef .tc main_v4) = (dats m hH 0 c).arrAt 0 (Pipeline.pin (pcfgs (F := F)) (adm m) 0).N :=
  Pipeline.withArrays_arr spec0 (launch0 (F := F)).win.arr_inj c _ _ 0

/-- and the program's result buffer what it held. -/
theorem V1_v5 (c : Dev nD) : V1 m hH c (Proc.devRef .tc main_v5) = V m c main_v5 :=
  Pipeline.withArrays_of_ne spec0 c _ _ main_v5 (fun w => by fin_cases w; decide)

-- `iapply` of a Launch.lean lemma stated over the pinned configuration unifies only when unification may
-- unfold plain definitions in a metavariable's type
set_option backward.isDefEq.respectTransparency.types false in
/-- THE REGION: the generated launch facts' layout, the kernel's eight semaphores, the body obligation; entered from what the first
    segment left — the output array into the pipeline; the id list, the table and the semaphores into the invariant;
    the arguments and the program's result buffer bypassing —, left with the output array at the pipeline's account. -/
def reg0 : Pipeline.RegionSeg (pcfgs (F := F)) (adm m) (dats m hH) () defs₀ 𝒱₀ L lv 0 where
  win := (launch0 (F := F)).win.to₀
  block_pos := (launch0 (F := F)).block_pos
  stage_whole := (launch0 (F := F)).stage_whole
  K := Fin 8
  osem := osem
  ho := ownSemFacts
  hbody c := (body_obligation m hH c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S2 (V1 m hH c) ∗ Rz m c ∗ R c)
  X c := iprop(wAt c fullShare (V m c main_arg1) ∗ sems0 c)
  Y c := iprop(pt c (Memref.whole main_v3) (V m c main_v3) ∗ wAt c fullShare (V m c main_arg1))
  Z c := iprop((((c : Thread nD τ).loc main_arg0) ↦{fullShare} V m c main_arg0) ∗ (((c : Thread nD τ).loc main_arg2) ↦{fullShare} V m c main_arg2)
    ∗ (((c : Thread nD τ).loc main_v5) ↦{fullShare} V m c main_v5))
  hentry c := by
    obtain rfl := dev_eq c
    rw [show StableHlo.held ((0 : Dev nD) : Thread nD τ) (Pipeline.ucRefs τ sig) (StableHlo.after hostOps0 (V₀ m 0)) = unscopedBufs 0 (V m 0)
      from (Pipeline.unscopedBufs_held 0 _).symm, ownSems0_eq]
    have hsplit := (Pipeline.arrays_of_unscopedBufs (pcfgs (F := F)) (adm m) (dats m hH) (launch0 (F := F)).win (launch0 (F := F)).arr_whole 0
      ((dats m hH 0 0).share_full fun _ => rfl) (V m 0) fun _ => rfl).trans (sep_mono .rfl (Entails.of_eq (unscopedRest_eq m 0)))
    iintro ⟨⟨Hub, HO⟩, Hos, -⟩
    ihave H := hsplit $$ Hub
    icases H with ⟨Ha, Hpf, H0, H1, H2, -, -, -, H5⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H0]; · iexact H0
    isplitl [H2]; · iexact H2
    iexact H5
  hin c := by
    obtain rfl := dev_eq c
    show iprop(iprop(wAt 0 fullShare (V m 0 main_arg1) ∗ sems0 0)
        ∗ Pipeline.prefHeld pre0 0 (fun _ => fullShare) (fun k => V m 0 (pre0.ref k))
        ∗ Pipeline.scopedRest (Ix := Unit) (Name := ℕ) (U := UU nD τ) (Lvl := ℕ) (Val := Elt F) spec0 0) ⊢ Φc m 0
    rw [prefHeld_eq]; unfold Φc
    iintro ⟨⟨Hw, Hos⟩, Ht, Hr⟩
    ihave Hw' := (wToks_split 0 _) $$ Hw
    isplitl [Ht]; · iexact Ht
    isplitl [Hw']; · iexact Hw'
    isplitl [Hos] <;> iassumption
  hout c := by
    rw [ownSems0_eq, show (dats m hH 0 c).Φ (Fin.last (Pipeline.pin (pcfgs (F := F)) (adm m) 0).N) = Φc m c from rfl]; unfold Φc
    iintro ⟨Ht, Hw, Hos, Hr⟩
    ihave Hw' := (wToks_join c _) $$ Hw
    isplitl [Ht Hw']
    · isplitl [Ht]; · iexact Ht
      iexact Hw'
    isplitl [Hos] <;> iassumption
  hexit c := by
    rw [Pipeline.arrays_eq (Pipeline.pin (pcfgs (F := F)) (adm m)) (dats m hH) 0 c (launch0 (F := F)).arr_whole ((dats m hH 0 c).share_full fun _ => rfl),
      bigSep_W0, held_S2, V1_v4, V1_v5]
    iintro ⟨Ha, HO, ⟨-, Hw⟩, H0, H2, H5⟩
    imodintro
    isplitl [Ha H5]
    · isplitl [Ha]; · iexact Ha
      iexact H5
    isplitl [H0 Hw H2]
    · isplitl [H0]; · iexact H0
      isplitl [Hw]; · iexact Hw
      iexact H2
    · unfold Pipeline.Dat.owesAt Pipeline.owesWithin
      icases HO with ⟨%W, -, HO⟩; iexists W; iexact HO

/-- @main as the list of the three. -/
abbrev segs : List (Pipeline.Seg (pcfgs (F := F)) (adm m) (dats m hH) () defs₀ 𝒱₀ L lv) :=
  [.host (seg0 m), .region (reg0 m hH), .host (seg1 m hH)]

/-- The final state: the result buffer at `outVal`, the three arguments as the host operations left them (no operation writes one). -/
def QC : PUnit × MemSt nD τ sig (Elt F) → Prop := fun r =>
  ∀ c : Dev nD, r.2.mem ((c : Thread nD τ).loc main_v5) = outVal m hH c
    ∧ r.2.mem ((c : Thread nD τ).loc main_arg0) = V m c main_arg0
    ∧ r.2.mem ((c : Thread nD τ).loc main_arg1) = V m c main_arg1
    ∧ r.2.mem ((c : Thread nD τ).loc main_arg2) = V m c main_arg2

/-- What the last segment leaves: the two buffers after the reshape, the arguments. -/
abbrev Tₙ (c : Dev nD) : sProp 𝕄 :=
  iprop(StableHlo.held (c : Thread nD τ) S2 (StableHlo.after hostOps1 (V1 m hH c)) ∗ Rz m c)

set_option backward.isDefEq.respectTransparency.types false in
/-- At the compiled mesh, from any memory with zero counters whose id list names rows of the table: every weakly fair
    execution of @main on the TensorCores terminates, the result buffer ends at `outVal` and the arguments unchanged. -/
theorem run_main : θ_run defs (onTc (τ := τ) (main (F := F))) ⟨m, fun _ => 0, ρ⟩ (QC m hH) :=
  Pipeline.θ_run_regions_kit (pcfgs (F := F)) (adm m) (dats m hH) () (cellOf_inj (adm m)) EP defs₀ 𝒱₀ L lv m ρ main (segs m hH)
    (fun c Q => by rw [main_segs (adm m) (dats m hH) () 𝒱₀ L lv (seg0 m) (seg1 m hH) (reg0 m hH) rfl rfl c])
    (by simp only [Pipeline.Seg.pipes_host, Pipeline.Seg.pipes_region, Pipeline.Seg.pipes_nil]; decide) (O₀ := 0) (hL := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m hH)
    (hch := ⟨fun _ => .rfl, fun _ => .rfl, fun _ => .rfl, fun c => by
      show iprop(StableHlo.held (c : Thread nD τ) S2 (StableHlo.after hostOps1 (V1 m hH c)) ∗ (Rz m c ∗ R c))
        ⊢ iprop(Tₙ m hH c ∗ ∃ W, owes (c : Thread nD τ) (0 : CellTallies nD τ sig Unit) W)
      iintro ⟨Hh, Hz, HO⟩
      isplitl [Hh Hz]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v5) = outVal m hH c
      ∧ s.mem ((c : Thread nD τ).loc main_arg0) = V m c main_arg0
      ∧ s.mem ((c : Thread nD τ).loc main_arg1) = V m c main_arg1
      ∧ s.mem ((c : Thread nD τ).loc main_arg2) = V m c main_arg2)
    (hfin := fun c s' => by
      dsimp only [Tₙ]; rw [held_S2]
      iintro ⟨⟨⟨-, H5⟩, H0, H1, H2⟩, HSI⟩
      icombine HSI H5 gives %h5
      icombine HSI H0 gives %h0
      icombine HSI H1 gives %h1
      icombine HSI H2 gives %h2
      imodintro
      isplitr
      · ipureintro
        exact ⟨Buf.eq_of_forall_mem_univ h5, Buf.eq_of_forall_mem_univ h0, Buf.eq_of_forall_mem_univ h1, Buf.eq_of_forall_mem_univ h2⟩
      iexact HSI)
    (hQ := fun _ h => h)

end Cert.Kernel.Hand

end
-- ==== Proof.HandKernel.Value.lean ====
/-
  The gather program's value: what the result buffer holds at the end is the specification.

  Before the region @main forms the global row ids (two broadcasts and the 32-bit sum) and lays them out as one list of
  131072 words, so the list the kernel reads IS the specification's list; no operation writes an argument. The region
  has one output window of blocks [8, 128] over the [131072, 128] result array, the block of grid point t being rows
  8t … 8t + 7, all 128 columns; the body leaves in it, at row j, the table's row named by word 8t + j of the list, which
  is rows 8t … 8t + 7 of the gathered rows. Every point writes its block back (the next point's block is another one)
  and row r lies in point r / 8's block, so the 16384 blocks tile the array and it ends holding the gathered rows. The
  one operation after the region relabels that array, in row-major order, as [4, 4096, 8, 128]: the specification's
  result.
-/
import proofs.«413654_j38517266710585_2_alg».proof.Proof.HandKernel.Data
import proofs.«413654_j38517266710585_2_alg».proof.Proof.Spec
import Idealize.ShloMosaic.Lib.Pipeline.Value
import Idealize.ShloMosaic.Lib.StableHlo.Run

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable (m : (ℓ : Loc nD τ sig) → Buf (Elt F) ℓ)

/-- The three arguments as the launch memory holds them. -/
abbrev a0 (c : Dev nD) : IVec Cert.Proof.Spec.S4x4096x8 32 := m ((c : Thread nD τ).loc main_arg0)
abbrev a1 (c : Dev nD) : FVec F Cert.Proof.Spec.S800000x128 .f32 := m ((c : Thread nD τ).loc main_arg1)
abbrev a2 (c : Dev nD) : IVec Cert.Proof.Spec.S8 32 := m ((c : Thread nD τ).loc main_arg2)

/-- The four operations before the region write the two broadcasts, the sum and the list, and nothing else. -/
theorem hostOps0_writes : (hostOps0 (F := F)).Forall fun op =>
    op.writes ⊆ (([main_v0, main_v1, main_v2, main_v3] : List (Ref sig .tc)).map (Proc.devRef (τ := τ) .tc)).toFinset := by
  refine ⟨?_, ?_, ?_, ?_⟩
  · show (StableHlo.unary _ _ _ _ _).writes ⊆ _
    rw [StableHlo.unary_writes, Finset.singleton_subset_iff, List.mem_toFinset]
    exact List.mem_map.mpr ⟨main_v0, by decide, rfl⟩
  · show (StableHlo.unary _ _ _ _ _).writes ⊆ _
    rw [StableHlo.unary_writes, Finset.singleton_subset_iff, List.mem_toFinset]
    exact List.mem_map.mpr ⟨main_v1, by decide, rfl⟩
  · show (StableHlo.binary _ _ _ _ _ _ _).writes ⊆ _
    rw [StableHlo.binary_writes, Finset.singleton_subset_iff, List.mem_toFinset]
    exact List.mem_map.mpr ⟨main_v2, by decide, rfl⟩
  · show (StableHlo.reshape _ _ _ _ _ _).writes ⊆ _
    rw [StableHlo.reshape_writes, Finset.singleton_subset_iff, List.mem_toFinset]
    exact List.mem_map.mpr ⟨main_v3, by decide, rfl⟩

/-- No operation before the region writes an argument: each reaches the region as launched. -/
theorem V_arg0 (c : Dev nD) : V m c main_arg0 = m ((c : Thread nD τ).loc main_arg0) :=
  StableHlo.after_of_writes_sub hostOps0 (V₀ m c) hostOps0_writes (by decide)
theorem V_arg1 (c : Dev nD) : V m c main_arg1 = m ((c : Thread nD τ).loc main_arg1) :=
  StableHlo.after_of_writes_sub hostOps0 (V₀ m c) hostOps0_writes (by decide)
theorem V_arg2 (c : Dev nD) : V m c main_arg2 = m ((c : Thread nD τ).loc main_arg2) :=
  StableHlo.after_of_writes_sub hostOps0 (V₀ m c) hostOps0_writes (by decide)

/-- The list the region finds in scalar memory is the specification's list of global row ids: the same two broadcasts,
    sum and row-major relabelling of the same arguments. -/
theorem V_tbl (c : Dev nD) : (V m c main_v3 : IVec S131072 32) = Cert.Proof.Spec.tbl (a0 m c) (a2 m c) := by
  dsimp only [V, hostOps0]
  after_results
  rfl

/-- On the domain every word of that list names a row of the table. -/
theorem tblOk_of_inRange (h : ∀ c, Cert.Proof.Spec.InRange (a0 m c) (a2 m c)) : TblOk m := fun c r =>
  lt_of_eq_of_lt (congrArg BitVec.toNat (congrFun (V_tbl m c) r)) (Cert.Proof.Spec.tbl_lt (h c) r)

/-- The grid has one axis: the point's coordinate is the point's number. -/
theorem coords_val (t : Fin grid0.N) : (grid0.coords t 0).val = t.val := by
  have hN : grid0.N = 16384 := N_0
  have ht : t.val < 16384 := hN ▸ t.isLt
  have hs : grid0.stride 0 = 1 := by decide
  show t.val / grid0.stride 0 % 16384 = t.val
  rw [hs]; omega

/-- The output window's block index at grid coordinates `i`: block row `i`, block column 0. -/
theorem transform_row (i : grid0.Coords) : cc0_transform_1 i 0 = (i 0).val := by
  have hi : (i 0).val < 16384 := (i 0).isLt
  show (BitVec.ofNat 32 (i 0).val).toNat = (i 0).val
  rw [BitVec.toNat_ofNat]; omega
/-- Its block column is 0: a block spans all 128 columns. -/
theorem transform_col (i : grid0.Coords) : cc0_transform_1 i 1 = 0 := rfl

/-- Two rows of the table named by equal positions of the list, read at equal columns, are the same entry. -/
theorem row_congr (wt : FVec F S800000x128 .f32) (tb : IVec S131072 32) (hT : ∀ r : S131072.Idx, (tb r).toNat < 800000)
    (r r' : Fin 131072) (l l' : Fin 128) (er : r = r') (el : l = l') :
    wt (ix2 (⟨(tb (ix1 r)).toNat, hT _⟩ : Fin 800000) l) = wt (ix2 (⟨(tb (ix1 r')).toNat, hT _⟩ : Fin 800000) l') := by
  subst er el; rfl

/-- What the body leaves in the block at grid coordinates `i`, read at `y`, is the gathered rows' entry at row
    `8·i + y₀`, column `y₁`. -/
theorem blockVal_apply (tb : IVec S131072 32) (wt w' : FVec F S800000x128 .f32) (hT : ∀ r : S131072.Idx, (tb r).toNat < 800000)
    (x0 : IVec Cert.Proof.Spec.S4x4096x8 32) (x2 : IVec Cert.Proof.Spec.S8 32) (h : Cert.Proof.Spec.InRange x0 x2)
    (htb : tb = Cert.Proof.Spec.tbl x0 x2) (hwt : wt = w')
    (i : grid0.Coords) (y : S8x128.Idx) (k : Cert.Proof.Spec.S131072x128.Idx)
    (hk0 : (k 0).val = 8 * (i 0).val + (y 0).val) (hk1 : (k 1).val = (y 1).val) :
    blockVal tb wt hT i y = Cert.Proof.Spec.rows w' x0 x2 h k := by
  subst htb hwt
  exact row_congr wt _ (Cert.Proof.Spec.tbl_lt h) _ (k 0) (y 1) (k 1) (Fin.ext hk0.symm) (Fin.ext hk1.symm)

/-- What grid point `t` writes back is block `t` of the gathered rows: rows `8t … 8t + 7`, every column. -/
theorem flushed_eq (h : ∀ c, Cert.Proof.Spec.InRange (a0 m c) (a2 m c)) (c : Dev nD)
    (t : Fin (Pipeline.pin (pcfgs (F := F)) (adm m) 0).N) :
    (dats m (tblOk_of_inRange m h) 0 c).flushed 0 t
      = (((Pipeline.pin (pcfgs (F := F)) (adm m) 0).win 0).blk t).view.read (Elt F)
          (Cert.Proof.Spec.rows (a1 m c) (a0 m c) (a2 m c) (h c)) := by
  funext y
  show blockVal (F := F) (V m c main_v3) (V m c main_arg1) (tblOk_of_inRange m h c) (grid0.coords t)
        (((Pipeline.pin (pcfgs (F := F)) (adm m) 0).win 0).xinj (grid0.coords t) y)
      = Cert.Proof.Spec.rows (a1 m c) (a0 m c) (a2 m c) (h c)
          ((((Pipeline.pin (pcfgs (F := F)) (adm m) 0).win 0).blk t).view.emb y)
  refine blockVal_apply (V m c main_v3) (V m c main_arg1) (a1 m c) _ (a0 m c) (a2 m c) (h c) (V_tbl m c) (V_arg1 m c)
    (grid0.coords t) _ _ ?_ ?_
  · show cc0_transform_1 (grid0.coords t) 0 * 8 + 1 * (y (0 : Fin 2)).val = 8 * (grid0.coords t 0).val + (y (0 : Fin 2)).val
    rw [transform_row]; omega
  · show cc0_transform_1 (grid0.coords t) 1 * 128 + 1 * (y (1 : Fin 2)).val = (y (1 : Fin 2)).val
    rw [transform_col]; omega

/-- Every grid point writes its block back: the next point's block is another one. -/
theorem flush_all (t : Fin (Pipeline.pin (pcfgs (F := F)) (adm m) 0).N) :
    ((Pipeline.pin (pcfgs (F := F)) (adm m) 0).win 0).flush t = true := by
  have hN : grid0.N = 16384 := N_0
  have ht : t.val < grid0.N := t.isLt
  show (true && (decide (t.val + 1 = grid0.N)
    || decide (∃ h : t.val + 1 < grid0.N, cc0_transform_1 (grid0.coords ⟨t.val + 1, h⟩) ≠ cc0_transform_1 (grid0.coords t)))) = true
  rw [Bool.true_and, Bool.or_eq_true, decide_eq_true_eq, decide_eq_true_eq]
  by_cases h1 : t.val + 1 = grid0.N
  · exact Or.inl h1
  · have h2 : t.val + 1 < grid0.N := by omega
    refine Or.inr ⟨h2, fun e => ?_⟩
    have e0 : cc0_transform_1 (grid0.coords ⟨t.val + 1, h2⟩) 0 = cc0_transform_1 (grid0.coords t) 0 := congrFun e 0
    have c1 : (grid0.coords ⟨t.val + 1, h2⟩ 0).val = t.val + 1 := coords_val ⟨t.val + 1, h2⟩
    have c0 : (grid0.coords t 0).val = t.val := coords_val t
    rw [transform_row, transform_row, c1, c0] at e0
    omega

/-- An index of the result array is in point `t`'s block iff each coordinate is in the block's range on its axis. -/
theorem mem_blk (t : Fin (Pipeline.pin (pcfgs (F := F)) (adm m) 0).N) (i : S131072x128.Idx) :
    i ∈ (((Pipeline.pin (pcfgs (F := F)) (adm m) 0).win 0).blk t).view.set
      ↔ ∀ a : Fin 2, cc0_transform_1 (grid0.coords t) a * S8x128.size a ≤ (i a).val
          ∧ (i a).val < cc0_transform_1 (grid0.coords t) a * S8x128.size a + S8x128.size a := by
  exact ((Finset.ext_iff.mp (View.set_slice_whole main_v4 (((Pipeline.pin (pcfgs (F := F)) (adm m) 0).win 0).rect t))) i).trans
    Rect.mem_set_unit

/-- The result array when the region is left holds the gathered rows: point `r / 8`'s block covers row `r`. -/
theorem rows_final (h : ∀ c, Cert.Proof.Spec.InRange (a0 m c) (a2 m c)) (c : Dev nD) :
    (dats m (tblOk_of_inRange m h) 0 c).arrAt 0 (Pipeline.pin (pcfgs (F := F)) (adm m) 0).N
      = Cert.Proof.Spec.rows (a1 m c) (a0 m c) (a2 m c) (h c) :=
  (dats m (tblOk_of_inRange m h) 0 c).arrAt_eq_of_cover 0 (Cert.Proof.Spec.rows (a1 m c) (a0 m c) (a2 m c) (h c))
    (fun t _ => flushed_eq m h c t) fun i => by
      have hN : grid0.N = 16384 := N_0
      have h0 : (i (0 : Fin 2) : Nat) < 131072 := (i (0 : Fin 2)).isLt
      have h1 : (i (1 : Fin 2) : Nat) < 128 := (i (1 : Fin 2)).isLt
      have hq : (i (0 : Fin 2) : Nat) / 8 < grid0.N := by omega
      refine ⟨⟨(i (0 : Fin 2) : Nat) / 8, hq⟩, flush_all m _, (mem_blk m _ i).mpr fun a => ?_⟩
      have c0 : (grid0.coords ⟨(i (0 : Fin 2) : Nat) / 8, hq⟩ 0).val = (i (0 : Fin 2) : Nat) / 8 := coords_val ⟨_, hq⟩
      match a with
      | ⟨0, _⟩ =>
        show cc0_transform_1 (grid0.coords ⟨(i (0 : Fin 2) : Nat) / 8, hq⟩) 0 * 8 ≤ (i (0 : Fin 2) : Nat)
          ∧ (i (0 : Fin 2) : Nat) < cc0_transform_1 (grid0.coords ⟨(i (0 : Fin 2) : Nat) / 8, hq⟩) 0 * 8 + 8
        rw [transform_row, c0]; omega
      | ⟨1, _⟩ =>
        show cc0_transform_1 (grid0.coords ⟨(i (0 : Fin 2) : Nat) / 8, hq⟩) 1 * 128 ≤ (i (1 : Fin 2) : Nat)
          ∧ (i (1 : Fin 2) : Nat) < cc0_transform_1 (grid0.coords ⟨(i (0 : Fin 2) : Nat) / 8, hq⟩) 1 * 128 + 128
        rw [transform_col]; omega

/-- So the result array's buffer, as the operation after the region finds it, holds the gathered rows. -/
theorem V1_out (h : ∀ c, Cert.Proof.Spec.InRange (a0 m c) (a2 m c)) (c : Dev nD) :
    V1 m (tblOk_of_inRange m h) c (Proc.devRef .tc main_v4) = Cert.Proof.Spec.rows (a1 m c) (a0 m c) (a2 m c) (h c) :=
  (Pipeline.withArrays_arr spec0 winFacts0.arr_inj c _ _ 0).trans (rows_final m h c)

/-- The result buffer at the end is the specification's result: the gathered rows relabelled in row-major order. -/
theorem outVal_eq (h : ∀ c, Cert.Proof.Spec.InRange (a0 m c) (a2 m c)) (c : Dev nD) :
    (outVal m (tblOk_of_inRange m h) c : FVec F Cert.Proof.Spec.S4x4096x8x128 .f32)
      = Cert.Proof.Spec.out (F := F) (a1 m c) (a0 m c) (a2 m c) (h c) := by
  unfold outVal
  show StableHlo.after hostOps1 _ (Proc.devRef .tc main_v5) = _
  after_results
  exact congrArg (fun x => shapeCast Cert.Proof.Spec.S4x4096x8x128 x Cert.Proof.Spec.sc1) (V1_out m h c)

end Cert.Kernel.Hand
end
-- ==== Proof.lean ====
/-
  A row-gather kernel against `jnp.take`.

  Inputs: ids of shape [4, 4096, 8] and per-head offsets of shape [8] (32-bit words), and a table of 800000 rows of 128
  floats. The global row id is the 32-bit sum of an id and its head's offset; the result, of shape [4, 4096, 8, 128],
  has at (b, s, h, ·) the table's row `gid (b, s, h)`. The kernel lays the 131072 ids out as one list in scalar memory
  and, at each of 16384 grid points, copies the eight rows its eight ids name into the eight rows of an [8, 128] output
  block, each copy on a semaphore of its own, all eight waited for before the block is written back. The reference
  adds the table's height to a negative id, gathers, and replaces a row whose id lies outside 0 … 799999 by a fill value.
  The statement's precondition says every table entry is finite and every global id, as a signed word, lies in
  0 … 799999: on that domain the reference's wrap and fill never act and both programs compute the same gather, entry
  by entry; no arithmetic is done on the table's entries, so finiteness is not used. The kernel's copies assume
  their source row inside the table, which is the same domain: the three frames hold under it.

  The pieces: `Spec` (the mathematics), `PreDecode` (the precondition gives the domain), `RefRun` / `RefTerm` /
  `RefValue` (the reference runs to one pure term, which is the specification on the domain), and for each of the
  kernel program's two readings `Body` (the kernel body at a symbolic grid point), `Data` / `Run` (the launch) and
  `Value` (the result buffer holds the specification).
-/
import proofs.«413654_j38517266710585_2_alg».proof.Defs
import proofs.«413654_j38517266710585_2_alg».proof.Proof.Gen.Kernel
import proofs.«413654_j38517266710585_2_alg».proof.Proof.Gen.KernelIdeal
import proofs.«413654_j38517266710585_2_alg».proof.Proof.Gen.ReferenceIdeal
import proofs.«413654_j38517266710585_2_alg».proof.Proof.Gen.Pre_finite_inputs
import proofs.«413654_j38517266710585_2_alg».proof.Proof.PreDecode
import proofs.«413654_j38517266710585_2_alg».proof.Proof.RefRun
import proofs.«413654_j38517266710585_2_alg».proof.Proof.RefValue
import proofs.«413654_j38517266710585_2_alg».proof.Proof.HandKernelIdeal.Run
import proofs.«413654_j38517266710585_2_alg».proof.Proof.HandKernelIdeal.Value
import proofs.«413654_j38517266710585_2_alg».proof.Proof.HandKernel.Run
import proofs.«413654_j38517266710585_2_alg».proof.Proof.HandKernel.Value

noncomputable section

namespace Cert.Proof

open Idealize.ShloMosaic Idealize.SL.Sem

/-- Under the precondition the idealized kernel program's global ids index the table; -/
theorem inRange_pi (m : (ℓ : Loc Cert.KernelIdeal.nD Cert.KernelIdeal.τ Cert.KernelIdeal.sig) → Buf (Elt Ideal) ℓ)
    (h : Cert.Pre_KernelIdeal m) (c : Dev Cert.KernelIdeal.nD) :
    Cert.Proof.Spec.InRange (Cert.KernelIdeal.Hand.a0 m c) (Cert.KernelIdeal.Hand.a2 m c) :=
  Cert.Proof.PreDecode.inRange_of_pre (F := Ideal) _ _ _ (h c)

/-- and the word-level program's do. -/
theorem inRange_p (m : (ℓ : Loc Cert.Kernel.nD Cert.Kernel.τ Cert.Kernel.sig) → Buf (Elt Bits) ℓ)
    (h : Cert.Pre_Kernel m) (c : Dev Cert.Kernel.nD) :
    Cert.Proof.Spec.InRange (Cert.Kernel.Hand.a0 m c) (Cert.Kernel.Hand.a2 m c) :=
  Cert.Proof.PreDecode.inRange_of_pre (F := Bits) _ _ _ (h c)

/-- The word-level kernel program runs and leaves its arguments as they were. -/
theorem frame_p : Cert.frame_Kernel := fun m ρ hpre =>
  (θ_run Cert.Kernel.defs _ _).mono
    (fun _ h c => ⟨(h c).2.1.trans (Cert.Kernel.Hand.V_arg0 m c), (h c).2.2.1.trans (Cert.Kernel.Hand.V_arg1 m c),
      (h c).2.2.2.trans (Cert.Kernel.Hand.V_arg2 m c)⟩)
    (Cert.Kernel.Hand.run_main (F := Bits) m ρ (Cert.Kernel.Hand.tblOk_of_inRange m (inRange_p m hpre)))

/-- So does the idealized one. -/
theorem frame_pi : Cert.frame_KernelIdeal := fun m ρ hpre =>
  (θ_run Cert.KernelIdeal.defs _ _).mono
    (fun _ h c => ⟨(h c).2.1.trans (Cert.KernelIdeal.Hand.V_arg0 m c), (h c).2.2.1.trans (Cert.KernelIdeal.Hand.V_arg1 m c),
      (h c).2.2.2.trans (Cert.KernelIdeal.Hand.V_arg2 m c)⟩)
    (Cert.KernelIdeal.Hand.run_main (F := Ideal) m ρ (Cert.KernelIdeal.Hand.tblOk_of_inRange m (inRange_pi m hpre)))

/-- The reference runs and leaves its arguments as they were (its run, the result dropped). -/
theorem frame_ri : Cert.frame_ReferenceIdeal := fun m ρ _ =>
  (θ_run Cert.ReferenceIdeal.defs _ _).mono (fun _ h c => (h c).2) (Cert.Proof.Ref.run (F := Ideal) m ρ)

/-- From memories agreeing on the arguments, the kernel program's result buffer ends at the gather of the table's rows
    at the global ids (`Spec.out`: the launch, then `outVal_eq`), and so does the reference's (its run, then
    `refTerm_eq` on the domain the precondition gives). -/
theorem algebraic : Cert.algebraic_KernelIdeal_ReferenceIdeal := by
  intro m ρ m' ρ' hpre hagree
  have hIn := inRange_pi m hpre
  refine ⟨fun c => Cert.Proof.Spec.out (F := Ideal) (Cert.KernelIdeal.Hand.a1 m c) (Cert.KernelIdeal.Hand.a0 m c) (Cert.KernelIdeal.Hand.a2 m c) (hIn c), ?_, ?_⟩
  · refine (θ_run Cert.KernelIdeal.defs _ _).mono (fun _ h c => ?_)
      (Cert.KernelIdeal.Hand.run_main (F := Ideal) m ρ (Cert.KernelIdeal.Hand.tblOk_of_inRange m hIn))
    exact ⟨(h c).1.trans (Cert.KernelIdeal.Hand.outVal_eq m hIn c), (h c).2.1.trans (Cert.KernelIdeal.Hand.V_arg0 m c),
      (h c).2.2.1.trans (Cert.KernelIdeal.Hand.V_arg1 m c), (h c).2.2.2.trans (Cert.KernelIdeal.Hand.V_arg2 m c)⟩
  · refine (θ_run Cert.ReferenceIdeal.defs _ _).mono (fun _ h c => ⟨?_, (h c).2⟩) (Cert.Proof.Ref.run (F := Ideal) m' ρ')
    rw [(h c).1, (hagree c).1, (hagree c).2.1, (hagree c).2.2]
    exact Cert.Proof.Ref.refTerm_eq (F := Ideal) _ _ _ (hIn c)

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
